-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x1600000 32) (main_arg12 : FVec F S3x128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg12
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : IVec S1x1600000 32 := (extractStridedSlice S1x1600000 ![0, 0] · slices_S2x1600000_S1x1600000_0_0) main_arg1
  let main_v60 : IVec S1600000 32 := shapeCast S1600000 main_v59 shapeCasts_S1x1600000_S1600000
  let main_c_22 : IVec S_ 32 := constantI S_ 32 4294867296#32
  let main_v61 : IVec S1600000 32 := broadcastInDim S1600000 ![] bcast_S_S1600000 main_c_22
  let main_v62 : IVec S1600000 1 := cmpi .sge main_v60 main_v61
  let main_v63 : IVec S1x1600000 32 := (extractStridedSlice S1x1600000 ![0, 0] · slices_S2x1600000_S1x1600000_0_0) main_arg1
  let main_v64 : IVec S1600000 32 := shapeCast S1600000 main_v63 shapeCasts_S1x1600000_S1600000
  let main_c_23 : IVec S_ 32 := constantI S_ 32 100000#32
  let main_v65 : IVec S1600000 32 := broadcastInDim S1600000 ![] bcast_S_S1600000 main_c_23
  let main_v66 : IVec S1600000 1 := cmpi .slt main_v64 main_v65
  let main_v67 : IVec S1600000 1 := andi main_v62 main_v66
  let main_c_24 : IVec S_ 1 := constantI S_ 1 1#1
  let main_v68 : IVec S_ 1 := (fun x v => Host.reduce IntOp.andi x v reducesTo_S1600000_S_d0 h_S_) main_v67 main_c_24
  fn_part4 (F := F) main_v58 main_v68

def fn_part2 {F : FTy → Type} [FloatOps F] (main_arg1 : IVec S2x1600000 32) (main_arg8 : FVec F S3x128 .f32) (main_arg9 : FVec F S3x128 .f32) (main_arg10 : FVec F S3x128 .f32) (main_arg11 : FVec F S3x128 .f32) (main_arg12 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg11
  let main_cst_18 : FVec F S_ .f32 := constant S_ .f32 0x7F800000#32
  let main_v50 : FVec F S3x128 .f32 := broadcastInDim S3x128 ![] bcast_S_S3x128 main_cst_18
  fn_part3 (F := F) main_arg1 main_arg12 main_v48 main_v49 main_v50

def fn_part1 {F : FTy → Type} [FloatOps F] (main_arg1 : IVec S2x1600000 32) (main_arg5 : FVec F S128x128 .f32) (main_arg6 : FVec F S128 .f32) (main_arg7 : FVec F S3x128x128 .f32) (main_arg8 : FVec F S3x128 .f32) (main_arg9 : FVec F S3x128 .f32) (main_arg10 : FVec F S3x128 .f32) (main_arg11 : FVec F S3x128 .f32) (main_arg12 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x128 .f32) (main_arg1 : IVec S2x1600000 32) (main_arg2 : FVec F S1600000x1 .f32) (main_arg3 : FVec F S128x128 .f32) (main_arg4 : FVec F S128 .f32) (main_arg5 : FVec F S128x128 .f32) (main_arg6 : FVec F S128 .f32) (main_arg7 : FVec F S3x128x128 .f32) (main_arg8 : FVec F S3x128 .f32) (main_arg9 : FVec F S3x128 .f32) (main_arg10 : FVec F S3x128 .f32) (main_arg11 : FVec F S3x128 .f32) (main_arg12 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000x1 : Shape := ⟨2, ![1600000, 1]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1x128x128 : Shape := ⟨3, ![1, 128, 128]⟩
abbrev S1 : Shape := ⟨1, ![1]⟩
abbrev S1x1 : Shape := ⟨2, ![1, 1]⟩
abbrev S1700000x128 : Shape := ⟨2, ![1700000, 128]⟩

abbrev nBuf : Space → Nat
  | .hbm => 211
  | .vmem => 57
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S128x128, .f32⟩
  | 4 => ⟨S128, .f32⟩
  | 5 => ⟨S128x128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S3x128, .f32⟩
  | 12 => ⟨S3x128, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1x128, .f32⟩
  | 56 => ⟨S100000x128, .f32⟩
  | 57 => ⟨S_, .f32⟩
  | 58 => ⟨S128, .f32⟩
  | 59 => ⟨S1x128x128, .f32⟩
  | 60 => ⟨S128x128, .f32⟩
  | 61 => ⟨S1x128, .f32⟩
  | 62 => ⟨S100000x128, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1, .i32⟩
  | 72 => ⟨S_, .i32⟩
  | 73 => ⟨S1700000x1, .i32⟩
  | 74 => ⟨S1700000x1, .i1⟩
  | 75 => ⟨S1x1, .i32⟩
  | 76 => ⟨S1700000x1, .i32⟩
  | 77 => ⟨S1700000x1, .i1⟩
  | 78 => ⟨S1700000x1, .i1⟩
  | 79 => ⟨S_, .i1⟩
  | 80 => ⟨S1700000, .i1⟩
  | 81 => ⟨S1700000x128, .f32⟩
  | 82 => ⟨S1700000x128, .i1⟩
  | 83 => ⟨S_, .f32⟩
  | 84 => ⟨S1700000x128, .f32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128, .f32⟩
  | 102 => ⟨S128, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S100000x128, .f32⟩
  | 109 => ⟨S1x128x128, .f32⟩
  | 110 => ⟨S128x128, .f32⟩
  | 111 => ⟨S1x128, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1, .i32⟩
  | 122 => ⟨S_, .i32⟩
  | 123 => ⟨S1700000x1, .i32⟩
  | 124 => ⟨S1700000x1, .i1⟩
  | 125 => ⟨S1x1, .i32⟩
  | 126 => ⟨S1700000x1, .i32⟩
  | 127 => ⟨S1700000x1, .i1⟩
  | _ => ⟨S100000x128, .f32⟩

abbrev hbmTy0_1 (i : Nat) : BufTy := match i % 128 with
  | 0 => ⟨S1700000x1, .i1⟩
  | 1 => ⟨S_, .i1⟩
  | 2 => ⟨S1700000, .i1⟩
  | 3 => ⟨S1700000x128, .f32⟩
  | 4 => ⟨S1700000x128, .i1⟩
  | 5 => ⟨S_, .f32⟩
  | 6 => ⟨S1700000x128, .f32⟩
  | 7 => ⟨S1700000x128, .f32⟩
  | 8 => ⟨S1700000x1, .f32⟩
  | 9 => ⟨S1700000x128, .f32⟩
  | 10 => ⟨S1700000x128, .f32⟩
  | 11 => ⟨S_, .f32⟩
  | 12 => ⟨S100000x128, .f32⟩
  | 13 => ⟨S1700000x1, .i32⟩
  | 14 => ⟨S100000x128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S100000x128, .f32⟩
  | 31 => ⟨S1x128x128, .f32⟩
  | 32 => ⟨S128x128, .f32⟩
  | 33 => ⟨S1x128, .f32⟩
  | 34 => ⟨S100000x128, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1, .i32⟩
  | 44 => ⟨S_, .i32⟩
  | 45 => ⟨S1700000x1, .i32⟩
  | 46 => ⟨S1700000x1, .i1⟩
  | 47 => ⟨S1x1, .i32⟩
  | 48 => ⟨S1700000x1, .i32⟩
  | 49 => ⟨S1700000x1, .i1⟩
  | 50 => ⟨S1700000x1, .i1⟩
  | 51 => ⟨S_, .i1⟩
  | 52 => ⟨S1700000, .i1⟩
  | 53 => ⟨S1700000x128, .f32⟩
  | 54 => ⟨S1700000x128, .i1⟩
  | 55 => ⟨S_, .f32⟩
  | 56 => ⟨S1700000x128, .f32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S100000x128, .f32⟩
  | 81 => ⟨S1x128, .f32⟩
  | 82 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S128x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_8 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_call2_cst : Ref sig .tc := ⟨.hbm, 133, rfl⟩
abbrev main_call2_v15 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_9 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_call3_c : Ref sig .tc := ⟨.hbm, 163, rfl⟩
abbrev main_call3_v0 : Ref sig .tc := ⟨.hbm, 164, rfl⟩
abbrev main_call3_v1 : Ref sig .tc := ⟨.hbm, 165, rfl⟩
abbrev main_call3_c_0 : Ref sig .tc := ⟨.hbm, 166, rfl⟩
abbrev main_call3_v2 : Ref sig .tc := ⟨.hbm, 167, rfl⟩
abbrev main_call3_v3 : Ref sig .tc := ⟨.hbm, 168, rfl⟩
abbrev main_call3_v4 : Ref sig .tc := ⟨.hbm, 169, rfl⟩
abbrev main_call3_v5 : Ref sig .tc := ⟨.hbm, 170, rfl⟩
abbrev main_call3_c_1 : Ref sig .tc := ⟨.hbm, 171, rfl⟩
abbrev main_call3_c_2 : Ref sig .tc := ⟨.hbm, 172, rfl⟩
abbrev main_call3_v6 : Ref sig .tc := ⟨.hbm, 173, rfl⟩
abbrev main_call3_v7 : Ref sig .tc := ⟨.hbm, 174, rfl⟩
abbrev main_call3_v8 : Ref sig .tc := ⟨.hbm, 175, rfl⟩
abbrev main_call3_v9 : Ref sig .tc := ⟨.hbm, 176, rfl⟩
abbrev main_call3_v10 : Ref sig .tc := ⟨.hbm, 177, rfl⟩
abbrev main_call3_v11 : Ref sig .tc := ⟨.hbm, 178, rfl⟩
abbrev main_call3_c_3 : Ref sig .tc := ⟨.hbm, 179, rfl⟩
abbrev main_call3_v12 : Ref sig .tc := ⟨.hbm, 180, rfl⟩
abbrev main_call3_v13 : Ref sig .tc := ⟨.hbm, 181, rfl⟩
abbrev main_call3_v14 : Ref sig .tc := ⟨.hbm, 182, rfl⟩
abbrev main_call3_cst : Ref sig .tc := ⟨.hbm, 183, rfl⟩
abbrev main_call3_v15 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_cst_10 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg6_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg6_0 : Ref sig .tc := ⟨.vmem, 49, rfl⟩
abbrev cc6_stg6_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg3_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem6_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem6_0 : DmaSem sig := 49
abbrev cc6_sem6_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem3_1 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  shapeCasts_S128x128_S128x128 : S128x128.ShapeCasts S128x128
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v87) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v87) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v91) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v98) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v109) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v110) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v111) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v112) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v113) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v114) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v114) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg5) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v115) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v116) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1x128x128 : Shape := ⟨3, ![1, 128, 128]⟩
abbrev S1700000x128 : Shape := ⟨2, ![1700000, 128]⟩

abbrev nBuf : Space → Nat
  | .hbm => 219
  | .vmem => 0
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S128x128, .f32⟩
  | 4 => ⟨S128, .f32⟩
  | 5 => ⟨S128x128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S3x128, .f32⟩
  | 12 => ⟨S3x128, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S1x128x128, .f32⟩
  | 63 => ⟨S128x128, .f32⟩
  | 64 => ⟨S100000x128, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x128, .f32⟩
  | 74 => ⟨S1700000x1, .f32⟩
  | 75 => ⟨S1700000x128, .f32⟩
  | 76 => ⟨S1700000x128, .f32⟩
  | 77 => ⟨S_, .f32⟩
  | 78 => ⟨S100000x128, .f32⟩
  | 79 => ⟨S1700000x1, .i32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S128, .f32⟩
  | 93 => ⟨S_, .f32⟩
  | 94 => ⟨S128, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S1x128x128, .f32⟩
  | 114 => ⟨S128x128, .f32⟩
  | 115 => ⟨S100000x128, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x128, .f32⟩
  | 125 => ⟨S1700000x1, .f32⟩
  | 126 => ⟨S1700000x128, .f32⟩
  | 127 => ⟨S1700000x128, .f32⟩
  | _ => ⟨S100000x128, .f32⟩

abbrev hbmTy0_1 (i : Nat) : BufTy := match i % 128 with
  | 0 => ⟨S_, .f32⟩
  | 1 => ⟨S100000x128, .f32⟩
  | 2 => ⟨S1700000x1, .i32⟩
  | 3 => ⟨S100000x128, .f32⟩
  | 4 => ⟨S1x128, .f32⟩
  | 5 => ⟨S128, .f32⟩
  | 6 => ⟨S1x128, .f32⟩
  | 7 => ⟨S100000x128, .f32⟩
  | 8 => ⟨S100000x128, .f32⟩
  | 9 => ⟨S1x128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S128, .f32⟩
  | 16 => ⟨S_, .f32⟩
  | 17 => ⟨S128, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S1x128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S1x128x128, .f32⟩
  | 37 => ⟨S128x128, .f32⟩
  | 38 => ⟨S100000x128, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x128, .f32⟩
  | 48 => ⟨S1700000x1, .f32⟩
  | 49 => ⟨S1700000x128, .f32⟩
  | 50 => ⟨S1700000x128, .f32⟩
  | 51 => ⟨S_, .f32⟩
  | 52 => ⟨S100000x128, .f32⟩
  | 53 => ⟨S1700000x1, .i32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S128, .f32⟩
  | 67 => ⟨S_, .f32⟩
  | 68 => ⟨S128, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_cst : Ref sig .tc := ⟨.hbm, 59, rfl⟩
abbrev main_call1_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_7 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_11 : Ref sig .tc := ⟨.hbm, 116, rfl⟩
abbrev main_v84 : Ref sig .tc := ⟨.hbm, 117, rfl⟩
abbrev main_v85 : Ref sig .tc := ⟨.hbm, 118, rfl⟩
abbrev main_c_12 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_13 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_14 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_call3_cst : Ref sig .tc := ⟨.hbm, 161, rfl⟩
abbrev main_call3_v0 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_c_15 : Ref sig .tc := ⟨.hbm, 167, rfl⟩
abbrev main_v129 : Ref sig .tc := ⟨.hbm, 168, rfl⟩
abbrev main_v130 : Ref sig .tc := ⟨.hbm, 169, rfl⟩
abbrev main_c_16 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_17 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_18 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_call4_cst : Ref sig .tc := ⟨.hbm, 212, rfl⟩
abbrev main_call4_v0 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The mathematics both programs compute, written once, index by index, on the extended reals.

  A graph-convolution backbone over 100000 nodes with 128 channels is a chain of two kinds of node-wise maps
  around an edge aggregation. The DENSE map sends a node matrix `x` to `x · w + b`: entry `(p, q)` is the sum over
  the 128 input channels `k` of `x (p, k) · w (k, q)`, plus the bias row's entry `q`; the input projection
  follows it by `max · 0`. The NORMALISE map is inference-time batch normalisation followed by `max · 0`: entry
  `(p, q)` of `a` becomes `max ((((a + bias_q) − mean_q) · rsqrt (var_q + ε)) · γ_q + β_q) 0`, the five channel
  vectors held as `[1, 128]` rows and `ε` the binary32 word both programs carry. Nothing here is rearranged:
  each formula is the order of operations both programs spell, so no law of the extended reals is needed to
  join them beyond `y + 0 = y`.
-/
import Idealize.ShloMosaic.PureOps.Ideal
import Idealize.ShloMosaic.Lib.ValueIdx

noncomputable section

open scoped BigOperators

namespace Cert.Gcn

open Idealize.ShloMosaic Idealize.ShloMosaic.ValueIdx

/-- A node matrix: 100000 nodes by 128 channels. -/
abbrev NodeMat : Type := (⟨2, ![100000, 128]⟩ : Shape).Idx → EReal
/-- A square channel-mixing weight. -/
abbrev Weight : Type := (⟨2, ![128, 128]⟩ : Shape).Idx → EReal
/-- A per-channel vector kept as a `[1, 128]` row. -/
abbrev RowVec : Type := (⟨2, ![1, 128]⟩ : Shape).Idx → EReal

/-- Entry `(p, q)` of `x · w + b`. -/
def denseAt (x : NodeMat) (w : Weight) (b : RowVec) (p : Fin 100000) (q : Fin 128) : EReal :=
  (∑ k : Fin 128, x (ix2 p k) * w (ix2 k q)) + b (ix2 (0 : Fin 1) q)

/-- `x · w + b` as a node matrix. -/
def dense (x : NodeMat) (w : Weight) (b : RowVec) : NodeMat := fun i => denseAt x w b (i 0) (i 1)

/-- `max (x · w + b) 0` as a node matrix. -/
def denseRelu (x : NodeMat) (w : Weight) (b : RowVec) : NodeMat := fun i => max (denseAt x w b (i 0) (i 1)) 0

/-- The variance offset both programs add before the reciprocal square root: the binary32 word nearest `1e-5`. -/
def epsBn : EReal := Ideal.ofBits .f32 0x3727C5AC#32

/-- Entry `(p, q)` of normalise-then-`max · 0`. -/
def bnReluAt (a : NodeMat) (bias mean var gamma beta : RowVec) (p : Fin 100000) (q : Fin 128) : EReal :=
  max ((((a (ix2 p q) + bias (ix2 (0 : Fin 1) q)) - mean (ix2 (0 : Fin 1) q))
      * Ideal.rsqrt (var (ix2 (0 : Fin 1) q) + epsBn)) * gamma (ix2 (0 : Fin 1) q) + beta (ix2 (0 : Fin 1) q)) 0

/-- Normalise-then-`max · 0` as a node matrix. -/
def bnRelu (a : NodeMat) (bias mean var gamma beta : RowVec) : NodeMat :=
  fun i => bnReluAt a bias mean var gamma beta (i 0) (i 1)

theorem dense_ix2 (x : NodeMat) (w : Weight) (b : RowVec) (p : Fin 100000) (q : Fin 128) :
    dense x w b (ix2 p q) = denseAt x w b p q := rfl

theorem denseRelu_ix2 (x : NodeMat) (w : Weight) (b : RowVec) (p : Fin 100000) (q : Fin 128) :
    denseRelu x w b (ix2 p q) = max (denseAt x w b p q) 0 := rfl

theorem bnRelu_ix2 (a : NodeMat) (bias mean var gamma beta : RowVec) (p : Fin 100000) (q : Fin 128) :
    bnRelu a bias mean var gamma beta (ix2 p q) = bnReluAt a bias mean var gamma beta p q := rfl

end Cert.Gcn

end
-- ==== Proof.Model.lean ====
/-
  The backbone as ONE function of the argument arrays and of an edge aggregation.

  Both programs are the same composition: the input projection `max (x · w₀ + b₀) 0`; three rounds of
  "mix the channels (`h · W_l`), aggregate over the edges, normalise and `max · 0`"; the output projection
  `h · w₁ + b₁`. They differ only in how the edge aggregation gathers its rows, so the composition is written once
  over an aggregation `agg` left as a parameter, and the per-layer parameters are read out of their stacked
  arrays: layer `l`'s weight is the `[128, 128]` face `l` of the `[3, 128, 128]` stack, and a per-channel vector is
  row `l` of a `[3, 128]` stack (or a plain `[128]` vector) laid out as a `[1, 128]` row. The channel-mixing step adds
  the zero row: `y + 0 = y` on the extended reals, whatever `y` is.
-/
import proofs.«402512_j53197464928915_1_alg».proof.Proof.Spec

noncomputable section

namespace Cert.Gcn

open Idealize.ShloMosaic Idealize.ShloMosaic.ValueIdx

/-- A `[128]` vector as a `[1, 128]` row. -/
def row (v : (⟨1, ![128]⟩ : Shape).Idx → EReal) : RowVec := fun i => v (ix1 (i 1))

/-- Row `l` of a `[3, 128]` stack as a `[1, 128]` row. -/
def row3 (l : Fin 3) (v : (⟨2, ![3, 128]⟩ : Shape).Idx → EReal) : RowVec := fun i => v (ix2 l (i 1))

/-- Face `l` of a `[3, 128, 128]` stack as a `[128, 128]` weight. -/
def weight3 (l : Fin 3) (v : (⟨3, ![3, 128, 128]⟩ : Shape).Idx → EReal) : Weight := fun i => v (ix3 l (i 0) (i 1))

/-- The zero row. -/
def zeroRow : RowVec := fun _ => 0

/-- Adding the zero row changes nothing: `dense` with it is the bare product. -/
theorem denseAt_zeroRow (x : NodeMat) (w : Weight) (p : Fin 100000) (q : Fin 128) :
    denseAt x w zeroRow p q = ∑ k : Fin 128, x (ix2 p k) * w (ix2 k q) := by
  unfold denseAt zeroRow; exact add_zero _

/-- One round: mix the channels by face `l`, aggregate, normalise with the layer's five rows, `max · 0`. -/
def layer (agg : NodeMat → NodeMat) (l : Fin 3)
    (cw : (⟨3, ![3, 128, 128]⟩ : Shape).Idx → EReal) (cb gamma beta mean var : (⟨2, ![3, 128]⟩ : Shape).Idx → EReal)
    (h : NodeMat) : NodeMat :=
  bnRelu (agg (dense h (weight3 l cw) zeroRow)) (row3 l cb) (row3 l mean) (row3 l var) (row3 l gamma) (row3 l beta)

/-- The whole backbone over an aggregation `agg`: arguments in the programs' order
    (`x, lin0_w, lin0_b, lin1_w, lin1_b, conv_w, conv_b, bn_gamma, bn_beta, bn_mean, bn_var`). -/
def backbone (agg : NodeMat → NodeMat) (x : NodeMat) (w0 : Weight) (b0 : (⟨1, ![128]⟩ : Shape).Idx → EReal)
    (w1 : Weight) (b1 : (⟨1, ![128]⟩ : Shape).Idx → EReal)
    (cw : (⟨3, ![3, 128, 128]⟩ : Shape).Idx → EReal) (cb gamma beta mean var : (⟨2, ![3, 128]⟩ : Shape).Idx → EReal) : NodeMat :=
  dense (layer agg 2 cw cb gamma beta mean var (layer agg 1 cw cb gamma beta mean var (layer agg 0 cw cb gamma beta mean var
    (denseRelu x w0 (row b0))))) w1 (row b1)

/-- Two aggregations that agree give the same backbone. -/
theorem backbone_congr {agg agg' : NodeMat → NodeMat} (h : ∀ y, agg y = agg' y) (x : NodeMat) (w0 : Weight)
    (b0 : (⟨1, ![128]⟩ : Shape).Idx → EReal) (w1 : Weight) (b1 : (⟨1, ![128]⟩ : Shape).Idx → EReal)
    (cw : (⟨3, ![3, 128, 128]⟩ : Shape).Idx → EReal) (cb gamma beta mean var : (⟨2, ![3, 128]⟩ : Shape).Idx → EReal) :
    backbone agg x w0 b0 w1 b1 cw cb gamma beta mean var = backbone agg' x w0 b0 w1 b1 cw cb gamma beta mean var := by
  have e : agg = agg' := funext h
  rw [e]

end Cert.Gcn

end
-- ==== Proof.KReg0.lean ====
/-
  Region 0 of the program: twenty row blocks of 5000 nodes, each block's output the block's rows of `x · w + b` followed by `max · 0`; the blocks tile the 100000 rows, so the array the region leaves is that map of the whole arrays it was entered with.
-/
import proofs.«402512_j53197464928915_1_alg».proof.Proof.Gen.KernelIdeal.Frame
import proofs.«402512_j53197464928915_1_alg».proof.Proof.Model
import Idealize.ShloMosaic.Lib.Pipeline.Value
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The contraction's index maps, axis by axis -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's result at an entry of a block -/

/-- The block product into the zero accumulator, at entry `(r, q)`: the sum over the 128 channels. -/
theorem blockProduct_apply (x : FVec Ideal S5000x128 .bf16) (w : FVec Ideal S128x128 .bf16) (r : Fin 5000) (q : Fin 128) :
    matmul dot_S5000x128_S128x128_S5000x128_1_0_0_1_n_n none x w (constant (F := Ideal) S5000x128 .f32 0x00000000#32) (ix2 r q)
      = ∑ k : Fin 128, x (ix2 r k) * w (ix2 k q) := by
  refine (Ideal.matmul_constant_zero_apply dot_S5000x128_S128x128_S5000x128_1_0_0_1_n_n none x w (ix2 r q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row spread over the 5000 rows, at entry `(r, q)`: the row's entry `q`. -/
theorem biasRows_apply (b : FVec Ideal S1x128 .f32) (r : Fin 5000) (q : Fin 128) :
    broadcastTo S5000x128 (shapeCast S1x128 b shapeCasts_S1x128_S1x128) broadcasts_S1x128_S5000x128 (ix2 r q) = b (ix2 (0 : Fin 1) q) := by
  rw [shapeCast_self]
  exact broadcastTo_apply b broadcasts_S1x128_S5000x128 (ix2 r q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- THE BODY'S RESULT AT ENTRY `(r, q)` of a block: the block's row `r` against the weight's column `q`, plus the
    bias entry `q`, cut below at `0`. -/
theorem payload_apply (x : Vec Ideal S5000x128 .f32) (w : Vec Ideal S128x128 .f32) (b : Vec Ideal S1x128 .f32) (r : Fin 5000) (q : Fin 128) :
    k0_pay1 (F := Ideal) x w b (ix2 r q) = max ((∑ k : Fin 128, x (ix2 r k) * w (ix2 k q)) + b (ix2 (0 : Fin 1) q)) 0 := by
  unfold k0_pay1
  show max (matmul dot_S5000x128_S128x128_S5000x128_1_0_0_1_n_n none (truncf .bf16 x bitsLt_bf16_f32) (truncf .bf16 w bitsLt_bf16_f32) (constant (F := Ideal) S5000x128 .f32 0x00000000#32) (ix2 r q)
      + broadcastTo S5000x128 (shapeCast S1x128 b shapeCasts_S1x128_S1x128) broadcasts_S1x128_S5000x128 (ix2 r q)) (Ideal.ofBits .f32 0x00000000#32) = _
  rw [blockProduct_apply, biasRows_apply, Ideal.ofBits_zero_f32]
  rfl

/-- A block's entry against the whole arrays: when the block `x` holds rows `n · 5000 …` of `X`, and `w`, `b` are
    `W`, `B`, the body's result at the block's entry `j` is the dense map's entry at row `n · 5000 + j₀`, column `j₁`. -/
theorem block_entry (x : Vec Ideal S5000x128 .f32) (w : Vec Ideal S128x128 .f32) (b : Vec Ideal S1x128 .f32)
    (X : Cert.Gcn.NodeMat) (W : Cert.Gcn.Weight) (B : Cert.Gcn.RowVec) (n : Nat) (j : S5000x128.Idx) (i : S100000x128.Idx)
    (hi0 : (i 0).val = n * 5000 + 1 * (j 0).val) (hi1 : (i 1).val = (j 1).val)
    (hx : ∀ (y : S5000x128.Idx) (i' : S100000x128.Idx), (i' 0).val = n * 5000 + 1 * (y 0).val → (i' 1).val = (y 1).val → x y = X i')
    (hw : ∀ y : S128x128.Idx, w y = W y) (hb : ∀ y : S1x128.Idx, b y = B y) :
    k0_pay1 (F := Ideal) x w b j = Cert.Gcn.denseRelu X W B i := by
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  have hq : q' = q := Fin.ext hi1
  subst hq
  have hs : (∑ k : Fin 128, x (ix2 r k) * w (ix2 k q')) = ∑ k : Fin 128, X (ix2 p k) * W (ix2 k q') :=
    Finset.sum_congr rfl fun k _ => by rw [hx (ix2 r k) (ix2 p k) hi0 rfl, hw]
  rw [payload_apply, Cert.Gcn.denseRelu_ix2, hs, hb]
  rfl

/-! ## From the blocks to the array -/

-- The TensorCore's buffer contents when the region is entered: a parameter, as in the frame.
variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the twenty points: the input rows' block moves with the output's (block `t` of rows,
    the one block of columns), the weight and the bias row are their whole arrays at every point. -/
theorem blockMaps : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 19 ∧ win0_3.index t (1 : Fin 2) = 0 :=
  (by decide +kernel : ∀ t : Fin grid0.N, _)

/-- Every one of the twenty row blocks is some point's. -/
theorem blockOnto : ∀ (n : Fin 20), ∃ t : Fin cfg0.N, win0_3.index t = ![n.val, 0] :=
  (by decide +kernel : ∀ (n : Fin 20), ∃ t : Fin grid0.N, win0_3.index t = ![n.val, 0])

/-- WHAT POINT `t` WRITES BACK is block `t` of the dense map of the arrays as the region finds them. -/
theorem flushed_eq (c : Dev nD) (t : Fin cfg0.N) :
    (dat0 (F := Ideal) V c).flushed 3 t = ((cfg0.win 3).blk t).view.read (Elt Ideal) (Cert.Gcn.denseRelu (V c main_arg0) (V c main_arg3) (V c main_v31)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x128) zeroOffsets, View.ld_unit_zero (S := S1x128) zeroOffsets]
  obtain ⟨e0, e1, e2, e3, e4, e5, e6, e7⟩ := blockMaps t
  funext j
  refine block_entry (iblk0 V c 0 t) (iblk0 V c 1 t) (iblk0 V c 2 t) (V c main_arg0) (V c main_arg3) (V c main_v31) (win0_3.index t (0 : Fin 2))
    ((cfg0.win 3).xinj (grid0.coords t) j) (((cfg0.win 3).blk t).view.emb j) ?_ ?_ ?_ ?_ ?_
  · show win0_3.index t (0 : Fin 2) * 5000 + 1 * (j 0).val = win0_3.index t (0 : Fin 2) * 5000 + 1 * (j 0).val
    rfl
  · show win0_3.index t (1 : Fin 2) * 128 + 1 * (j 1).val = (j 1).val
    rw [e7]; omega
  · intro y i' h0 h1
    show V c main_arg0 (((cfg0.win 0).blk t).view.emb y) = V c main_arg0 i'
    refine congrArg _ (funext fun a => Fin.ext ?_)
    match a with
    | ⟨0, _⟩ => show win0_0.index t (0 : Fin 2) * 5000 + 1 * (y 0).val = (i' 0).val; rw [h0, e0]
    | ⟨1, _⟩ => show win0_0.index t (1 : Fin 2) * 128 + 1 * (y 1).val = (i' 1).val; rw [h1, e1]; omega
  · intro y
    show V c main_arg3 (((cfg0.win 1).blk t).view.emb y) = V c main_arg3 y
    refine congrArg _ (funext fun a => Fin.ext ?_)
    match a with
    | ⟨0, _⟩ => show win0_1.index t (0 : Fin 2) * 128 + 1 * (y 0).val = (y 0).val; rw [e2]; omega
    | ⟨1, _⟩ => show win0_1.index t (1 : Fin 2) * 128 + 1 * (y 1).val = (y 1).val; rw [e3]; omega
  · intro y
    show V c main_v31 (((cfg0.win 2).blk t).view.emb y) = V c main_v31 y
    refine congrArg _ (funext fun a => Fin.ext ?_)
    match a with
    | ⟨0, _⟩ => show win0_2.index t (0 : Fin 2) * 1 + 1 * (y 0).val = (y 0).val; rw [e4]; omega
    | ⟨1, _⟩ => show win0_2.index t (1 : Fin 2) * 128 + 1 * (y 1).val = (y 1).val; rw [e5]; omega

/-- An index of the array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- The twenty row blocks tile the array: row `i` is in block `i / 5000`. -/
theorem rows_covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := blockOnto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- What the region leaves in its output array: the dense map of the three arrays it reads, as entered. -/
theorem final (c : Dev nD) :
    (dat0 (F := Ideal) V c).arrAt 3 cfg0.N = Cert.Gcn.denseRelu (V c main_arg0) (V c main_arg3) (V c main_v31) :=
  (dat0 (F := Ideal) V c).arrAt_eq_of_cover 3 _ (fun t _ => flushed_eq V c t) (fun i => rows_covered i)

end Cert.KernelIdeal.Reg0

end
-- ==== Proof.KReg1.lean ====
/-
  Region 1 of the program: twenty row blocks of 5000 nodes, each block's output the block's rows of `x · w + b`; the blocks tile the 100000 rows, so the array the region leaves is that map of the whole arrays it was entered with.

  Three steps. The block's payload at an entry `(r, q)` is the sum over the 128 channels `k` of `x (r, k) · w (k, q)`
  plus the bias row's entry `q`: the narrowing to bfloat16 is the identity on the extended reals, the product into the
  zero accumulator is the bare sum, the `[1, 128]` row broadcast reads its one row. At grid point `t` the node block is
  rows `5000 · t … 5000 · t + 4999` of the node matrix and the weight and the bias row are their whole arrays, so what
  point `t` writes back is block `t` of `x · w + b`. Row `i` lies in block `i / 5000`, so the twenty blocks cover the array.
-/
import proofs.«402512_j53197464928915_1_alg».proof.Proof.Gen.KernelIdeal.Frame
import proofs.«402512_j53197464928915_1_alg».proof.Proof.Model
import Idealize.ShloMosaic.Lib.Pipeline.Value
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The payload at an entry -/

/-- The product's left operand index at output `i` and contraction index `q`: row `i 0` … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contracted channel; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's: row the contracted channel … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at entry `(r, q)`: the sum over the 128 contracted channels. -/
theorem matmul_zero_ix2 (x : FVec Ideal S5000x128 .bf16) (w : FVec Ideal S128x128 .bf16) (r : Fin 5000) (q : Fin 128) :
    matmul dot_S5000x128_S128x128_S5000x128_1_0_0_1_n_n none x w (constant (F := Ideal) S5000x128 .f32 0x00000000#32) (ix2 r q)
      = ∑ k : Fin 128, x (ix2 r k) * w (ix2 k q) := by
  refine (Ideal.matmul_constant_zero_apply dot_S5000x128_S128x128_S5000x128_1_0_0_1_n_n none x w (ix2 r q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The block's payload at entry `(r, q)`: the block's row `r` against the weight's column `q`, plus the bias row's entry `q`. -/
theorem pay_ix2 (x : FVec Ideal S5000x128 .f32) (w : FVec Ideal S128x128 .f32) (b : FVec Ideal S1x128 .f32) (r : Fin 5000) (q : Fin 128) :
    k1_pay1 (F := Ideal) x w b (ix2 r q) = (∑ k : Fin 128, x (ix2 r k) * w (ix2 k q)) + b (ix2 (0 : Fin 1) q) := by
  unfold k1_pay1
  simp only [shapeCast_self]
  refine (addf_apply _ _ (ix2 r q)).trans ?_
  rw [matmul_zero_ix2, broadcastTo_1b_ab_apply]
  rfl

/-! ## The blocks at a grid point -/

-- The TensorCore's buffer contents when the region is entered: a parameter, as in the frame.
variable (V : (c : Dev nD) → (b : Ref sig .tc) → Buf (Elt Ideal) ((c : Thread nD τ).loc b))

theorem zeros_eq : (![0, 0] : Fin 2 → Nat) = fun _ => 0 := funext fun a => by fin_cases a <;> rfl

/-- The index maps over the twenty points: the node block and the output block are block `t` of the rows and the one
    block of columns; the weight and the bias row are their arrays' one block. -/
theorem blockIndex_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The node block at point `t`, entry `(p, k)`: row `5000 · t + p` of the node matrix. -/
theorem nodeBlk_ix2 (c : Dev nD) (t : Fin cfg1.N) (p : Fin 5000) (k : Fin 128) (P : Fin 100000) (hP : P.val = t.val * 5000 + p.val) :
    iblk1 (F := Ideal) V c 0 t (ix2 p k) = V c main_v32 (ix2 P k) := by
  show V c main_v32 (((cfg1.win 0).blk t).view.emb (ix2 p k)) = _
  refine congrArg (V c main_v32) (funext fun a => Fin.ext ?_)
  obtain ⟨e0, e1, -⟩ := blockIndex_facts t
  match a with
  | ⟨0, _⟩ => show win1_0.index t (0 : Fin 2) * 5000 + 1 * p.val = P.val; omega
  | ⟨1, _⟩ => show win1_0.index t (1 : Fin 2) * 128 + 1 * k.val = k.val; omega

/-- The weight block at any point is the weight. -/
theorem weightBlk_ix2 (c : Dev nD) (t : Fin cfg1.N) (k : Fin 128) (q : Fin 128) :
    iblk1 (F := Ideal) V c 1 t (ix2 k q) = V c main_v35 (ix2 k q) := by
  show V c main_v35 (((cfg1.win 1).blk t).view.emb (ix2 k q)) = _
  refine congrArg (V c main_v35) (funext fun a => Fin.ext ?_)
  obtain ⟨-, -, e2, e3, -⟩ := blockIndex_facts t
  match a with
  | ⟨0, _⟩ => show win1_1.index t (0 : Fin 2) * 128 + 1 * k.val = k.val; omega
  | ⟨1, _⟩ => show win1_1.index t (1 : Fin 2) * 128 + 1 * q.val = q.val; omega

/-- The bias block at any point is the bias row. -/
theorem biasBlk_ix2 (c : Dev nD) (t : Fin cfg1.N) (z : Fin 1) (q : Fin 128) :
    iblk1 (F := Ideal) V c 2 t (ix2 z q) = V c main_v36 (ix2 z q) := by
  show V c main_v36 (((cfg1.win 2).blk t).view.emb (ix2 z q)) = _
  refine congrArg (V c main_v36) (funext fun a => Fin.ext ?_)
  obtain ⟨-, -, -, -, e4, e5, -⟩ := blockIndex_facts t
  match a with
  | ⟨0, _⟩ => show win1_2.index t (0 : Fin 2) * 1 + 1 * z.val = z.val; omega
  | ⟨1, _⟩ => show win1_2.index t (1 : Fin 2) * 128 + 1 * q.val = q.val; omega

/-! ## What a point writes back, and the cover -/

/-- WHAT POINT `t` WRITES BACK is block `t` of `x · w + b` of the arrays as the region finds them. -/
theorem writeback_eq (c : Dev nD) (t : Fin cfg1.N) :
    (dat1 (F := Ideal) V c).flushed 3 t
      = ((cfg1.win 3).blk t).view.read (Elt Ideal) (Cert.Gcn.dense (V c main_v32) (V c main_v35) (V c main_v36)) := by
  show (cfg1.win 3).cut (grid1.coords t) ((dat1 V c).after 3 t) = _
  rw [after1_3]
  unfold out1_3
  rw [View.canon_unit_zero zeros_eq]
  simp only [View.ld_unit_zero (S := S5000x128) zeros_eq, View.ld_unit_zero (S := S128x128) zeros_eq, View.ld_unit_zero (S := S1x128) zeros_eq]
  funext j
  have ht : t.val < 20 := t.isLt
  have hj0 : (j 0).val < 5000 := (j 0).isLt
  have hj1 : (j 1).val < 128 := (j 1).isLt
  obtain ⟨-, -, -, -, -, -, e6, e7⟩ := blockIndex_facts t
  have hx : (cfg1.win 3).xinj (grid1.coords t) j = ix2 (⟨(j 0).val, hj0⟩ : Fin 5000) (⟨(j 1).val, hj1⟩ : Fin 128) := by
    funext a
    match a with
    | ⟨0, _⟩ => rfl
    | ⟨1, _⟩ => rfl
  have hy : ((cfg1.win 3).blk t).view.emb j = ix2 (⟨t.val * 5000 + (j 0).val, by omega⟩ : Fin 100000) (⟨(j 1).val, hj1⟩ : Fin 128) := by
    funext a; apply Fin.ext
    match a with
    | ⟨0, _⟩ => show win1_3.index t (0 : Fin 2) * 5000 + 1 * (j 0).val = t.val * 5000 + (j 0).val; omega
    | ⟨1, _⟩ => show win1_3.index t (1 : Fin 2) * 128 + 1 * (j 1).val = (j 1).val; omega
  show k1_pay1 (F := Ideal) (iblk1 V c 0 t) (iblk1 V c 1 t) (iblk1 V c 2 t) ((cfg1.win 3).xinj (grid1.coords t) j)
    = Cert.Gcn.dense (V c main_v32) (V c main_v35) (V c main_v36) (((cfg1.win 3).blk t).view.emb j)
  rw [hx, hy, pay_ix2, Cert.Gcn.dense_ix2]
  unfold Cert.Gcn.denseAt
  rw [biasBlk_ix2]
  refine congrArg (· + _) (Finset.sum_congr rfl fun k _ => ?_)
  rw [nodeBlk_ix2 V c t (⟨(j 0).val, hj0⟩ : Fin 5000) k (⟨t.val * 5000 + (j 0).val, by omega⟩ : Fin 100000) rfl, weightBlk_ix2]

/-- An index of the array is in point `t`'s block iff each coordinate is in the block's range on its axis. -/
theorem mem_block_iff (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v37).slice (win1_3.rect t)).set ↔ _
  rw [View.set_slice_whole, Rect.mem_set_unit]
  exact Iff.rfl

/-- Row `i` lies in block `i / 5000`: the twenty blocks cover the array. -/
theorem blocks_cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  refine ⟨⟨(i 0).val / 5000, by show (i 0).val / 5000 < 20; omega⟩, flush1_3 _, ?_⟩
  rw [mem_block_iff]
  obtain ⟨-, -, -, -, -, -, e6, e7⟩ := blockIndex_facts ⟨(i 0).val / 5000, by show (i 0).val / 5000 < 20; omega⟩
  have e6' : win1_3.index ⟨(i 0).val / 5000, by show (i 0).val / 5000 < 20; omega⟩ (0 : Fin 2) = (i 0).val / 5000 := e6
  intro a
  match a with
  | ⟨0, _⟩ => show win1_3.index _ (0 : Fin 2) * 5000 ≤ (i 0).val ∧ (i 0).val < win1_3.index _ (0 : Fin 2) * 5000 + 5000; omega
  | ⟨1, _⟩ => show win1_3.index _ (1 : Fin 2) * 128 ≤ (i 1).val ∧ (i 1).val < win1_3.index _ (1 : Fin 2) * 128 + 128; omega

/-- What the region leaves in its output array: the dense map of the three arrays it reads, as entered. -/
theorem final (c : Dev nD) :
    (dat1 (F := Ideal) V c).arrAt 3 cfg1.N = Cert.Gcn.dense (V c main_v32) (V c main_v35) (V c main_v36) :=
  (dat1 (F := Ideal) V c).arrAt_eq_of_cover 3 _ (fun t _ => writeback_eq V c t) blocks_cover

end Cert.KernelIdeal.Reg1

end
-- ==== Proof.KReg2.lean ====
/-
  Region 2 of the program: twenty row blocks of 5000 nodes, each block's output the block's rows normalised channel by channel and cut at zero; the blocks tile the 100000 rows, so the array the region leaves is that map of the whole arrays it was entered with.

  Three steps. The body's one stored value, read at an element `(r, q)` of a block, is
  `max ((((x + bias_q) − mean_q) · rsqrt (var_q + ε)) · γ_q + β_q) 0` of the block's element and the five rows'
  entries at `q`: every operation in it is pointwise, and a `[1, 128]` row spread over 5000 rows reads its one row.
  Element `(r, q)` of point `t`'s block of a node matrix is the matrix's element `(5000 · t + r, q)`, the same for
  the aggregate read and the output written, and the rows' blocks are the whole rows; so what point `t` writes back
  is block `t` of the normalised matrix. Row `i` lies in block `i / 5000`, so the blocks cover the array.
-/
import proofs.«402512_j53197464928915_1_alg».proof.Proof.Gen.KernelIdeal.Frame
import proofs.«402512_j53197464928915_1_alg».proof.Proof.Model
import Idealize.ShloMosaic.Lib.Pipeline.Value
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

/-! ## The stored value at an element -/

/-- The body's stored value at element `(r, q)` of a block: the normalise-then-`max · 0` formula of the block's
    element and the five rows' entries at channel `q`. The shape casts are to the same shape, each row broadcast
    reads the row's one row, the offset is the constant spread over the row, and the rest is pointwise. -/
theorem payload_apply (x : Vec Ideal S5000x128 .f32) (bias var' mean' gamma beta : Vec Ideal S1x128 .f32)
    (r : Fin 5000) (q : Fin 128) :
    k2_pay1 (F := Ideal) x bias var' mean' gamma beta (ix2 r q)
      = max ((((x (ix2 r q) + bias (ix2 (0 : Fin 1) q)) - mean' (ix2 (0 : Fin 1) q))
          * Ideal.rsqrt (var' (ix2 (0 : Fin 1) q) + Cert.Gcn.epsBn)) * gamma (ix2 (0 : Fin 1) q) + beta (ix2 (0 : Fin 1) q)) 0 := by
  unfold k2_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rw [broadcast_apply]
  rw [show (FloatOps.ofBits (F := Ideal) FTy.f32 0x00000000#32) = (0 : EReal) from Ideal.ofBits_zero_f32]
  rfl

/-! ## The blocks at a point -/

-- The TensorCore's buffer contents when the region is entered: a parameter, as in the frame.
variable (V : (c : Dev nD) → (b : Ref sig .tc) → Buf (Elt Ideal) ((c : Thread nD τ).loc b))

/-- The body reads and writes its staging buffers from offset zero. -/
theorem zero_offsets : (![0, 0] : Fin 2 → Nat) = fun _ => 0 := funext fun a => by fin_cases a <;> rfl

/-- The index maps over the twenty points: the aggregate's and the output's block index is `(t, 0)`, every row's `(0, 0)`. -/
theorem block_indices : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- A point's number is below twenty. -/
theorem point_lt (t : Fin cfg2.N) : t.val < 20 := N_2 ▸ t.isLt

/-- Where element `(p, q)` of point `t`'s output block sits in the array: row `5000 · t + p`, column `q`. -/
theorem out_block_emb (t : Fin cfg2.N) (p : Fin 5000) (q : Fin 128) :
    ((cfg2.win 6).blk t).view.emb (ix2 p q)
      = ix2 (⟨t.val * 5000 + p.val, by have := point_lt t; omega⟩ : Fin 100000) q := by
  obtain ⟨e0, e1, -⟩ := block_indices t
  funext a; apply Fin.ext
  match a with
  | ⟨0, _⟩ => show win2_6.index t (0 : Fin 2) * 5000 + 1 * p.val = t.val * 5000 + p.val; omega
  | ⟨1, _⟩ => show win2_6.index t (1 : Fin 2) * 128 + 1 * q.val = q.val; omega

/-- Element `(p, q)` of point `t`'s block of the aggregate is the aggregate's element `(5000 · t + p, q)`. -/
theorem agg_block_apply (c : Dev nD) (t : Fin cfg2.N) (p : Fin 5000) (q : Fin 128) :
    iblk2 (F := Ideal) V c 0 t (ix2 p q)
      = V c main_v44 (ix2 (⟨t.val * 5000 + p.val, by have := point_lt t; omega⟩ : Fin 100000) q) := by
  obtain ⟨-, -, e0, e1, -⟩ := block_indices t
  show V c main_v44 (((cfg2.win 0).blk t).view.emb (ix2 p q)) = _
  refine congrArg (V c main_v44) ?_
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

/-- The bias row's block is the whole row at every point: element `(0, q)` of it is the array's. -/
theorem bias_block_apply (c : Dev nD) (t : Fin cfg2.N) (q : Fin 128) :
    iblk2 (F := Ideal) V c 1 t (ix2 (0 : Fin 1) q) = V c main_v55 (ix2 (0 : Fin 1) q) := by
  obtain ⟨-, -, -, -, e0, e1, -⟩ := block_indices t
  show V c main_v55 (((cfg2.win 1).blk t).view.emb (ix2 (0 : Fin 1) q)) = _
  refine congrArg (V c main_v55) ?_
  funext a; apply Fin.ext
  match a with
  | ⟨0, _⟩ => show win2_1.index t (0 : Fin 2) * 1 + 1 * 0 = 0; omega
  | ⟨1, _⟩ => show win2_1.index t (1 : Fin 2) * 128 + 1 * q.val = q.val; omega

/-- The mean row's block is the whole row at every point: element `(0, q)` of it is the array's. -/
theorem mean_block_apply (c : Dev nD) (t : Fin cfg2.N) (q : Fin 128) :
    iblk2 (F := Ideal) V c 2 t (ix2 (0 : Fin 1) q) = V c main_v56 (ix2 (0 : Fin 1) q) := by
  obtain ⟨-, -, -, -, -, -, e0, e1, -⟩ := block_indices t
  show V c main_v56 (((cfg2.win 2).blk t).view.emb (ix2 (0 : Fin 1) q)) = _
  refine congrArg (V c main_v56) ?_
  funext a; apply Fin.ext
  match a with
  | ⟨0, _⟩ => show win2_2.index t (0 : Fin 2) * 1 + 1 * 0 = 0; omega
  | ⟨1, _⟩ => show win2_2.index t (1 : Fin 2) * 128 + 1 * q.val = q.val; omega

/-- The variance row's block is the whole row at every point: element `(0, q)` of it is the array's. -/
theorem var_block_apply (c : Dev nD) (t : Fin cfg2.N) (q : Fin 128) :
    iblk2 (F := Ideal) V c 3 t (ix2 (0 : Fin 1) q) = V c main_v57 (ix2 (0 : Fin 1) q) := by
  obtain ⟨-, -, -, -, -, -, -, -, e0, e1, -⟩ := block_indices t
  show V c main_v57 (((cfg2.win 3).blk t).view.emb (ix2 (0 : Fin 1) q)) = _
  refine congrArg (V c main_v57) ?_
  funext a; apply Fin.ext
  match a with
  | ⟨0, _⟩ => show win2_3.index t (0 : Fin 2) * 1 + 1 * 0 = 0; omega
  | ⟨1, _⟩ => show win2_3.index t (1 : Fin 2) * 128 + 1 * q.val = q.val; omega

/-- The scale row's block is the whole row at every point: element `(0, q)` of it is the array's. -/
theorem gamma_block_apply (c : Dev nD) (t : Fin cfg2.N) (q : Fin 128) :
    iblk2 (F := Ideal) V c 4 t (ix2 (0 : Fin 1) q) = V c main_v58 (ix2 (0 : Fin 1) q) := by
  obtain ⟨-, -, -, -, -, -, -, -, -, -, e0, e1, -⟩ := block_indices t
  show V c main_v58 (((cfg2.win 4).blk t).view.emb (ix2 (0 : Fin 1) q)) = _
  refine congrArg (V c main_v58) ?_
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- The shift row's block is the whole row at every point: element `(0, q)` of it is the array's. -/
theorem beta_block_apply (c : Dev nD) (t : Fin cfg2.N) (q : Fin 128) :
    iblk2 (F := Ideal) V c 5 t (ix2 (0 : Fin 1) q) = V c main_v59 (ix2 (0 : Fin 1) q) := by
  obtain ⟨-, -, -, -, -, -, -, -, -, -, -, -, e0, e1⟩ := block_indices t
  show V c main_v59 (((cfg2.win 5).blk t).view.emb (ix2 (0 : Fin 1) q)) = _
  refine congrArg (V c main_v59) ?_
  funext a; apply Fin.ext
  match a with
  | ⟨0, _⟩ => show win2_5.index t (0 : Fin 2) * 1 + 1 * 0 = 0; omega
  | ⟨1, _⟩ => show win2_5.index t (1 : Fin 2) * 128 + 1 * q.val = q.val; omega

/-! ## What a point writes back, and the whole array -/

/-- What point `t` writes back is block `t` of the normalised matrix of the arrays as the region finds them. -/
theorem flushed_eq (c : Dev nD) (t : Fin cfg2.N) :
    (dat2 (F := Ideal) V c).flushed 6 t = ((cfg2.win 6).blk t).view.read (Elt Ideal)
      (Cert.Gcn.bnRelu (V c main_v44) (V c main_v55) (V c main_v56) (V c main_v57) (V c main_v58) (V c main_v59)) := by
  show (cfg2.win 6).cut (grid2.coords t) ((dat2 (F := Ideal) V c).after 6 t) = _
  rw [after2_6]
  unfold out2_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (payload_apply _ _ _ _ _ _ p q).trans ?_
  rw [agg_block_apply, bias_block_apply, mean_block_apply, var_block_apply, gamma_block_apply, beta_block_apply]
  show _ = Cert.Gcn.bnRelu (V c main_v44) (V c main_v55) (V c main_v56) (V c main_v57) (V c main_v58) (V c main_v59)
    (((cfg2.win 6).blk t).view.emb (ix2 p q))
  rw [out_block_emb]
  rfl

/-- An index of the output array is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v60).slice (win2_6.rect t)).set ↔ _
  rw [View.set_slice_whole, Rect.mem_set_unit]
  exact Iff.rfl

/-- Row `i` lies in block `i / 5000`: the twenty blocks tile the 100000 rows. -/
theorem cover (c : Dev nD) (i : ((cfg2.win 6).arr.view.loc (c.tc : Thread nD τ)).2.ty.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  let t : Fin cfg2.N := ⟨(i 0).val / 5000, lt_of_lt_of_eq (by omega : (i 0).val / 5000 < 20) N_2.symm⟩
  obtain ⟨e0, e1, -⟩ := block_indices t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- What the region leaves in its output array: normalise-then-`max · 0` of the aggregate and the five rows, as entered. -/
theorem final (c : Dev nD) :
    (dat2 (F := Ideal) V c).arrAt 6 cfg2.N
      = Cert.Gcn.bnRelu (V c main_v44) (V c main_v55) (V c main_v56) (V c main_v57) (V c main_v58) (V c main_v59) :=
  (dat2 (F := Ideal) V c).arrAt_eq_of_cover 6 _ (fun t _ => flushed_eq V c t) (cover c)

end Cert.KernelIdeal.Reg2

end
-- ==== Proof.KReg3.lean ====
/-
  Region 3 of the program: twenty row blocks of 5000 nodes, each block's output the block's rows of `x · w + b`; the blocks tile the 100000 rows, so the array the region leaves is that map of the whole arrays it was entered with.

  Three steps. The block's payload at an entry `(r, q)` is the sum over the 128 channels `k` of `x (r, k) · w (k, q)`
  plus the bias row's entry `q`: the narrowing to bfloat16 is the identity on the extended reals, the product into the
  zero accumulator is the bare sum, the `[1, 128]` row broadcast reads its one row. At grid point `t` the node block is
  rows `5000 · t … 5000 · t + 4999` of the node matrix and the weight and the bias row are their whole arrays, so what
  point `t` writes back is block `t` of `x · w + b`. Row `i` lies in block `i / 5000`, so the twenty blocks cover the array.
-/
import proofs.«402512_j53197464928915_1_alg».proof.Proof.Gen.KernelIdeal.Frame
import proofs.«402512_j53197464928915_1_alg».proof.Proof.Model
import Idealize.ShloMosaic.Lib.Pipeline.Value
import Idealize.ShloMosaic.Lib.ValueLayout
import Idealize.ShloMosaic.PureOps.Ideal.Laws

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The payload at an entry -/

/-- The product's left operand index at output `i` and contraction index `q`: row `i 0` … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contracted channel; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's: row the contracted channel … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at entry `(r, q)`: the sum over the 128 contracted channels. -/
theorem matmul_zero_ix2 (x : FVec Ideal S5000x128 .bf16) (w : FVec Ideal S128x128 .bf16) (r : Fin 5000) (q : Fin 128) :
    matmul dot_S5000x128_S128x128_S5000x128_1_0_0_1_n_n none x w (constant (F := Ideal) S5000x128 .f32 0x00000000#32) (ix2 r q)
      = ∑ k : Fin 128, x (ix2 r k) * w (ix2 k q) := by
  refine (Ideal.matmul_constant_zero_apply dot_S5000x128_S128x128_S5000x128_1_0_0_1_n_n none x w (ix2 r q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The block's payload at entry `(r, q)`: the block's row `r` against the weight's column `q`, plus the bias row's entry `q`. -/
theorem pay_ix2 (x : FVec Ideal S5000x128 .f32) (w : FVec Ideal S128x128 .f32) (b : FVec Ideal S1x128 .f32) (r : Fin 5000) (q : Fin 128) :
    k3_pay1 (F := Ideal) x w b (ix2 r q) = (∑ k : Fin 128, x (ix2 r k) * w (ix2 k q)) + b (ix2 (0 : Fin 1) q) := by
  unfold k3_pay1
  simp only [shapeCast_self]
  refine (addf_apply _ _ (ix2 r q)).trans ?_
  rw [matmul_zero_ix2, broadcastTo_1b_ab_apply]
  rfl

/-! ## The blocks at a grid point -/

-- The TensorCore's buffer contents when the region is entered: a parameter, as in the frame.
variable (V : (c : Dev nD) → (b : Ref sig .tc) → Buf (Elt Ideal) ((c : Thread nD τ).loc b))

theorem zeros_eq : (![0, 0] : Fin 2 → Nat) = fun _ => 0 := funext fun a => by fin_cases a <;> rfl

/-- The index maps over the twenty points: the node block and the output block are block `t` of the rows and the one
    block of columns; the weight and the bias row are their arrays' one block. -/
theorem blockIndex_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The node block at point `t`, entry `(p, k)`: row `5000 · t + p` of the node matrix. -/
theorem nodeBlk_ix2 (c : Dev nD) (t : Fin cfg3.N) (p : Fin 5000) (k : Fin 128) (P : Fin 100000) (hP : P.val = t.val * 5000 + p.val) :
    iblk3 (F := Ideal) V c 0 t (ix2 p k) = V c main_v60 (ix2 P k) := by
  show V c main_v60 (((cfg3.win 0).blk t).view.emb (ix2 p k)) = _
  refine congrArg (V c main_v60) (funext fun a => Fin.ext ?_)
  obtain ⟨e0, e1, -⟩ := blockIndex_facts t
  match a with
  | ⟨0, _⟩ => show win3_0.index t (0 : Fin 2) * 5000 + 1 * p.val = P.val; omega
  | ⟨1, _⟩ => show win3_0.index t (1 : Fin 2) * 128 + 1 * k.val = k.val; omega

/-- The weight block at any point is the weight. -/
theorem weightBlk_ix2 (c : Dev nD) (t : Fin cfg3.N) (k : Fin 128) (q : Fin 128) :
    iblk3 (F := Ideal) V c 1 t (ix2 k q) = V c main_v62 (ix2 k q) := by
  show V c main_v62 (((cfg3.win 1).blk t).view.emb (ix2 k q)) = _
  refine congrArg (V c main_v62) (funext fun a => Fin.ext ?_)
  obtain ⟨-, -, e2, e3, -⟩ := blockIndex_facts t
  match a with
  | ⟨0, _⟩ => show win3_1.index t (0 : Fin 2) * 128 + 1 * k.val = k.val; omega
  | ⟨1, _⟩ => show win3_1.index t (1 : Fin 2) * 128 + 1 * q.val = q.val; omega

/-- The bias block at any point is the bias row. -/
theorem biasBlk_ix2 (c : Dev nD) (t : Fin cfg3.N) (z : Fin 1) (q : Fin 128) :
    iblk3 (F := Ideal) V c 2 t (ix2 z q) = V c main_v63 (ix2 z q) := by
  show V c main_v63 (((cfg3.win 2).blk t).view.emb (ix2 z q)) = _
  refine congrArg (V c main_v63) (funext fun a => Fin.ext ?_)
  obtain ⟨-, -, -, -, e4, e5, -⟩ := blockIndex_facts t
  match a with
  | ⟨0, _⟩ => show win3_2.index t (0 : Fin 2) * 1 + 1 * z.val = z.val; omega
  | ⟨1, _⟩ => show win3_2.index t (1 : Fin 2) * 128 + 1 * q.val = q.val; omega

/-! ## What a point writes back, and the cover -/

/-- WHAT POINT `t` WRITES BACK is block `t` of `x · w + b` of the arrays as the region finds them. -/
theorem writeback_eq (c : Dev nD) (t : Fin cfg3.N) :
    (dat3 (F := Ideal) V c).flushed 3 t
      = ((cfg3.win 3).blk t).view.read (Elt Ideal) (Cert.Gcn.dense (V c main_v60) (V c main_v62) (V c main_v63)) := by
  show (cfg3.win 3).cut (grid3.coords t) ((dat3 V c).after 3 t) = _
  rw [after3_3]
  unfold out3_3
  rw [View.canon_unit_zero zeros_eq]
  simp only [View.ld_unit_zero (S := S5000x128) zeros_eq, View.ld_unit_zero (S := S128x128) zeros_eq, View.ld_unit_zero (S := S1x128) zeros_eq]
  funext j
  have ht : t.val < 20 := t.isLt
  have hj0 : (j 0).val < 5000 := (j 0).isLt
  have hj1 : (j 1).val < 128 := (j 1).isLt
  obtain ⟨-, -, -, -, -, -, e6, e7⟩ := blockIndex_facts t
  have hx : (cfg3.win 3).xinj (grid3.coords t) j = ix2 (⟨(j 0).val, hj0⟩ : Fin 5000) (⟨(j 1).val, hj1⟩ : Fin 128) := by
    funext a
    match a with
    | ⟨0, _⟩ => rfl
    | ⟨1, _⟩ => rfl
  have hy : ((cfg3.win 3).blk t).view.emb j = ix2 (⟨t.val * 5000 + (j 0).val, by omega⟩ : Fin 100000) (⟨(j 1).val, hj1⟩ : Fin 128) := by
    funext a; apply Fin.ext
    match a with
    | ⟨0, _⟩ => show win3_3.index t (0 : Fin 2) * 5000 + 1 * (j 0).val = t.val * 5000 + (j 0).val; omega
    | ⟨1, _⟩ => show win3_3.index t (1 : Fin 2) * 128 + 1 * (j 1).val = (j 1).val; omega
  show k3_pay1 (F := Ideal) (iblk3 V c 0 t) (iblk3 V c 1 t) (iblk3 V c 2 t) ((cfg3.win 3).xinj (grid3.coords t) j)
    = Cert.Gcn.dense (V c main_v60) (V c main_v62) (V c main_v63) (((cfg3.win 3).blk t).view.emb j)
  rw [hx, hy, pay_ix2, Cert.Gcn.dense_ix2]
  unfold Cert.Gcn.denseAt
  rw [biasBlk_ix2]
  refine congrArg (· + _) (Finset.sum_congr rfl fun k _ => ?_)
  rw [nodeBlk_ix2 V c t (⟨(j 0).val, hj0⟩ : Fin 5000) k (⟨t.val * 5000 + (j 0).val, by omega⟩ : Fin 100000) rfl, weightBlk_ix2]

/-- An index of the array is in point `t`'s block iff each coordinate is in the block's range on its axis. -/
theorem mem_block_iff (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v64).slice (win3_3.rect t)).set ↔ _
  rw [View.set_slice_whole, Rect.mem_set_unit]
  exact Iff.rfl

/-- Row `i` lies in block `i / 5000`: the twenty blocks cover the array. -/
theorem blocks_cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  refine ⟨⟨(i 0).val / 5000, by show (i 0).val / 5000 < 20; omega⟩, flush3_3 _, ?_⟩
  rw [mem_block_iff]
  obtain ⟨-, -, -, -, -, -, e6, e7⟩ := blockIndex_facts ⟨(i 0).val / 5000, by show (i 0).val / 5000 < 20; omega⟩
  have e6' : win3_3.index ⟨(i 0).val / 5000, by show (i 0).val / 5000 < 20; omega⟩ (0 : Fin 2) = (i 0).val / 5000 := e6
  intro a
  match a with
  | ⟨0, _⟩ => show win3_3.index _ (0 : Fin 2) * 5000 ≤ (i 0).val ∧ (i 0).val < win3_3.index _ (0 : Fin 2) * 5000 + 5000; omega
  | ⟨1, _⟩ => show win3_3.index _ (1 : Fin 2) * 128 ≤ (i 1).val ∧ (i 1).val < win3_3.index _ (1 : Fin 2) * 128 + 128; omega

/-- What the region leaves in its output array: the dense map of the three arrays it reads, as entered. -/
theorem final (c : Dev nD) :
    (dat3 (F := Ideal) V c).arrAt 3 cfg3.N = Cert.Gcn.dense (V c main_v60) (V c main_v62) (V c main_v63) :=
  (dat3 (F := Ideal) V c).arrAt_eq_of_cover 3 _ (fun t _ => writeback_eq V c t) blocks_cover

end Cert.KernelIdeal.Reg3

end
-- ==== Proof.KReg4.lean ====
/-
  Region 4 of the program: twenty row blocks of 5000 nodes, each block's output the block's rows normalised channel by channel and cut at zero; the blocks tile the 100000 rows, so the array the region leaves is that map of the whole arrays it was entered with.

  Three steps. The body's one stored value, read at an element `(r, q)` of a block, is
  `max ((((x + bias_q) − mean_q) · rsqrt (var_q + ε)) · γ_q + β_q) 0` of the block's element and the five rows'
  entries at `q`: every operation in it is pointwise, and a `[1, 128]` row spread over 5000 rows reads its one row.
  Element `(r, q)` of point `t`'s block of a node matrix is the matrix's element `(5000 · t + r, q)`, the same for
  the aggregate read and the output written, and the rows' blocks are the whole rows; so what point `t` writes back
  is block `t` of the normalised matrix. Row `i` lies in block `i / 5000`, so the blocks cover the array.
-/
import proofs.«402512_j53197464928915_1_alg».proof.Proof.Gen.KernelIdeal.Frame
import proofs.«402512_j53197464928915_1_alg».proof.Proof.Model
import Idealize.ShloMosaic.Lib.Pipeline.Value
import Idealize.ShloMosaic.Lib.ValueLayout
import Idealize.ShloMosaic.PureOps.Ideal.Laws

set_option maxRecDepth 16384

noncomputable section

namespace Cert.KernelIdeal.Reg4

open Cert.KernelIdeal Cert.KernelIdeal.Gen Idealize.ShloMosaic Idealize.ShloMosaic.TcCoe Idealize.SL.Sem
open Idealize.ShloMosaic.ValueIdx
open Idealize.ShloMosaic.Pipeline (Dat)

/-! ## The stored value at an element -/

/-- The body's stored value at element `(r, q)` of a block: the normalise-then-`max · 0` formula of the block's
    element and the five rows' entries at channel `q`. The shape casts are to the same shape, each row broadcast
    reads the row's one row, the offset is the constant spread over the row, and the rest is pointwise. -/
theorem payload_apply (x : Vec Ideal S5000x128 .f32) (bias var' mean' gamma beta : Vec Ideal S1x128 .f32)
    (r : Fin 5000) (q : Fin 128) :
    k4_pay1 (F := Ideal) x bias var' mean' gamma beta (ix2 r q)
      = max ((((x (ix2 r q) + bias (ix2 (0 : Fin 1) q)) - mean' (ix2 (0 : Fin 1) q))
          * Ideal.rsqrt (var' (ix2 (0 : Fin 1) q) + Cert.Gcn.epsBn)) * gamma (ix2 (0 : Fin 1) q) + beta (ix2 (0 : Fin 1) q)) 0 := by
  unfold k4_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rw [broadcast_apply]
  rw [show (FloatOps.ofBits (F := Ideal) FTy.f32 0x00000000#32) = (0 : EReal) from Ideal.ofBits_zero_f32]
  rfl

/-! ## The blocks at a point -/

-- The TensorCore's buffer contents when the region is entered: a parameter, as in the frame.
variable (V : (c : Dev nD) → (b : Ref sig .tc) → Buf (Elt Ideal) ((c : Thread nD τ).loc b))

/-- The body reads and writes its staging buffers from offset zero. -/
theorem zero_offsets : (![0, 0] : Fin 2 → Nat) = fun _ => 0 := funext fun a => by fin_cases a <;> rfl

/-- The index maps over the twenty points: the aggregate's and the output's block index is `(t, 0)`, every row's `(0, 0)`. -/
theorem block_indices : ∀ t : Fin cfg4.N,
    win4_6.index t (0 : Fin 2) = t.val ∧ win4_6.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- A point's number is below twenty. -/
theorem point_lt (t : Fin cfg4.N) : t.val < 20 := N_4 ▸ t.isLt

/-- Where element `(p, q)` of point `t`'s output block sits in the array: row `5000 · t + p`, column `q`. -/
theorem out_block_emb (t : Fin cfg4.N) (p : Fin 5000) (q : Fin 128) :
    ((cfg4.win 6).blk t).view.emb (ix2 p q)
      = ix2 (⟨t.val * 5000 + p.val, by have := point_lt t; omega⟩ : Fin 100000) q := by
  obtain ⟨e0, e1, -⟩ := block_indices t
  funext a; apply Fin.ext
  match a with
  | ⟨0, _⟩ => show win4_6.index t (0 : Fin 2) * 5000 + 1 * p.val = t.val * 5000 + p.val; omega
  | ⟨1, _⟩ => show win4_6.index t (1 : Fin 2) * 128 + 1 * q.val = q.val; omega

/-- Element `(p, q)` of point `t`'s block of the aggregate is the aggregate's element `(5000 · t + p, q)`. -/
theorem agg_block_apply (c : Dev nD) (t : Fin cfg4.N) (p : Fin 5000) (q : Fin 128) :
    iblk4 (F := Ideal) V c 0 t (ix2 p q)
      = V c main_v71 (ix2 (⟨t.val * 5000 + p.val, by have := point_lt t; omega⟩ : Fin 100000) q) := by
  obtain ⟨-, -, e0, e1, -⟩ := block_indices t
  show V c main_v71 (((cfg4.win 0).blk t).view.emb (ix2 p q)) = _
  refine congrArg (V c main_v71) ?_
  funext a; apply Fin.ext
  match a with
  | ⟨0, _⟩ => show win4_0.index t (0 : Fin 2) * 5000 + 1 * p.val = t.val * 5000 + p.val; omega
  | ⟨1, _⟩ => show win4_0.index t (1 : Fin 2) * 128 + 1 * q.val = q.val; omega

/-- The bias row's block is the whole row at every point: element `(0, q)` of it is the array's. -/
theorem bias_block_apply (c : Dev nD) (t : Fin cfg4.N) (q : Fin 128) :
    iblk4 (F := Ideal) V c 1 t (ix2 (0 : Fin 1) q) = V c main_v82 (ix2 (0 : Fin 1) q) := by
  obtain ⟨-, -, -, -, e0, e1, -⟩ := block_indices t
  show V c main_v82 (((cfg4.win 1).blk t).view.emb (ix2 (0 : Fin 1) q)) = _
  refine congrArg (V c main_v82) ?_
  funext a; apply Fin.ext
  match a with
  | ⟨0, _⟩ => show win4_1.index t (0 : Fin 2) * 1 + 1 * 0 = 0; omega
  | ⟨1, _⟩ => show win4_1.index t (1 : Fin 2) * 128 + 1 * q.val = q.val; omega

/-- The mean row's block is the whole row at every point: element `(0, q)` of it is the array's. -/
theorem mean_block_apply (c : Dev nD) (t : Fin cfg4.N) (q : Fin 128) :
    iblk4 (F := Ideal) V c 2 t (ix2 (0 : Fin 1) q) = V c main_v83 (ix2 (0 : Fin 1) q) := by
  obtain ⟨-, -, -, -, -, -, e0, e1, -⟩ := block_indices t
  show V c main_v83 (((cfg4.win 2).blk t).view.emb (ix2 (0 : Fin 1) q)) = _
  refine congrArg (V c main_v83) ?_
  funext a; apply Fin.ext
  match a with
  | ⟨0, _⟩ => show win4_2.index t (0 : Fin 2) * 1 + 1 * 0 = 0; omega
  | ⟨1, _⟩ => show win4_2.index t (1 : Fin 2) * 128 + 1 * q.val = q.val; omega

/-- The variance row's block is the whole row at every point: element `(0, q)` of it is the array's. -/
theorem var_block_apply (c : Dev nD) (t : Fin cfg4.N) (q : Fin 128) :
    iblk4 (F := Ideal) V c 3 t (ix2 (0 : Fin 1) q) = V c main_v84 (ix2 (0 : Fin 1) q) := by
  obtain ⟨-, -, -, -, -, -, -, -, e0, e1, -⟩ := block_indices t
  show V c main_v84 (((cfg4.win 3).blk t).view.emb (ix2 (0 : Fin 1) q)) = _
  refine congrArg (V c main_v84) ?_
  funext a; apply Fin.ext
  match a with
  | ⟨0, _⟩ => show win4_3.index t (0 : Fin 2) * 1 + 1 * 0 = 0; omega
  | ⟨1, _⟩ => show win4_3.index t (1 : Fin 2) * 128 + 1 * q.val = q.val; omega

/-- The scale row's block is the whole row at every point: element `(0, q)` of it is the array's. -/
theorem gamma_block_apply (c : Dev nD) (t : Fin cfg4.N) (q : Fin 128) :
    iblk4 (F := Ideal) V c 4 t (ix2 (0 : Fin 1) q) = V c main_v85 (ix2 (0 : Fin 1) q) := by
  obtain ⟨-, -, -, -, -, -, -, -, -, -, e0, e1, -⟩ := block_indices t
  show V c main_v85 (((cfg4.win 4).blk t).view.emb (ix2 (0 : Fin 1) q)) = _
  refine congrArg (V c main_v85) ?_
  funext a; apply Fin.ext
  match a with
  | ⟨0, _⟩ => show win4_4.index t (0 : Fin 2) * 1 + 1 * 0 = 0; omega
  | ⟨1, _⟩ => show win4_4.index t (1 : Fin 2) * 128 + 1 * q.val = q.val; omega

/-- The shift row's block is the whole row at every point: element `(0, q)` of it is the array's. -/
theorem beta_block_apply (c : Dev nD) (t : Fin cfg4.N) (q : Fin 128) :
    iblk4 (F := Ideal) V c 5 t (ix2 (0 : Fin 1) q) = V c main_v86 (ix2 (0 : Fin 1) q) := by
  obtain ⟨-, -, -, -, -, -, -, -, -, -, -, -, e0, e1⟩ := block_indices t
  show V c main_v86 (((cfg4.win 5).blk t).view.emb (ix2 (0 : Fin 1) q)) = _
  refine congrArg (V c main_v86) ?_
  funext a; apply Fin.ext
  match a with
  | ⟨0, _⟩ => show win4_5.index t (0 : Fin 2) * 1 + 1 * 0 = 0; omega
  | ⟨1, _⟩ => show win4_5.index t (1 : Fin 2) * 128 + 1 * q.val = q.val; omega

/-! ## What a point writes back, and the whole array -/

/-- What point `t` writes back is block `t` of the normalised matrix of the arrays as the region finds them. -/
theorem flushed_eq (c : Dev nD) (t : Fin cfg4.N) :
    (dat4 (F := Ideal) V c).flushed 6 t = ((cfg4.win 6).blk t).view.read (Elt Ideal)
      (Cert.Gcn.bnRelu (V c main_v71) (V c main_v82) (V c main_v83) (V c main_v84) (V c main_v85) (V c main_v86)) := by
  show (cfg4.win 6).cut (grid4.coords t) ((dat4 (F := Ideal) V c).after 6 t) = _
  rw [after4_6]
  unfold out4_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (payload_apply _ _ _ _ _ _ p q).trans ?_
  rw [agg_block_apply, bias_block_apply, mean_block_apply, var_block_apply, gamma_block_apply, beta_block_apply]
  show _ = Cert.Gcn.bnRelu (V c main_v71) (V c main_v82) (V c main_v83) (V c main_v84) (V c main_v85) (V c main_v86)
    (((cfg4.win 6).blk t).view.emb (ix2 p q))
  rw [out_block_emb]
  rfl

/-- An index of the output array is in point `t`'s block iff each coordinate is in the block's range on its axis. -/
theorem mem_blk (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v87).slice (win4_6.rect t)).set ↔ _
  rw [View.set_slice_whole, Rect.mem_set_unit]
  exact Iff.rfl

/-- Row `i` lies in block `i / 5000`: the twenty blocks tile the 100000 rows. -/
theorem cover (c : Dev nD) (i : ((cfg4.win 6).arr.view.loc (c.tc : Thread nD τ)).2.ty.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  let t : Fin cfg4.N := ⟨(i 0).val / 5000, lt_of_lt_of_eq (by omega : (i 0).val / 5000 < 20) N_4.symm⟩
  obtain ⟨e0, e1, -⟩ := block_indices t
  have ht : t.val = (i 0).val / 5000 := rfl
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- What the region leaves in its output array: normalise-then-`max · 0` of the aggregate and the five rows, as entered. -/
theorem final (c : Dev nD) :
    (dat4 (F := Ideal) V c).arrAt 6 cfg4.N
      = Cert.Gcn.bnRelu (V c main_v71) (V c main_v82) (V c main_v83) (V c main_v84) (V c main_v85) (V c main_v86) :=
  (dat4 (F := Ideal) V c).arrAt_eq_of_cover 6 _ (fun t _ => flushed_eq V c t) (cover c)

end Cert.KernelIdeal.Reg4

end
-- ==== Proof.KReg5.lean ====
/-
  Region 5 of the program: twenty row blocks of 5000 nodes, each block's output the block's rows of `x · w + b`; the blocks tile the 100000 rows, so the array the region leaves is that map of the whole arrays it was entered with.

  Three steps. The block's payload at an entry `(r, q)` is the sum over the 128 channels `k` of `x (r, k) · w (k, q)`
  plus the bias row's entry `q`: the narrowing to bfloat16 is the identity on the extended reals, the product into the
  zero accumulator is the bare sum, the `[1, 128]` row broadcast reads its one row. At grid point `t` the node block is
  rows `5000 · t … 5000 · t + 4999` of the node matrix and the weight and the bias row are their whole arrays, so what
  point `t` writes back is block `t` of `x · w + b`. Row `i` lies in block `i / 5000`, so the twenty blocks cover the array.
-/
import proofs.«402512_j53197464928915_1_alg».proof.Proof.Gen.KernelIdeal.Frame
import proofs.«402512_j53197464928915_1_alg».proof.Proof.Model
import Idealize.ShloMosaic.Lib.Pipeline.Value
import Idealize.ShloMosaic.Lib.ValueLayout
import Idealize.ShloMosaic.PureOps.Ideal.Laws

set_option maxRecDepth 16384

noncomputable section

namespace Cert.KernelIdeal.Reg5

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The payload at an entry -/

/-- The product's left operand index at output `i` and contraction index `q`: row `i 0` … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column the contracted channel; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's: row the contracted channel … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column `i 1`. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at entry `(r, q)`: the sum over the 128 contracted channels. -/
theorem matmul_zero_ix2 (x : FVec Ideal S5000x128 .bf16) (w : FVec Ideal S128x128 .bf16) (r : Fin 5000) (q : Fin 128) :
    matmul dot_S5000x128_S128x128_S5000x128_1_0_0_1_n_n none x w (constant (F := Ideal) S5000x128 .f32 0x00000000#32) (ix2 r q)
      = ∑ k : Fin 128, x (ix2 r k) * w (ix2 k q) := by
  refine (Ideal.matmul_constant_zero_apply dot_S5000x128_S128x128_S5000x128_1_0_0_1_n_n none x w (ix2 r q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The block's payload at entry `(r, q)`: the block's row `r` against the weight's column `q`, plus the bias row's entry `q`. -/
theorem pay_ix2 (x : FVec Ideal S5000x128 .f32) (w : FVec Ideal S128x128 .f32) (b : FVec Ideal S1x128 .f32) (r : Fin 5000) (q : Fin 128) :
    k5_pay1 (F := Ideal) x w b (ix2 r q) = (∑ k : Fin 128, x (ix2 r k) * w (ix2 k q)) + b (ix2 (0 : Fin 1) q) := by
  unfold k5_pay1
  simp only [shapeCast_self]
  refine (addf_apply _ _ (ix2 r q)).trans ?_
  rw [matmul_zero_ix2, broadcastTo_1b_ab_apply]
  rfl

/-! ## The blocks at a grid point -/

-- The TensorCore's buffer contents when the region is entered: a parameter, as in the frame.
variable (V : (c : Dev nD) → (b : Ref sig .tc) → Buf (Elt Ideal) ((c : Thread nD τ).loc b))

theorem zeros_eq : (![0, 0] : Fin 2 → Nat) = fun _ => 0 := funext fun a => by fin_cases a <;> rfl

/-- The index maps over the twenty points: the node block and the output block are block `t` of the rows and the one
    block of columns; the weight and the bias row are their arrays' one block. -/
theorem blockIndex_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The node block at point `t`, entry `(p, k)`: row `5000 · t + p` of the node matrix. -/
theorem nodeBlk_ix2 (c : Dev nD) (t : Fin cfg5.N) (p : Fin 5000) (k : Fin 128) (P : Fin 100000) (hP : P.val = t.val * 5000 + p.val) :
    iblk5 (F := Ideal) V c 0 t (ix2 p k) = V c main_v87 (ix2 P k) := by
  show V c main_v87 (((cfg5.win 0).blk t).view.emb (ix2 p k)) = _
  refine congrArg (V c main_v87) (funext fun a => Fin.ext ?_)
  obtain ⟨e0, e1, -⟩ := blockIndex_facts t
  match a with
  | ⟨0, _⟩ => show win5_0.index t (0 : Fin 2) * 5000 + 1 * p.val = P.val; omega
  | ⟨1, _⟩ => show win5_0.index t (1 : Fin 2) * 128 + 1 * k.val = k.val; omega

/-- The weight block at any point is the weight. -/
theorem weightBlk_ix2 (c : Dev nD) (t : Fin cfg5.N) (k : Fin 128) (q : Fin 128) :
    iblk5 (F := Ideal) V c 1 t (ix2 k q) = V c main_v89 (ix2 k q) := by
  show V c main_v89 (((cfg5.win 1).blk t).view.emb (ix2 k q)) = _
  refine congrArg (V c main_v89) (funext fun a => Fin.ext ?_)
  obtain ⟨-, -, e2, e3, -⟩ := blockIndex_facts t
  match a with
  | ⟨0, _⟩ => show win5_1.index t (0 : Fin 2) * 128 + 1 * k.val = k.val; omega
  | ⟨1, _⟩ => show win5_1.index t (1 : Fin 2) * 128 + 1 * q.val = q.val; omega

/-- The bias block at any point is the bias row. -/
theorem biasBlk_ix2 (c : Dev nD) (t : Fin cfg5.N) (z : Fin 1) (q : Fin 128) :
    iblk5 (F := Ideal) V c 2 t (ix2 z q) = V c main_v90 (ix2 z q) := by
  show V c main_v90 (((cfg5.win 2).blk t).view.emb (ix2 z q)) = _
  refine congrArg (V c main_v90) (funext fun a => Fin.ext ?_)
  obtain ⟨-, -, -, -, e4, e5, -⟩ := blockIndex_facts t
  match a with
  | ⟨0, _⟩ => show win5_2.index t (0 : Fin 2) * 1 + 1 * z.val = z.val; omega
  | ⟨1, _⟩ => show win5_2.index t (1 : Fin 2) * 128 + 1 * q.val = q.val; omega

/-! ## What a point writes back, and the cover -/

/-- WHAT POINT `t` WRITES BACK is block `t` of `x · w + b` of the arrays as the region finds them. -/
theorem writeback_eq (c : Dev nD) (t : Fin cfg5.N) :
    (dat5 (F := Ideal) V c).flushed 3 t
      = ((cfg5.win 3).blk t).view.read (Elt Ideal) (Cert.Gcn.dense (V c main_v87) (V c main_v89) (V c main_v90)) := by
  show (cfg5.win 3).cut (grid5.coords t) ((dat5 V c).after 3 t) = _
  rw [after5_3]
  unfold out5_3
  rw [View.canon_unit_zero zeros_eq]
  simp only [View.ld_unit_zero (S := S5000x128) zeros_eq, View.ld_unit_zero (S := S128x128) zeros_eq, View.ld_unit_zero (S := S1x128) zeros_eq]
  funext j
  have ht : t.val < 20 := t.isLt
  have hj0 : (j 0).val < 5000 := (j 0).isLt
  have hj1 : (j 1).val < 128 := (j 1).isLt
  obtain ⟨-, -, -, -, -, -, e6, e7⟩ := blockIndex_facts t
  have hx : (cfg5.win 3).xinj (grid5.coords t) j = ix2 (⟨(j 0).val, hj0⟩ : Fin 5000) (⟨(j 1).val, hj1⟩ : Fin 128) := by
    funext a
    match a with
    | ⟨0, _⟩ => rfl
    | ⟨1, _⟩ => rfl
  have hy : ((cfg5.win 3).blk t).view.emb j = ix2 (⟨t.val * 5000 + (j 0).val, by omega⟩ : Fin 100000) (⟨(j 1).val, hj1⟩ : Fin 128) := by
    funext a; apply Fin.ext
    match a with
    | ⟨0, _⟩ => show win5_3.index t (0 : Fin 2) * 5000 + 1 * (j 0).val = t.val * 5000 + (j 0).val; omega
    | ⟨1, _⟩ => show win5_3.index t (1 : Fin 2) * 128 + 1 * (j 1).val = (j 1).val; omega
  show k5_pay1 (F := Ideal) (iblk5 V c 0 t) (iblk5 V c 1 t) (iblk5 V c 2 t) ((cfg5.win 3).xinj (grid5.coords t) j)
    = Cert.Gcn.dense (V c main_v87) (V c main_v89) (V c main_v90) (((cfg5.win 3).blk t).view.emb j)
  rw [hx, hy, pay_ix2, Cert.Gcn.dense_ix2]
  unfold Cert.Gcn.denseAt
  rw [biasBlk_ix2]
  refine congrArg (· + _) (Finset.sum_congr rfl fun k _ => ?_)
  rw [nodeBlk_ix2 V c t (⟨(j 0).val, hj0⟩ : Fin 5000) k (⟨t.val * 5000 + (j 0).val, by omega⟩ : Fin 100000) rfl, weightBlk_ix2]

/-- An index of the array is in point `t`'s block iff each coordinate is in the block's range on its axis. -/
theorem mem_block_iff (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v91).slice (win5_3.rect t)).set ↔ _
  rw [View.set_slice_whole, Rect.mem_set_unit]
  exact Iff.rfl

/-- Row `i` lies in block `i / 5000`: the twenty blocks cover the array. -/
theorem blocks_cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  refine ⟨⟨(i 0).val / 5000, by show (i 0).val / 5000 < 20; omega⟩, flush5_3 _, ?_⟩
  rw [mem_block_iff]
  obtain ⟨-, -, -, -, -, -, e6, e7⟩ := blockIndex_facts ⟨(i 0).val / 5000, by show (i 0).val / 5000 < 20; omega⟩
  have e6' : win5_3.index ⟨(i 0).val / 5000, by show (i 0).val / 5000 < 20; omega⟩ (0 : Fin 2) = (i 0).val / 5000 := e6
  intro a
  match a with
  | ⟨0, _⟩ => show win5_3.index _ (0 : Fin 2) * 5000 ≤ (i 0).val ∧ (i 0).val < win5_3.index _ (0 : Fin 2) * 5000 + 5000; omega
  | ⟨1, _⟩ => show win5_3.index _ (1 : Fin 2) * 128 ≤ (i 1).val ∧ (i 1).val < win5_3.index _ (1 : Fin 2) * 128 + 128; omega

/-- What the region leaves in its output array: the dense map of the three arrays it reads, as entered. -/
theorem final (c : Dev nD) :
    (dat5 (F := Ideal) V c).arrAt 3 cfg5.N = Cert.Gcn.dense (V c main_v87) (V c main_v89) (V c main_v90) :=
  (dat5 (F := Ideal) V c).arrAt_eq_of_cover 3 _ (fun t _ => writeback_eq V c t) blocks_cover

end Cert.KernelIdeal.Reg5

end
-- ==== Proof.KReg6.lean ====
/-
  Region 6 of the program: twenty row blocks of 5000 nodes, each block's output the block's rows normalised channel by channel and cut at zero; the blocks tile the 100000 rows, so the array the region leaves is that map of the whole arrays it was entered with.

  Three steps. The body's one stored value, read at an element `(r, q)` of a block, is
  `max ((((x + bias_q) − mean_q) · rsqrt (var_q + ε)) · γ_q + β_q) 0` of the block's element and the five rows'
  entries at `q`: every operation in it is pointwise, and a `[1, 128]` row spread over 5000 rows reads its one row.
  Element `(r, q)` of point `t`'s block of a node matrix is the matrix's element `(5000 · t + r, q)`, the same for
  the aggregate read and the output written, and the rows' blocks are the whole rows; so what point `t` writes back
  is block `t` of the normalised matrix. Row `i` lies in block `i / 5000`, so the blocks cover the array.
-/
import proofs.«402512_j53197464928915_1_alg».proof.Proof.Gen.KernelIdeal.Frame
import proofs.«402512_j53197464928915_1_alg».proof.Proof.Model
import Idealize.ShloMosaic.Lib.Pipeline.Value
import Idealize.ShloMosaic.Lib.ValueLayout
import Idealize.ShloMosaic.PureOps.Ideal.Laws

set_option maxRecDepth 16384

noncomputable section

namespace Cert.KernelIdeal.Reg6

open Cert.KernelIdeal Cert.KernelIdeal.Gen Idealize.ShloMosaic Idealize.ShloMosaic.TcCoe Idealize.SL.Sem
open Idealize.ShloMosaic.ValueIdx
open Idealize.ShloMosaic.Pipeline (Dat)

/-! ## The stored value at an element -/

/-- The body's stored value at element `(r, q)` of a block: the normalise-then-`max · 0` formula of the block's
    element and the five rows' entries at channel `q`. The shape casts are to the same shape, each row broadcast
    reads the row's one row, the offset is the constant spread over the row, and the rest is pointwise. -/
theorem payload_apply (x : Vec Ideal S5000x128 .f32) (bias var' mean' gamma beta : Vec Ideal S1x128 .f32)
    (r : Fin 5000) (q : Fin 128) :
    k6_pay1 (F := Ideal) x bias var' mean' gamma beta (ix2 r q)
      = max ((((x (ix2 r q) + bias (ix2 (0 : Fin 1) q)) - mean' (ix2 (0 : Fin 1) q))
          * Ideal.rsqrt (var' (ix2 (0 : Fin 1) q) + Cert.Gcn.epsBn)) * gamma (ix2 (0 : Fin 1) q) + beta (ix2 (0 : Fin 1) q)) 0 := by
  unfold k6_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rw [broadcast_apply]
  rw [show (FloatOps.ofBits (F := Ideal) FTy.f32 0x00000000#32) = (0 : EReal) from Ideal.ofBits_zero_f32]
  rfl

/-! ## The blocks at a point -/

-- The TensorCore's buffer contents when the region is entered: a parameter, as in the frame.
variable (V : (c : Dev nD) → (b : Ref sig .tc) → Buf (Elt Ideal) ((c : Thread nD τ).loc b))

/-- The body reads and writes its staging buffers from offset zero. -/
theorem zero_offsets : (![0, 0] : Fin 2 → Nat) = fun _ => 0 := funext fun a => by fin_cases a <;> rfl

/-- The index maps over the twenty points: the aggregate's and the output's block index is `(t, 0)`, every row's `(0, 0)`. -/
theorem block_indices : ∀ t : Fin cfg6.N,
    win6_6.index t (0 : Fin 2) = t.val ∧ win6_6.index t (1 : Fin 2) = 0
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- A point's number is below twenty. -/
theorem point_lt (t : Fin cfg6.N) : t.val < 20 := N_6 ▸ t.isLt

/-- Where element `(p, q)` of point `t`'s output block sits in the array: row `5000 · t + p`, column `q`. -/
theorem out_block_emb (t : Fin cfg6.N) (p : Fin 5000) (q : Fin 128) :
    ((cfg6.win 6).blk t).view.emb (ix2 p q)
      = ix2 (⟨t.val * 5000 + p.val, by have := point_lt t; omega⟩ : Fin 100000) q := by
  obtain ⟨e0, e1, -⟩ := block_indices t
  funext a; apply Fin.ext
  match a with
  | ⟨0, _⟩ => show win6_6.index t (0 : Fin 2) * 5000 + 1 * p.val = t.val * 5000 + p.val; omega
  | ⟨1, _⟩ => show win6_6.index t (1 : Fin 2) * 128 + 1 * q.val = q.val; omega

/-- Element `(p, q)` of point `t`'s block of the aggregate is the aggregate's element `(5000 · t + p, q)`. -/
theorem agg_block_apply (c : Dev nD) (t : Fin cfg6.N) (p : Fin 5000) (q : Fin 128) :
    iblk6 (F := Ideal) V c 0 t (ix2 p q)
      = V c main_v98 (ix2 (⟨t.val * 5000 + p.val, by have := point_lt t; omega⟩ : Fin 100000) q) := by
  obtain ⟨-, -, e0, e1, -⟩ := block_indices t
  show V c main_v98 (((cfg6.win 0).blk t).view.emb (ix2 p q)) = _
  refine congrArg (V c main_v98) ?_
  funext a; apply Fin.ext
  match a with
  | ⟨0, _⟩ => show win6_0.index t (0 : Fin 2) * 5000 + 1 * p.val = t.val * 5000 + p.val; omega
  | ⟨1, _⟩ => show win6_0.index t (1 : Fin 2) * 128 + 1 * q.val = q.val; omega

/-- The bias row's block is the whole row at every point: element `(0, q)` of it is the array's. -/
theorem bias_block_apply (c : Dev nD) (t : Fin cfg6.N) (q : Fin 128) :
    iblk6 (F := Ideal) V c 1 t (ix2 (0 : Fin 1) q) = V c main_v109 (ix2 (0 : Fin 1) q) := by
  obtain ⟨-, -, -, -, e0, e1, -⟩ := block_indices t
  show V c main_v109 (((cfg6.win 1).blk t).view.emb (ix2 (0 : Fin 1) q)) = _
  refine congrArg (V c main_v109) ?_
  funext a; apply Fin.ext
  match a with
  | ⟨0, _⟩ => show win6_1.index t (0 : Fin 2) * 1 + 1 * 0 = 0; omega
  | ⟨1, _⟩ => show win6_1.index t (1 : Fin 2) * 128 + 1 * q.val = q.val; omega

/-- The mean row's block is the whole row at every point: element `(0, q)` of it is the array's. -/
theorem mean_block_apply (c : Dev nD) (t : Fin cfg6.N) (q : Fin 128) :
    iblk6 (F := Ideal) V c 2 t (ix2 (0 : Fin 1) q) = V c main_v110 (ix2 (0 : Fin 1) q) := by
  obtain ⟨-, -, -, -, -, -, e0, e1, -⟩ := block_indices t
  show V c main_v110 (((cfg6.win 2).blk t).view.emb (ix2 (0 : Fin 1) q)) = _
  refine congrArg (V c main_v110) ?_
  funext a; apply Fin.ext
  match a with
  | ⟨0, _⟩ => show win6_2.index t (0 : Fin 2) * 1 + 1 * 0 = 0; omega
  | ⟨1, _⟩ => show win6_2.index t (1 : Fin 2) * 128 + 1 * q.val = q.val; omega

/-- The variance row's block is the whole row at every point: element `(0, q)` of it is the array's. -/
theorem var_block_apply (c : Dev nD) (t : Fin cfg6.N) (q : Fin 128) :
    iblk6 (F := Ideal) V c 3 t (ix2 (0 : Fin 1) q) = V c main_v111 (ix2 (0 : Fin 1) q) := by
  obtain ⟨-, -, -, -, -, -, -, -, e0, e1, -⟩ := block_indices t
  show V c main_v111 (((cfg6.win 3).blk t).view.emb (ix2 (0 : Fin 1) q)) = _
  refine congrArg (V c main_v111) ?_
  funext a; apply Fin.ext
  match a with
  | ⟨0, _⟩ => show win6_3.index t (0 : Fin 2) * 1 + 1 * 0 = 0; omega
  | ⟨1, _⟩ => show win6_3.index t (1 : Fin 2) * 128 + 1 * q.val = q.val; omega

/-- The scale row's block is the whole row at every point: element `(0, q)` of it is the array's. -/
theorem gamma_block_apply (c : Dev nD) (t : Fin cfg6.N) (q : Fin 128) :
    iblk6 (F := Ideal) V c 4 t (ix2 (0 : Fin 1) q) = V c main_v112 (ix2 (0 : Fin 1) q) := by
  obtain ⟨-, -, -, -, -, -, -, -, -, -, e0, e1, -⟩ := block_indices t
  show V c main_v112 (((cfg6.win 4).blk t).view.emb (ix2 (0 : Fin 1) q)) = _
  refine congrArg (V c main_v112) ?_
  funext a; apply Fin.ext
  match a with
  | ⟨0, _⟩ => show win6_4.index t (0 : Fin 2) * 1 + 1 * 0 = 0; omega
  | ⟨1, _⟩ => show win6_4.index t (1 : Fin 2) * 128 + 1 * q.val = q.val; omega

/-- The shift row's block is the whole row at every point: element `(0, q)` of it is the array's. -/
theorem beta_block_apply (c : Dev nD) (t : Fin cfg6.N) (q : Fin 128) :
    iblk6 (F := Ideal) V c 5 t (ix2 (0 : Fin 1) q) = V c main_v113 (ix2 (0 : Fin 1) q) := by
  obtain ⟨-, -, -, -, -, -, -, -, -, -, -, -, e0, e1⟩ := block_indices t
  show V c main_v113 (((cfg6.win 5).blk t).view.emb (ix2 (0 : Fin 1) q)) = _
  refine congrArg (V c main_v113) ?_
  funext a; apply Fin.ext
  match a with
  | ⟨0, _⟩ => show win6_5.index t (0 : Fin 2) * 1 + 1 * 0 = 0; omega
  | ⟨1, _⟩ => show win6_5.index t (1 : Fin 2) * 128 + 1 * q.val = q.val; omega

/-! ## What a point writes back, and the whole array -/

/-- What point `t` writes back is block `t` of the normalised matrix of the arrays as the region finds them. -/
theorem flushed_eq (c : Dev nD) (t : Fin cfg6.N) :
    (dat6 (F := Ideal) V c).flushed 6 t = ((cfg6.win 6).blk t).view.read (Elt Ideal)
      (Cert.Gcn.bnRelu (V c main_v98) (V c main_v109) (V c main_v110) (V c main_v111) (V c main_v112) (V c main_v113)) := by
  show (cfg6.win 6).cut (grid6.coords t) ((dat6 (F := Ideal) V c).after 6 t) = _
  rw [after6_6]
  unfold out6_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (payload_apply _ _ _ _ _ _ p q).trans ?_
  rw [agg_block_apply, bias_block_apply, mean_block_apply, var_block_apply, gamma_block_apply, beta_block_apply]
  show _ = Cert.Gcn.bnRelu (V c main_v98) (V c main_v109) (V c main_v110) (V c main_v111) (V c main_v112) (V c main_v113)
    (((cfg6.win 6).blk t).view.emb (ix2 p q))
  rw [out_block_emb]
  rfl

/-- An index of the output array is in point `t`'s block iff each coordinate is in the block's range on its axis. -/
theorem mem_blk (t : Fin cfg6.N) (i : S100000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole main_v114).slice (win6_6.rect t)).set ↔ _
  rw [View.set_slice_whole, Rect.mem_set_unit]
  exact Iff.rfl

/-- Row `i` lies in block `i / 5000`: the twenty blocks tile the 100000 rows. -/
theorem cover (c : Dev nD) (i : ((cfg6.win 6).arr.view.loc (c.tc : Thread nD τ)).2.ty.Idx) :
    ∃ t : Fin cfg6.N, (cfg6.win 6).flush t = true ∧ i ∈ ((cfg6.win 6).blk t).view.set := by
  have hi0 : (i 0).val < 100000 := (i 0).isLt
  have hi1 : (i 1).val < 128 := (i 1).isLt
  let t : Fin cfg6.N := ⟨(i 0).val / 5000, lt_of_lt_of_eq (by omega : (i 0).val / 5000 < 20) N_6.symm⟩
  obtain ⟨e0, e1, -⟩ := block_indices t
  have ht : t.val = (i 0).val / 5000 := rfl
  refine ⟨t, flush6_6 t, ?_⟩
  rw [mem_blk]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 128 ≤ (i 1).val ∧ (i 1).val < win6_6.index t (1 : Fin 2) * 128 + 128; omega

/-- What the region leaves in its output array: normalise-then-`max · 0` of the aggregate and the five rows, as entered. -/
theorem final (c : Dev nD) :
    (dat6 (F := Ideal) V c).arrAt 6 cfg6.N
      = Cert.Gcn.bnRelu (V c main_v98) (V c main_v109) (V c main_v110) (V c main_v111) (V c main_v112) (V c main_v113) :=
  (dat6 (F := Ideal) V c).arrAt_eq_of_cover 6 _ (fun t _ => flushed_eq V c t) (cover c)

end Cert.KernelIdeal.Reg6

end
-- ==== Proof.KReg7.lean ====
/-
  Region 7 of the program: twenty row blocks of 5000 nodes, each block's output the block's rows of `x · w + b`; the blocks tile the 100000 rows, so the array the region leaves is that map of the whole arrays it was entered with.
-/
import proofs.«402512_j53197464928915_1_alg».proof.Proof.Gen.KernelIdeal.Frame
import proofs.«402512_j53197464928915_1_alg».proof.Proof.Model
import Idealize.ShloMosaic.Lib.Pipeline.Value
import Idealize.ShloMosaic.PureOps.Ideal.Laws

set_option maxRecDepth 16384

noncomputable section

namespace Cert.KernelIdeal.Reg7

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The contraction's index maps, axis by axis -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The body's result at an entry of a block -/

/-- The block product into the zero accumulator, at entry `(r, q)`: the sum over the 128 channels. -/
theorem blockProduct_apply (x : FVec Ideal S5000x128 .bf16) (w : FVec Ideal S128x128 .bf16) (r : Fin 5000) (q : Fin 128) :
    matmul dot_S5000x128_S128x128_S5000x128_1_0_0_1_n_n none x w (constant (F := Ideal) S5000x128 .f32 0x00000000#32) (ix2 r q)
      = ∑ k : Fin 128, x (ix2 r k) * w (ix2 k q) := by
  refine (Ideal.matmul_constant_zero_apply dot_S5000x128_S128x128_S5000x128_1_0_0_1_n_n none x w (ix2 r q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row spread over the 5000 rows, at entry `(r, q)`: the row's entry `q`. -/
theorem biasRows_apply (b : FVec Ideal S1x128 .f32) (r : Fin 5000) (q : Fin 128) :
    broadcastTo S5000x128 (shapeCast S1x128 b shapeCasts_S1x128_S1x128) broadcasts_S1x128_S5000x128 (ix2 r q) = b (ix2 (0 : Fin 1) q) := by
  rw [shapeCast_self]
  exact broadcastTo_apply b broadcasts_S1x128_S5000x128 (ix2 r q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- THE BODY'S RESULT AT ENTRY `(r, q)` of a block: the block's row `r` against the weight's column `q`, plus the
    bias entry `q`. -/
theorem payload_apply (x : Vec Ideal S5000x128 .f32) (w : Vec Ideal S128x128 .f32) (b : Vec Ideal S1x128 .f32) (r : Fin 5000) (q : Fin 128) :
    k7_pay1 (F := Ideal) x w b (ix2 r q) = (∑ k : Fin 128, x (ix2 r k) * w (ix2 k q)) + b (ix2 (0 : Fin 1) q) := by
  unfold k7_pay1
  show matmul dot_S5000x128_S128x128_S5000x128_1_0_0_1_n_n none (truncf .bf16 (shapeCast S5000x128 x shapeCasts_S5000x128_S5000x128) bitsLt_bf16_f32) (truncf .bf16 w bitsLt_bf16_f32) (constant (F := Ideal) S5000x128 .f32 0x00000000#32) (ix2 r q)
      + broadcastTo S5000x128 (shapeCast S1x128 b shapeCasts_S1x128_S1x128) broadcasts_S1x128_S5000x128 (ix2 r q) = _
  rw [shapeCast_self x shapeCasts_S5000x128_S5000x128, blockProduct_apply, biasRows_apply]
  rfl

/-- A block's entry against the whole arrays: when the block `x` holds rows `n · 5000 …` of `X`, and `w`, `b` are
    `W`, `B`, the body's result at the block's entry `j` is the dense map's entry at row `n · 5000 + j₀`, column `j₁`. -/
theorem block_entry (x : Vec Ideal S5000x128 .f32) (w : Vec Ideal S128x128 .f32) (b : Vec Ideal S1x128 .f32)
    (X : Cert.Gcn.NodeMat) (W : Cert.Gcn.Weight) (B : Cert.Gcn.RowVec) (n : Nat) (j : S5000x128.Idx) (i : S100000x128.Idx)
    (hi0 : (i 0).val = n * 5000 + 1 * (j 0).val) (hi1 : (i 1).val = (j 1).val)
    (hx : ∀ (y : S5000x128.Idx) (i' : S100000x128.Idx), (i' 0).val = n * 5000 + 1 * (y 0).val → (i' 1).val = (y 1).val → x y = X i')
    (hw : ∀ y : S128x128.Idx, w y = W y) (hb : ∀ y : S1x128.Idx, b y = B y) :
    k7_pay1 (F := Ideal) x w b j = Cert.Gcn.dense X W B i := by
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  have hq : q' = q := Fin.ext hi1
  subst hq
  have hs : (∑ k : Fin 128, x (ix2 r k) * w (ix2 k q')) = ∑ k : Fin 128, X (ix2 p k) * W (ix2 k q') :=
    Finset.sum_congr rfl fun k _ => by rw [hx (ix2 r k) (ix2 p k) hi0 rfl, hw]
  rw [payload_apply, Cert.Gcn.dense_ix2, hs, hb]
  rfl

/-! ## From the blocks to the array -/

-- The TensorCore's buffer contents when the region is entered: a parameter, as in the frame.
variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the twenty points: the input rows' block moves with the output's (block `t` of rows,
    the one block of columns), the weight and the bias row are their whole arrays at every point. -/
theorem blockMaps : ∀ t : Fin cfg7.N, win7_0.index t (0 : Fin 2) = win7_3.index t (0 : Fin 2)
    ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) ≤ 19 ∧ win7_3.index t (1 : Fin 2) = 0 :=
  (by decide +kernel : ∀ t : Fin grid7.N, _)

/-- Every one of the twenty row blocks is some point's. -/
theorem blockOnto : ∀ (n : Fin 20), ∃ t : Fin cfg7.N, win7_3.index t = ![n.val, 0] :=
  (by decide +kernel : ∀ (n : Fin 20), ∃ t : Fin grid7.N, win7_3.index t = ![n.val, 0])

/-- WHAT POINT `t` WRITES BACK is block `t` of the dense map of the arrays as the region finds them. -/
theorem flushed_eq (c : Dev nD) (t : Fin cfg7.N) :
    (dat7 (F := Ideal) V c).flushed 3 t = ((cfg7.win 3).blk t).view.read (Elt Ideal) (Cert.Gcn.dense (V c main_v114) (V c main_arg5) (V c main_v115)) := by
  show (cfg7.win 3).cut (grid7.coords t) ((dat7 V c).after 3 t) = _
  rw [after7_3]
  unfold out7_3
  rw [View.canon_unit_zero zeroOffsets]
  simp only [View.ld_unit_zero (S := S5000x128) zeroOffsets, View.ld_unit_zero (S := S128x128) zeroOffsets, View.ld_unit_zero (S := S1x128) zeroOffsets]
  obtain ⟨e0, e1, e2, e3, e4, e5, e6, e7⟩ := blockMaps t
  funext j
  refine block_entry (iblk7 V c 0 t) (iblk7 V c 1 t) (iblk7 V c 2 t) (V c main_v114) (V c main_arg5) (V c main_v115) (win7_3.index t (0 : Fin 2))
    ((cfg7.win 3).xinj (grid7.coords t) j) (((cfg7.win 3).blk t).view.emb j) ?_ ?_ ?_ ?_ ?_
  · show win7_3.index t (0 : Fin 2) * 5000 + 1 * (j 0).val = win7_3.index t (0 : Fin 2) * 5000 + 1 * (j 0).val
    rfl
  · show win7_3.index t (1 : Fin 2) * 128 + 1 * (j 1).val = (j 1).val
    rw [e7]; omega
  · intro y i' h0 h1
    show V c main_v114 (((cfg7.win 0).blk t).view.emb y) = V c main_v114 i'
    refine congrArg _ (funext fun a => Fin.ext ?_)
    match a with
    | ⟨0, _⟩ => show win7_0.index t (0 : Fin 2) * 5000 + 1 * (y 0).val = (i' 0).val; rw [h0, e0]
    | ⟨1, _⟩ => show win7_0.index t (1 : Fin 2) * 128 + 1 * (y 1).val = (i' 1).val; rw [h1, e1]; omega
  · intro y
    show V c main_arg5 (((cfg7.win 1).blk t).view.emb y) = V c main_arg5 y
    refine congrArg _ (funext fun a => Fin.ext ?_)
    match a with
    | ⟨0, _⟩ => show win7_1.index t (0 : Fin 2) * 128 + 1 * (y 0).val = (y 0).val; rw [e2]; omega
    | ⟨1, _⟩ => show win7_1.index t (1 : Fin 2) * 128 + 1 * (y 1).val = (y 1).val; rw [e3]; omega
  · intro y
    show V c main_v115 (((cfg7.win 2).blk t).view.emb y) = V c main_v115 y
    refine congrArg _ (funext fun a => Fin.ext ?_)
    match a with
    | ⟨0, _⟩ => show win7_2.index t (0 : Fin 2) * 1 + 1 * (y 0).val = (y 0).val; rw [e4]; omega
    | ⟨1, _⟩ => show win7_2.index t (1 : Fin 2) * 128 + 1 * (y 1).val = (y 1).val; rw [e5]; omega

/-- An index of the array is in point `t`'s block iff each coordinate is in the block's range on its axis. -/
theorem mem_block (t : Fin cfg7.N) (i : S100000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v116).slice (win7_3.rect t)).set ↔ _
  rw [View.set_slice_whole, Rect.mem_set_unit]
  exact Iff.rfl

/-- The twenty row blocks tile the array: row `i` is in block `i / 5000`. -/
theorem rows_covered (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  obtain ⟨t, ht⟩ := blockOnto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_block]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- What the region leaves in its output array: the dense map of the three arrays it reads, as entered. -/
theorem final (c : Dev nD) :
    (dat7 (F := Ideal) V c).arrAt 3 cfg7.N = Cert.Gcn.dense (V c main_v114) (V c main_arg5) (V c main_v115) :=
  (dat7 (F := Ideal) V c).arrAt_eq_of_cover 3 _ (fun t _ => flushed_eq V c t) (fun i => rows_covered i)

end Cert.KernelIdeal.Reg7

end
-- ==== Proof.KHostEdge.lean ====
/-
  The kernel program's edge data are the reference's.

  Before its first kernel region the program computes, from the edge list alone, the source and destination index
  vectors (each the list's row followed by the self loops `0 … 99999`) and the symmetric degree weight of every
  edge, with the very operations the reference uses: whatever valuation the stretch is entered with, the three
  buffers end at the reference's stages of that valuation's edge list.
-/
import proofs.«402512_j53197464928915_1_alg».proof.Proof.Gen.KernelIdeal.Launch
import proofs.«402512_j53197464928915_1_alg».proof.Proof.RefRead
import Idealize.ShloMosaic.Lib.StableHlo.Run

noncomputable section

namespace Cert.KernelIdeal.HostEdge

open Cert.KernelIdeal Cert.KernelIdeal.Gen Idealize.ShloMosaic Idealize.ShloMosaic.TcCoe Idealize.ShloMosaic.ValueIdx Idealize.SL.Sem

variable (W : Valuation τ sig (Elt Ideal))

/-- The valuation after the three host stretches that precede region 0. -/
abbrev pre0 : Valuation τ sig (Elt Ideal) :=
  StableHlo.after hostOps0_2 (StableHlo.after hostOps0_1 (StableHlo.after hostOps0 W))

/-! ## The three stretches, one at a time

Each stretch is read from an arbitrary valuation `V`: the first computes, from the edge list, the two index vectors,
the test "the degree is positive", the degree to the power `-1/2` and the zero it falls back on; the second selects
between the last two; the third wraps both index vectors, gathers the inverse square roots at them and multiplies.
The first stretch's results are the reference's stages verbatim; the later stretches are stated over the buffers they
read, and the chain is closed in `pre0_norm`. -/

section Stages

open Idealize.ShloMosaic.StableHlo

variable (V : Valuation τ sig (Elt Ideal))

/-- First stretch: the source indices. -/
theorem a_src : after hostOps0 V (Proc.devRef .tc main_v3) = Cert.ReferenceIdeal.Read.val_main_v3 (F := Ideal) (V (Proc.devRef .tc main_arg1)) := by
  after_results
  rfl

/-- First stretch: the destination indices. -/
theorem a_dst : after hostOps0 V (Proc.devRef .tc main_v6) = Cert.ReferenceIdeal.Read.val_main_v6 (F := Ideal) (V (Proc.devRef .tc main_arg1)) := by
  after_results
  rfl

/-- First stretch: which nodes have positive degree. -/
theorem a_pos : after hostOps0 V (Proc.devRef .tc main_v12) = Cert.ReferenceIdeal.Read.val_main_v12 (F := Ideal) (V (Proc.devRef .tc main_arg1)) := by
  after_results
  rfl

/-- First stretch: the degree to the power `-1/2`. -/
theorem a_pow : after hostOps0 V (Proc.devRef .tc main_v14) = Cert.ReferenceIdeal.Read.val_main_v14 (F := Ideal) (V (Proc.devRef .tc main_arg1)) := by
  after_results
  rfl

/-- First stretch: the zero a node of degree zero gets. -/
theorem a_zero : after hostOps0 V (Proc.devRef .tc main_cst_3) = Cert.ReferenceIdeal.Read.val_main_cst_3 (F := Ideal) := by
  after_results
  rfl

/-- The second stretch leaves the source indices alone. -/
theorem b_src : after hostOps0_1 V (Proc.devRef .tc main_v3) = V (Proc.devRef .tc main_v3) := by
  after_results

/-- The second stretch leaves the destination indices alone. -/
theorem b_dst : after hostOps0_1 V (Proc.devRef .tc main_v6) = V (Proc.devRef .tc main_v6) := by
  after_results

/-- Second stretch: the inverse square root of the degree where it is positive, zero elsewhere. -/
theorem b_inv : after hostOps0_1 V (Proc.devRef .tc main_v15)
    = select (V (Proc.devRef .tc main_v12) : (⟨S100000, .i1⟩ : BufTy).Contents (Elt Ideal))
        (V (Proc.devRef .tc main_v14) : (⟨S100000, .f32⟩ : BufTy).Contents (Elt Ideal))
        (broadcastInDim S100000 ![] bcast_S_S100000 (V (Proc.devRef .tc main_cst_3) : (⟨S_, .f32⟩ : BufTy).Contents (Elt Ideal))) := by
  after_results
  rfl

/-- An index vector with its negative entries moved up by the node count, laid out as a column. -/
abbrev wrapCol (e : (⟨S1700000, .i32⟩ : BufTy).Contents (Elt Ideal)) : (⟨S1700000x1, .i32⟩ : BufTy).Contents (Elt Ideal) :=
  broadcastInDim S1700000x1 ![0] bcast_S1700000_S1700000x1_0
    (select (cmpi .slt e (broadcastInDim S1700000 ![] bcast_S_S1700000 (constantI S_ 32 0#32)))
      (addi e (broadcastInDim S1700000 ![] bcast_S_S1700000 (constantI S_ 32 100000#32))) e)

/-- The third stretch leaves the source indices alone. -/
theorem c_src : after hostOps0_2 V (Proc.devRef .tc main_v3) = V (Proc.devRef .tc main_v3) := by
  after_results

/-- The third stretch leaves the destination indices alone. -/
theorem c_dst : after hostOps0_2 V (Proc.devRef .tc main_v6) = V (Proc.devRef .tc main_v6) := by
  after_results

/-- Third stretch: the product of the inverse square roots gathered at the wrapped source and destination indices. -/
theorem c_norm : after hostOps0_2 V (Proc.devRef .tc main_v30)
    = mulf (F := Ideal) (s := S1700000) (φ := .f32) (Host.gather gather_S100000_S1700000x1_S1700000_n_0_n_n_0_1_1
              (V (Proc.devRef .tc main_v15) : (⟨S100000, .f32⟩ : BufTy).Contents (Elt Ideal)) (wrapCol (V (Proc.devRef .tc main_v3))))
           (Host.gather gather_S100000_S1700000x1_S1700000_n_0_n_n_0_1_1
              (V (Proc.devRef .tc main_v15) : (⟨S100000, .f32⟩ : BufTy).Contents (Elt Ideal)) (wrapCol (V (Proc.devRef .tc main_v6)))) := by
  after_results_simp

end Stages

/-- The source indices: the edge list's first row, then the self loops. -/
theorem pre0_src : pre0 W (Proc.devRef .tc main_v3) = Cert.ReferenceIdeal.Read.val_main_v3 (F := Ideal) (W (Proc.devRef .tc main_arg1)) := by
  show StableHlo.after hostOps0_2 (StableHlo.after hostOps0_1 (StableHlo.after hostOps0 W)) (Proc.devRef .tc main_v3) = _
  rw [c_src, b_src, a_src]

/-- The destination indices: the edge list's second row, then the self loops. -/
theorem pre0_dst : pre0 W (Proc.devRef .tc main_v6) = Cert.ReferenceIdeal.Read.val_main_v6 (F := Ideal) (W (Proc.devRef .tc main_arg1)) := by
  show StableHlo.after hostOps0_2 (StableHlo.after hostOps0_1 (StableHlo.after hostOps0 W)) (Proc.devRef .tc main_v6) = _
  rw [c_dst, b_dst, a_dst]

/-- The symmetric degree weight of every edge and self loop. -/
theorem pre0_norm : pre0 W (Proc.devRef .tc main_v30) = Cert.ReferenceIdeal.Read.val_main_v30 (F := Ideal) (W (Proc.devRef .tc main_arg1)) := by
  show StableHlo.after hostOps0_2 (StableHlo.after hostOps0_1 (StableHlo.after hostOps0 W)) (Proc.devRef .tc main_v30) = _
  rw [c_norm, b_inv, b_src, b_dst, a_src, a_dst, a_pos, a_pow, a_zero]
  rfl

end Cert.KernelIdeal.HostEdge

end
-- ==== Proof.RefEdge.lean ====
/-
  The reference's edge aggregation as a function of the channel-mixed matrix it gathers from.

  Given the edge list, one round of message passing sends a node matrix `hw` to the matrix whose row `d` is the sum,
  over the edges and self loops ending at `d`, of row `src` of `hw` scaled by the edge's symmetric degree weight:
  a row gather at the (wrapped) source indices, a product with the weight column broadcast along the channels, and a
  scatter-add into zeros at the destination indices. The source indices, the weights and the destinations depend on
  the edge list alone, and the reference recomputes them in every round with the same operations, so the three
  rounds' aggregations are one function of the edge list applied to three different matrices. That the rounds'
  recomputed operands are the same terms is a fact about the program's text, true for every float family; it is
  stated there and then read at exact arithmetic.
-/
import proofs.«402512_j53197464928915_1_alg».proof.Proof.RefRead
import proofs.«402512_j53197464928915_1_alg».proof.Proof.Model

noncomputable section

namespace Cert.ReferenceIdeal.Edge

open Cert.ReferenceIdeal Cert.ReferenceIdeal.Read Idealize.ShloMosaic

section AnyFamily

variable {F : FTy → Type} [FloatOps F]

/-- One round's aggregation, at any float family: gather the rows of `hw` at the wrapped source indices, scale each by
    its edge weight, add them up at the destination indices. -/
def aggRF (ei : (⟨S2x1600000, .i32⟩ : BufTy).Contents (Elt F)) (hw : (⟨S100000x128, .f32⟩ : BufTy).Contents (Elt F)) :
    (⟨S100000x128, .f32⟩ : BufTy).Contents (Elt F) :=
  Host.scatterAdd (F := F) scatter_S100000x128_S1700000x1_S1700000x128_1_0_0_1 (val_main_v49 (F := F)) (val_main_v50 (F := F) ei)
    (mulf (F := F) (Host.gather gather_S100000x128_S1700000x1_S1700000x128_1_0_n_n_0_1_1128 hw (val_main_v44 (F := F) ei))
      (val_main_v47 (F := F) ei))

theorem ref_agg0F (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x7 : (⟨S3x128x128, .f32⟩ : BufTy).Contents (Elt F)) :
    val_main_v51 (F := F) x0 x1 x3 x4 x7 = aggRF x1 (val_main_v38 (F := F) x0 x3 x4 x7) := rfl

theorem ref_agg1F (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x7 : (⟨S3x128x128, .f32⟩ : BufTy).Contents (Elt F)) (x8 : (⟨S3x128, .f32⟩ : BufTy).Contents (Elt F)) (x9 : (⟨S3x128, .f32⟩ : BufTy).Contents (Elt F)) (x10 : (⟨S3x128, .f32⟩ : BufTy).Contents (Elt F)) (x11 : (⟨S3x128, .f32⟩ : BufTy).Contents (Elt F)) (x12 : (⟨S3x128, .f32⟩ : BufTy).Contents (Elt F)) :
    val_main_v96 (F := F) x0 x1 x3 x4 x7 x8 x9 x10 x11 x12 = aggRF x1 (val_main_v83 (F := F) x0 x1 x3 x4 x7 x8 x9 x10 x11 x12) := rfl

theorem ref_agg2F (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x7 : (⟨S3x128x128, .f32⟩ : BufTy).Contents (Elt F)) (x8 : (⟨S3x128, .f32⟩ : BufTy).Contents (Elt F)) (x9 : (⟨S3x128, .f32⟩ : BufTy).Contents (Elt F)) (x10 : (⟨S3x128, .f32⟩ : BufTy).Contents (Elt F)) (x11 : (⟨S3x128, .f32⟩ : BufTy).Contents (Elt F)) (x12 : (⟨S3x128, .f32⟩ : BufTy).Contents (Elt F)) :
    val_main_v141 (F := F) x0 x1 x3 x4 x7 x8 x9 x10 x11 x12 = aggRF x1 (val_main_v128 (F := F) x0 x1 x3 x4 x7 x8 x9 x10 x11 x12) := rfl

end AnyFamily

/-- One round's aggregation at exact arithmetic. -/
def aggR (ei : (⟨S2x1600000, .i32⟩ : BufTy).Contents (Elt Ideal)) (hw : (⟨S100000x128, .f32⟩ : BufTy).Contents (Elt Ideal)) :
    (⟨S100000x128, .f32⟩ : BufTy).Contents (Elt Ideal) :=
  aggRF (F := Ideal) ei hw

/-- Round 0's aggregate is `aggR` of round 0's channel-mixed matrix. -/
theorem ref_agg0 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x7 : (⟨S3x128x128, .f32⟩ : BufTy).Contents (Elt Ideal)) :
    val_main_v51 (F := Ideal) x0 x1 x3 x4 x7 = aggR x1 (val_main_v38 (F := Ideal) x0 x3 x4 x7) :=
  ref_agg0F (F := Ideal) x0 x1 x3 x4 x7

/-- Round 1 recomputes the same indices and weights: its aggregate is the same `aggR` of its own matrix. -/
theorem ref_agg1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S3x128, .f32⟩ : BufTy).Contents (Elt Ideal)) :
    val_main_v96 (F := Ideal) x0 x1 x3 x4 x7 x8 x9 x10 x11 x12 = aggR x1 (val_main_v83 (F := Ideal) x0 x1 x3 x4 x7 x8 x9 x10 x11 x12) :=
  ref_agg1F (F := Ideal) x0 x1 x3 x4 x7 x8 x9 x10 x11 x12

/-- Round 2 likewise. -/
theorem ref_agg2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S3x128, .f32⟩ : BufTy).Contents (Elt Ideal)) :
    val_main_v141 (F := Ideal) x0 x1 x3 x4 x7 x8 x9 x10 x11 x12 = aggR x1 (val_main_v128 (F := Ideal) x0 x1 x3 x4 x7 x8 x9 x10 x11 x12) :=
  ref_agg2F (F := Ideal) x0 x1 x3 x4 x7 x8 x9 x10 x11 x12

end Cert.ReferenceIdeal.Edge

end
-- ==== Proof.EdgeRange.lean ====
/-
  The one domain fact the equivalence needs: every source endpoint of the edge list is a valid row index.

  The edge list's first row holds, for each of the 1600000 edges, the node whose features the edge carries. Both
  programs read that node's row out of a 100000-row matrix after adding 100000 to a negative entry, so the entries
  that index a row are exactly the signed words `s` with `-100000 ≤ s < 100000`. Outside that range the two
  programs part (one clamps the index, the other fills the row with a marker), which is why the claim carries this
  hypothesis. The bound is kept in the form the printed precondition tests it: two signed comparisons per entry,
  against the words of `-100000` and of `100000`.
-/
import Idealize.ShloMosaic.PureOps.Ideal
import Idealize.ShloMosaic.Lib.ValueIdx

namespace Cert.Gcn

open Idealize.ShloMosaic Idealize.ShloMosaic.ValueIdx

/-- Every entry of the edge list's first row is a signed word in `[-100000, 100000)`. -/
def SrcInRange (ei : (⟨2, ![2, 1600000]⟩ : Shape).Idx → BitVec 32) : Prop :=
  ∀ e : Fin 1600000, IntOp.cmpi .sge (ei (ix2 (0 : Fin 2) e)) 4294867296#32 = 1#1
    ∧ IntOp.cmpi .slt (ei (ix2 (0 : Fin 2) e)) 100000#32 = 1#1

end Cert.Gcn
-- ==== Proof.KHostAgg.lean ====
/-
  The kernel program's edge aggregation is the reference's when every source index is a valid row.

  Each round the program gathers the rows of the channel-mixed matrix at the source indices through a "take" that,
  after wrapping a negative index by +100000, tests `0 ≤ index ≤ 99999` and replaces the row by a marker where the
  test fails; the reference gathers at the same wrapped indices with no test. For an entry of the edge list in
  `[-100000, 100000)` the wrapped index is in `[0, 99999]`, and a self loop's index is its position below 100000, so
  the test passes on every row and the take IS the gather. The scaling by the edge weights and the scatter-add at
  the destinations are the same operations on both sides.
-/
import proofs.«402512_j53197464928915_1_alg».proof.Proof.Gen.KernelIdeal.Launch
import proofs.«402512_j53197464928915_1_alg».proof.Proof.RefEdge
import proofs.«402512_j53197464928915_1_alg».proof.Proof.EdgeRange
import Idealize.ShloMosaic.Lib.StableHlo.Run
import Idealize.ShloMosaic.Lib.StableHlo.Predicate
import Idealize.ShloMosaic.Lib.Pipeline.Value

noncomputable section

namespace Cert.KernelIdeal.HostAgg

open Cert.KernelIdeal Cert.KernelIdeal.Gen Idealize.ShloMosaic Idealize.ShloMosaic.TcCoe Idealize.ShloMosaic.ValueIdx Idealize.SL.Sem

variable (W : Valuation τ sig (Elt Ideal))

/-! ## Signed words -/

theorem toInt_lo : (4294867296#32 : BitVec 32).toInt = -100000 := by decide
theorem toInt_hi : (100000#32 : BitVec 32).toInt = 100000 := by decide
theorem toInt_top : (99999#32 : BitVec 32).toInt = 99999 := by decide
theorem toInt_zero : (0#32 : BitVec 32).toInt = 0 := by decide

theorem sge_iff (a b : BitVec 32) : IntOp.cmpi .sge a b = 1#1 ↔ b.toInt ≤ a.toInt := by
  unfold IntOp.cmpi
  simp only [StableHlo.Predicate.ofBool_eq_one_iff, BitVec.sle, decide_eq_true_eq]
theorem sle_iff (a b : BitVec 32) : IntOp.cmpi .sle a b = 1#1 ↔ a.toInt ≤ b.toInt := by
  unfold IntOp.cmpi
  simp only [StableHlo.Predicate.ofBool_eq_one_iff, BitVec.sle, decide_eq_true_eq]
theorem slt_iff (a b : BitVec 32) : IntOp.cmpi .slt a b = 1#1 ↔ a.toInt < b.toInt := by
  unfold IntOp.cmpi
  simp only [StableHlo.Predicate.ofBool_eq_one_iff, BitVec.slt, decide_eq_true_eq]

/-- Adding 100000 to a negative word no smaller than -100000 does not wrap. -/
theorem toInt_add_wrap (s : BitVec 32) (h1 : -100000 ≤ s.toInt) (h2 : s.toInt < 0) :
    (s + 100000#32).toInt = s.toInt + 100000 := by
  rw [BitVec.toInt_add, toInt_hi, Int.bmod_def]
  omega

/-- A signed word in [-100000, 100000), moved up by 100000 when negative, lies in [0, 99999]. -/
theorem wrap_in_range (s : BitVec 32)
    (h1 : IntOp.cmpi .sge s 4294867296#32 = 1#1) (h2 : IntOp.cmpi .slt s 100000#32 = 1#1) :
    IntOp.cmpi .sge (Scalar.select (IntOp.cmpi .slt s 0#32) (IntOp.addi s 100000#32) s) 0#32 = 1#1 ∧
    IntOp.cmpi .sle (Scalar.select (IntOp.cmpi .slt s 0#32) (IntOp.addi s 100000#32) s) 99999#32 = 1#1 := by
  rw [sge_iff, toInt_lo] at h1
  rw [slt_iff, toInt_hi] at h2
  by_cases hneg : s.toInt < 0
  · have hc : IntOp.cmpi .slt s 0#32 = 1#1 := (slt_iff _ _).2 (by rw [toInt_zero]; exact hneg)
    have hs : Scalar.select (IntOp.cmpi .slt s 0#32) (IntOp.addi s 100000#32) s = s + 100000#32 := by
      rw [hc]; rfl
    rw [hs, sge_iff, sle_iff, toInt_add_wrap s h1 hneg, toInt_zero, toInt_top]
    omega
  · have hc : ¬ IntOp.cmpi .slt s 0#32 = 1#1 := fun h => hneg (by have := (slt_iff _ _).1 h; rwa [toInt_zero] at this)
    have hs : Scalar.select (IntOp.cmpi .slt s 0#32) (IntOp.addi s 100000#32) s = s := if_neg hc
    rw [hs, sge_iff, sle_iff, toInt_zero, toInt_top]
    omega

/-- A position below 100000, as a word, is a signed word in [-100000, 100000). -/
theorem pos_in_range (k : Nat) (hk : k < 100000) :
    IntOp.cmpi .sge (BitVec.ofNat 32 k) 4294867296#32 = 1#1 ∧ IntOp.cmpi .slt (BitVec.ofNat 32 k) 100000#32 = 1#1 := by
  rw [sge_iff, slt_iff, toInt_lo, toInt_hi, StableHlo.Predicate.toInt_ofNat_small k (by omega)]
  omega

/-! ## An and-reduction of ones -/

/-- A left fold by `and` from 1 over ones is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- An and-reduction whose operand is 1 everywhere and whose initial value is 1 is 1 everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_one x hx _

/-- A select whose condition is a broadcast of an all-ones mask is its first branch. -/
theorem select_bcast_all_one {α : Type} {s t : Shape} (dims : Fin s.rank → Fin t.rank) (h : s.BroadcastsInDim t dims)
    (mask : IVec s 1) (hmask : ∀ j, mask j = 1#1) (a b : t.Idx → α) :
    select (broadcastInDim t dims h mask) a b = a := by
  funext i
  show Scalar.select (mask _) (a i) (b i) = a i
  rw [hmask]
  rfl

/-! ## The source vector -/

/-- The edge list's first row followed by the positions 0 … 99999 holds only signed words in [-100000, 100000) when
    the first row does. -/
theorem concat_in_range (ei : (⟨2, ![2, 1600000]⟩ : Shape).Idx → BitVec 32) (hr : Cert.Gcn.SrcInRange ei)
    (row0 : (⟨1, ![1600000]⟩ : Shape).Idx → BitVec 32) (hrow0 : ∀ e : Fin 1600000, row0 (ix1 e) = ei (ix2 (0 : Fin 2) e))
    (hc : Shape.Concatenates [(⟨1, ![1600000]⟩ : Shape), (⟨1, ![100000]⟩ : Shape)] (⟨1, ![1700000]⟩ : Shape) 0) (e : Fin 1700000) :
    IntOp.cmpi .sge (concatenate (⟨1, ![1700000]⟩ : Shape) 0
        [⟨(⟨1, ![1600000]⟩ : Shape), row0⟩, ⟨(⟨1, ![100000]⟩ : Shape), iotaInDim (⟨1, ![100000]⟩ : Shape) 32 0⟩] hc (ix1 e)) 4294867296#32 = 1#1
      ∧ IntOp.cmpi .slt (concatenate (⟨1, ![1700000]⟩ : Shape) 0
        [⟨(⟨1, ![1600000]⟩ : Shape), row0⟩, ⟨(⟨1, ![100000]⟩ : Shape), iotaInDim (⟨1, ![100000]⟩ : Shape) 32 0⟩] hc (ix1 e)) 100000#32 = 1#1 := by
  by_cases he : e.val < 1600000
  · have hread : concatenate (⟨1, ![1700000]⟩ : Shape) 0
        [⟨(⟨1, ![1600000]⟩ : Shape), row0⟩, ⟨(⟨1, ![100000]⟩ : Shape), iotaInDim (⟨1, ![100000]⟩ : Shape) 32 0⟩] hc (ix1 e)
        = row0 (ix1 ⟨e.val, he⟩) :=
      concatenate_pair_apply_left (0 : Fin (⟨1, ![1700000]⟩ : Shape).rank) row0 (iotaInDim (⟨1, ![100000]⟩ : Shape) 32 0) hc (ix1 e) rfl
        (ix1 ⟨e.val, he⟩) (fun b => match b with | ⟨0, _⟩ => rfl)
    rw [hread, hrow0]
    exact hr ⟨e.val, he⟩
  · have hlt : e.val - 1600000 < 100000 := by have := e.isLt; omega
    have hread : concatenate (⟨1, ![1700000]⟩ : Shape) 0
        [⟨(⟨1, ![1600000]⟩ : Shape), row0⟩, ⟨(⟨1, ![100000]⟩ : Shape), iotaInDim (⟨1, ![100000]⟩ : Shape) 32 0⟩] hc (ix1 e)
        = iotaInDim (⟨1, ![100000]⟩ : Shape) 32 0 (ix1 ⟨e.val - 1600000, hlt⟩) :=
      concatenate_pair_apply_right (0 : Fin (⟨1, ![1700000]⟩ : Shape).rank) row0 (iotaInDim (⟨1, ![100000]⟩ : Shape) 32 0) hc (ix1 e) rfl rfl
        (ix1 ⟨e.val - 1600000, hlt⟩)
        (fun b hb => absurd (Fin.ext (by have hb1 : b.val < 1 := b.isLt; show b.val = 0; omega)) hb)
        (by show e.val - 1600000 + 1600000 = e.val; omega)
    rw [hread]
    exact pos_in_range _ hlt

/-- Every entry of the reference's source vector is a signed word in [-100000, 100000). -/
theorem src_in_range (ei : (⟨S2x1600000, .i32⟩ : BufTy).Contents (Elt Ideal)) (hr : Cert.Gcn.SrcInRange ei) (e : Fin 1700000) :
    IntOp.cmpi .sge (Cert.ReferenceIdeal.Read.val_main_v3 (F := Ideal) ei (ix1 e)) 4294867296#32 = 1#1
      ∧ IntOp.cmpi .slt (Cert.ReferenceIdeal.Read.val_main_v3 (F := Ideal) ei (ix1 e)) 100000#32 = 1#1 := by
  refine concat_in_range ei hr (Cert.ReferenceIdeal.Read.val_main_v2 (F := Ideal) ei) (fun e => ?_) _ e
  rw [Cert.ReferenceIdeal.Read.val_main_v2_apply, Cert.ReferenceIdeal.Read.val_main_v1_apply]
  refine congrArg ei (funext fun a => ?_)
  match a with
  | ⟨0, _⟩ => rfl
  | ⟨1, _⟩ => exact Fin.ext (Nat.mod_eq_of_lt e.isLt)

/-! ## The take and the aggregation, at any float family -/

section AnyFamily

variable {F : FTy → Type} [FloatOps F]

/-- The wrapped source indices: a negative entry is moved up by 100000. -/
def wrapIdx (src : (⟨S1700000, .i32⟩ : BufTy).Contents (Elt F)) : (⟨S1700000, .i32⟩ : BufTy).Contents (Elt F) :=
  select (cmpi .slt src (broadcastInDim S1700000 ![] bcast_S_S1700000 (constantI S_ 32 0#32)))
    (addi src (broadcastInDim S1700000 ![] bcast_S_S1700000 (constantI S_ 32 100000#32))) src

/-- The wrapped source indices as a column. -/
def idxCol (src : (⟨S1700000, .i32⟩ : BufTy).Contents (Elt F)) : (⟨S1700000x1, .i32⟩ : BufTy).Contents (Elt F) :=
  broadcastInDim S1700000x1 ![0] bcast_S1700000_S1700000x1_0 (wrapIdx (F := F) src)

/-- The row test of the take: 1 where the wrapped index lies in [0, 99999]. -/
def rowOk (src : (⟨S1700000, .i32⟩ : BufTy).Contents (Elt F)) : (⟨S1700000, .i1⟩ : BufTy).Contents (Elt F) :=
  Host.reduce IntOp.andi
    (andi (cmpi .sge (idxCol (F := F) src) (broadcastInDim S1700000x1 ![] bcast_S_S1700000x1 (constantI S_ 32 0#32)))
      (cmpi .sle (idxCol (F := F) src)
        (broadcastInDim S1700000x1 ![0, 1] bcast_S1x1_S1700000x1_0_1 (broadcastInDim S1x1 ![1] bcast_S1_S1x1_1 (constantI S1 32 99999#32)))))
    (constantI S_ 1 1#1) reducesTo_S1700000x1_S1700000_d1 h_S_

/-- The take: the gathered rows where the row test passes, a marker elsewhere. -/
def takeK (hw : (⟨S100000x128, .f32⟩ : BufTy).Contents (Elt F)) (src : (⟨S1700000, .i32⟩ : BufTy).Contents (Elt F)) :
    (⟨S1700000x128, .f32⟩ : BufTy).Contents (Elt F) :=
  select (broadcastInDim S1700000x128 ![0] bcast_S1700000_S1700000x128_0 (rowOk (F := F) src))
    (Host.gather gather_S100000x128_S1700000x1_S1700000x128_1_0_n_n_0_1_1128 hw (idxCol (F := F) src))
    (broadcastInDim S1700000x128 ![] bcast_S_S1700000x128 (constant (F := F) S_ .f32 0x7FC00000#32))

/-- The rest of a round's aggregation: scale the taken rows by the edge weights, add them up at the destinations. -/
def aggK (taken : (⟨S1700000x128, .f32⟩ : BufTy).Contents (Elt F)) (dst : (⟨S1700000, .i32⟩ : BufTy).Contents (Elt F))
    (norm : (⟨S1700000, .f32⟩ : BufTy).Contents (Elt F)) : (⟨S100000x128, .f32⟩ : BufTy).Contents (Elt F) :=
  Host.scatterAdd (F := F) scatter_S100000x128_S1700000x1_S1700000x128_1_0_0_1
    (broadcastInDim S100000x128 ![] bcast_S_S100000x128 (constant (F := F) S_ .f32 0x00000000#32))
    (broadcastInDim S1700000x1 ![0] bcast_S1700000_S1700000x1_0 dst)
    (mulf (F := F) taken (broadcastInDim S1700000x128 ![0, 1] bcast_S1700000x1_S1700000x128_0_1
      (broadcastInDim S1700000x1 ![0] bcast_S1700000_S1700000x1_0 norm)))

/-- The wrapped index at a position is the select of the entry there. -/
theorem wrapIdx_apply (src : (⟨S1700000, .i32⟩ : BufTy).Contents (Elt F)) (i : S1700000.Idx) :
    wrapIdx (F := F) src i = Scalar.select (IntOp.cmpi .slt (src i) 0#32) (IntOp.addi (src i) 100000#32) (src i) := rfl

/-- Where every entry of the source vector is in [-100000, 100000), every row passes the test. -/
theorem rowOk_all_one (src : (⟨S1700000, .i32⟩ : BufTy).Contents (Elt F))
    (hsrc : ∀ e : Fin 1700000, IntOp.cmpi .sge (src (ix1 e)) 4294867296#32 = 1#1 ∧ IntOp.cmpi .slt (src (ix1 e)) 100000#32 = 1#1)
    (j : S1700000.Idx) : rowOk (F := F) src j = 1#1 := by
  unfold rowOk
  refine reduce_andi_of_all_one _ _ reducesTo_S1700000x1_S1700000_d1 h_S_ (fun i => ?_) rfl j
  have hrd : idxCol (F := F) src i = wrapIdx (F := F) src (ix1 (i 0)) :=
    broadcastInDim_apply _ bcast_S1700000_S1700000x1_0 (wrapIdx (F := F) src) i (ix1 (i 0)) (fun a => match a with
      | ⟨0, _⟩ => by show (i 0).val = if (1700000 : Nat) = 1 then 0 else (i 0).val; rw [if_neg (by decide)])
  have hw := wrap_in_range (src (ix1 (i 0))) (hsrc (i 0)).1 (hsrc (i 0)).2
  show IntOp.andi (IntOp.cmpi .sge (idxCol (F := F) src i) 0#32) (IntOp.cmpi .sle (idxCol (F := F) src i) 99999#32) = 1#1
  rw [hrd, wrapIdx_apply, hw.1, hw.2]
  rfl

/-- With every row passing, the take is the gather at the wrapped indices. -/
theorem takeK_eq_gather (hw : (⟨S100000x128, .f32⟩ : BufTy).Contents (Elt F)) (src : (⟨S1700000, .i32⟩ : BufTy).Contents (Elt F))
    (hsrc : ∀ e : Fin 1700000, IntOp.cmpi .sge (src (ix1 e)) 4294867296#32 = 1#1 ∧ IntOp.cmpi .slt (src (ix1 e)) 100000#32 = 1#1) :
    takeK (F := F) hw src = Host.gather gather_S100000x128_S1700000x1_S1700000x128_1_0_n_n_0_1_1128 hw (idxCol (F := F) src) :=
  select_bcast_all_one _ bcast_S1700000_S1700000x128_0 (rowOk (F := F) src) (rowOk_all_one src hsrc) _ _

/-- The gather at the wrapped indices, scaled and added up, is the reference's aggregation: the same operations. -/
theorem aggK_gather_eq (ei : (⟨S2x1600000, .i32⟩ : BufTy).Contents (Elt F)) (hw : (⟨S100000x128, .f32⟩ : BufTy).Contents (Elt F)) :
    aggK (F := F) (Host.gather gather_S100000x128_S1700000x1_S1700000x128_1_0_n_n_0_1_1128 hw
        (idxCol (F := F) (Cert.ReferenceIdeal.Read.val_main_v3 (F := F) ei)))
      (Cert.ReferenceIdeal.Read.val_main_v6 (F := F) ei) (Cert.ReferenceIdeal.Read.val_main_v30 (F := F) ei)
      = Cert.ReferenceIdeal.Edge.aggRF (F := F) ei hw := rfl

end AnyFamily

/-! ## The two host stretches, opened -/

/-- Contents carried to a typed reference's buffer and back are unchanged. -/
theorem ofBuf_toBuf {T : BufTy} (x : StableHlo.TRef sig T) (v : T.Contents (Elt Ideal)) : x.ofBuf (x.toBuf v) = v := by
  obtain ⟨r, rfl, _, _⟩ := x
  rfl

/-- At a literal reference the carrying of contents to and from its buffer is the identity: the source vector, the three
    channel-mixed matrices, the three take results. -/
theorem ofBuf_v3 (h1 h2 h3) (v : (main_v3 : Ref sig .tc).ty.Contents (Elt Ideal)) :
    (StableHlo.TRef.of main_v3 h1 h2 h3 : StableHlo.TRef sig ⟨S1700000, .i32⟩).ofBuf v = v := rfl
theorem ofBuf_v37 (h1 h2 h3) (v : (main_v37 : Ref sig .tc).ty.Contents (Elt Ideal)) :
    (StableHlo.TRef.of main_v37 h1 h2 h3 : StableHlo.TRef sig ⟨S100000x128, .f32⟩).ofBuf v = v := rfl
theorem ofBuf_v64 (h1 h2 h3) (v : (main_v64 : Ref sig .tc).ty.Contents (Elt Ideal)) :
    (StableHlo.TRef.of main_v64 h1 h2 h3 : StableHlo.TRef sig ⟨S100000x128, .f32⟩).ofBuf v = v := rfl
theorem ofBuf_v91 (h1 h2 h3) (v : (main_v91 : Ref sig .tc).ty.Contents (Elt Ideal)) :
    (StableHlo.TRef.of main_v91 h1 h2 h3 : StableHlo.TRef sig ⟨S100000x128, .f32⟩).ofBuf v = v := rfl
theorem toBuf_v38 (h1 h2 h3) (v : (⟨S1700000x128, .f32⟩ : BufTy).Contents (Elt Ideal)) :
    (StableHlo.TRef.of main_v38 h1 h2 h3 : StableHlo.TRef sig ⟨S1700000x128, .f32⟩).toBuf v = v := rfl
theorem toBuf_v65 (h1 h2 h3) (v : (⟨S1700000x128, .f32⟩ : BufTy).Contents (Elt Ideal)) :
    (StableHlo.TRef.of main_v65 h1 h2 h3 : StableHlo.TRef sig ⟨S1700000x128, .f32⟩).toBuf v = v := rfl
theorem toBuf_v92 (h1 h2 h3) (v : (⟨S1700000x128, .f32⟩ : BufTy).Contents (Elt Ideal)) :
    (StableHlo.TRef.of main_v92 h1 h2 h3 : StableHlo.TRef sig ⟨S1700000x128, .f32⟩).toBuf v = v := rfl

set_option maxHeartbeats 1000000 in
/-- Round 0's first stretch leaves the take of the channel-mixed matrix at the source vector. -/
theorem take_open0 :
    StableHlo.after hostOps2 W (Proc.devRef .tc main_v38)
      = takeK (F := Ideal) (W (Proc.devRef .tc main_v37)) (W (Proc.devRef .tc main_v3)) := by
  open StableHlo in after_results_simp
  simp only [ofBuf_toBuf, ofBuf_v3, ofBuf_v37, toBuf_v38]
  rfl

set_option maxHeartbeats 1000000 in
/-- Round 1's first stretch likewise. -/
theorem take_open1 :
    StableHlo.after hostOps4 W (Proc.devRef .tc main_v65)
      = takeK (F := Ideal) (W (Proc.devRef .tc main_v64)) (W (Proc.devRef .tc main_v3)) := by
  open StableHlo in after_results_simp
  simp only [ofBuf_toBuf, ofBuf_v3, ofBuf_v64, toBuf_v65]
  rfl

set_option maxHeartbeats 1000000 in
/-- Round 2's first stretch likewise. -/
theorem take_open2 :
    StableHlo.after hostOps6 W (Proc.devRef .tc main_v92)
      = takeK (F := Ideal) (W (Proc.devRef .tc main_v91)) (W (Proc.devRef .tc main_v3)) := by
  open StableHlo in after_results_simp
  simp only [ofBuf_toBuf, ofBuf_v3, ofBuf_v91, toBuf_v92]
  rfl

set_option maxHeartbeats 1000000 in
/-- Round 0's second stretch leaves the scaled, added-up rows in the aggregate buffer. -/
theorem agg_open0 (V : Valuation τ sig (Elt Ideal)) :
    StableHlo.after hostOps2_1 V (Proc.devRef .tc main_v44)
      = aggK (F := Ideal) (V (Proc.devRef .tc main_v38)) (V (Proc.devRef .tc main_v6)) (V (Proc.devRef .tc main_v30)) := by
  open StableHlo in after_results_simp
  rfl

set_option maxHeartbeats 1000000 in
/-- Round 1's second stretch likewise. -/
theorem agg_open1 (V : Valuation τ sig (Elt Ideal)) :
    StableHlo.after hostOps4_1 V (Proc.devRef .tc main_v71)
      = aggK (F := Ideal) (V (Proc.devRef .tc main_v65)) (V (Proc.devRef .tc main_v6)) (V (Proc.devRef .tc main_v30)) := by
  open StableHlo in after_results_simp
  rfl

set_option maxHeartbeats 1000000 in
/-- Round 2's second stretch likewise. -/
theorem agg_open2 (V : Valuation τ sig (Elt Ideal)) :
    StableHlo.after hostOps6_1 V (Proc.devRef .tc main_v98)
      = aggK (F := Ideal) (V (Proc.devRef .tc main_v92)) (V (Proc.devRef .tc main_v6)) (V (Proc.devRef .tc main_v30)) := by
  open StableHlo in after_results_simp
  rfl

set_option maxHeartbeats 1000000 in
/-- Round 0's first stretch writes neither the destination vector nor the edge weights. -/
theorem keep0 : StableHlo.after hostOps2 W (Proc.devRef .tc main_v6) = W (Proc.devRef .tc main_v6)
    ∧ StableHlo.after hostOps2 W (Proc.devRef .tc main_v30) = W (Proc.devRef .tc main_v30) := by
  constructor <;> (open StableHlo in after_results_simp)
set_option maxHeartbeats 1000000 in
/-- Round 1's likewise. -/
theorem keep1 : StableHlo.after hostOps4 W (Proc.devRef .tc main_v6) = W (Proc.devRef .tc main_v6)
    ∧ StableHlo.after hostOps4 W (Proc.devRef .tc main_v30) = W (Proc.devRef .tc main_v30) := by
  constructor <;> (open StableHlo in after_results_simp)
set_option maxHeartbeats 1000000 in
/-- Round 2's likewise. -/
theorem keep2 : StableHlo.after hostOps6 W (Proc.devRef .tc main_v6) = W (Proc.devRef .tc main_v6)
    ∧ StableHlo.after hostOps6 W (Proc.devRef .tc main_v30) = W (Proc.devRef .tc main_v30) := by
  constructor <;> (open StableHlo in after_results_simp)

/-! ## The three rounds -/

/-- Round 0: the aggregate buffer after the stretch is `aggR` of the channel-mixed matrix it was entered with. -/
theorem agg_read0 (ei : (⟨S2x1600000, .i32⟩ : BufTy).Contents (Elt Ideal))
    (hsrc : W (Proc.devRef .tc main_v3) = Cert.ReferenceIdeal.Read.val_main_v3 (F := Ideal) ei) (hdst : W (Proc.devRef .tc main_v6) = Cert.ReferenceIdeal.Read.val_main_v6 (F := Ideal) ei)
    (hnorm : W (Proc.devRef .tc main_v30) = Cert.ReferenceIdeal.Read.val_main_v30 (F := Ideal) ei) (hr : Cert.Gcn.SrcInRange ei) :
    StableHlo.after hostOps2_1 (StableHlo.after hostOps2 W) (Proc.devRef .tc main_v44)
      = Cert.ReferenceIdeal.Edge.aggR ei (W (Proc.devRef .tc main_v37)) := by
  rw [agg_open0, take_open0, (keep0 W).1, (keep0 W).2, hsrc, hdst, hnorm, takeK_eq_gather _ _ (src_in_range ei hr)]
  exact aggK_gather_eq ei _

/-- Round 1: the aggregate buffer after the stretch is `aggR` of the channel-mixed matrix it was entered with. -/
theorem agg_read1 (ei : (⟨S2x1600000, .i32⟩ : BufTy).Contents (Elt Ideal))
    (hsrc : W (Proc.devRef .tc main_v3) = Cert.ReferenceIdeal.Read.val_main_v3 (F := Ideal) ei) (hdst : W (Proc.devRef .tc main_v6) = Cert.ReferenceIdeal.Read.val_main_v6 (F := Ideal) ei)
    (hnorm : W (Proc.devRef .tc main_v30) = Cert.ReferenceIdeal.Read.val_main_v30 (F := Ideal) ei) (hr : Cert.Gcn.SrcInRange ei) :
    StableHlo.after hostOps4_1 (StableHlo.after hostOps4 W) (Proc.devRef .tc main_v71)
      = Cert.ReferenceIdeal.Edge.aggR ei (W (Proc.devRef .tc main_v64)) := by
  rw [agg_open1, take_open1, (keep1 W).1, (keep1 W).2, hsrc, hdst, hnorm, takeK_eq_gather _ _ (src_in_range ei hr)]
  exact aggK_gather_eq ei _

/-- Round 2: the aggregate buffer after the stretch is `aggR` of the channel-mixed matrix it was entered with. -/
theorem agg_read2 (ei : (⟨S2x1600000, .i32⟩ : BufTy).Contents (Elt Ideal))
    (hsrc : W (Proc.devRef .tc main_v3) = Cert.ReferenceIdeal.Read.val_main_v3 (F := Ideal) ei) (hdst : W (Proc.devRef .tc main_v6) = Cert.ReferenceIdeal.Read.val_main_v6 (F := Ideal) ei)
    (hnorm : W (Proc.devRef .tc main_v30) = Cert.ReferenceIdeal.Read.val_main_v30 (F := Ideal) ei) (hr : Cert.Gcn.SrcInRange ei) :
    StableHlo.after hostOps6_1 (StableHlo.after hostOps6 W) (Proc.devRef .tc main_v98)
      = Cert.ReferenceIdeal.Edge.aggR ei (W (Proc.devRef .tc main_v91)) := by
  rw [agg_open2, take_open2, (keep2 W).1, (keep2 W).2, hsrc, hdst, hnorm, takeK_eq_gather _ _ (src_in_range ei hr)]
  exact aggK_gather_eq ei _

end Cert.KernelIdeal.HostAgg

end
-- ==== Proof.KHostParams.lean ====
/-
  The per-layer parameters as the kernel regions receive them.

  Between its kernel regions the program slices row `l` out of each `[3, 128]` stack and face `l` out of the
  `[3, 128, 128]` weight stack and reshapes them to the `[1, 128]` rows and `[128, 128]` weight a region reads; the
  projections' bias vectors are reshaped to rows; and the channel-mixing regions get a zero vector reshaped to a row.
  Each buffer is read here as the selector of the specification applied to the argument array, whatever valuation
  the stretch is entered with.
-/
import proofs.«402512_j53197464928915_1_alg».proof.Proof.Gen.KernelIdeal.Launch
import proofs.«402512_j53197464928915_1_alg».proof.Proof.Model
import Idealize.ShloMosaic.Lib.StableHlo.Run
import Idealize.ShloMosaic.Lib.Pipeline.Value
import Idealize.ShloMosaic.Lib.ValueLayout
import Idealize.ShloMosaic.PureOps.Ideal.Laws

noncomputable section

namespace Cert.KernelIdeal.HostParams

open Cert.KernelIdeal Cert.KernelIdeal.Gen Idealize.ShloMosaic Idealize.ShloMosaic.TcCoe Idealize.ShloMosaic.ValueIdx Idealize.SL.Sem

variable (W : Valuation τ sig (Elt Ideal))

/-- The zero vector the channel-mixing regions' bias rows are reshaped from. -/
def zeros128 : (⟨1, ![128]⟩ : Shape).Idx → EReal := fun _ => 0

section Layout
variable {α : Type}

/-- A `[128]` vector reshaped to `[1, 128]` reads, at `(0, q)`, the vector at `q`. -/
theorem reshape_row (v : (⟨1, ![128]⟩ : Shape).Idx → α) (h : (⟨1, ![128]⟩ : Shape).ShapeCasts ⟨2, ![1, 128]⟩) :
    shapeCast ⟨2, ![1, 128]⟩ v h = fun i => v (ix1 (i 1)) := by
  funext i
  refine (shapeCast_addUnit_apply ![128] v h i).trans ?_
  exact congrArg v (funext fun a => match a with | ⟨0, _⟩ => rfl)

/-- A `[1, 128]` row reshaped to `[128]` reads, at `q`, the row at `(0, q)`. -/
theorem reshape_unrow (v : (⟨2, ![1, 128]⟩ : Shape).Idx → α) (h : (⟨2, ![1, 128]⟩ : Shape).ShapeCasts ⟨1, ![128]⟩) :
    shapeCast ⟨1, ![128]⟩ v h = fun i => v (ix2 (0 : Fin 1) (i 0)) := by
  funext i
  refine (shapeCast_dropUnit_apply ![128] v h i).trans ?_
  exact congrArg v (funext fun a => match a with | ⟨0, _⟩ => rfl | ⟨1, _⟩ => rfl)

/-- The one-row slice at row `l` of a `[3, 128]` stack reads, at `(0, q)`, the stack at `(l, q)`. -/
theorem slice_row (l : Nat) (hl : l < 3) (v : (⟨2, ![3, 128]⟩ : Shape).Idx → α)
    (h : (⟨2, ![3, 128]⟩ : Shape).Slices ![l, 0] ⟨2, ![1, 128]⟩) :
    extractStridedSlice ⟨2, ![1, 128]⟩ ![l, 0] v h = fun i => v (ix2 (⟨l, hl⟩ : Fin 3) (i 1)) := by
  funext i
  refine extractStridedSlice_apply ![l, 0] v h i _ (fun a => match a with
    | ⟨0, _⟩ => ?_
    | ⟨1, _⟩ => ?_)
  · have h0 : (i 0).val < 1 := (i 0).isLt
    show l = l + (i 0).val; omega
  · show (i 1).val = 0 + (i 1).val; omega

/-- Row `l` of a `[3, 128]` stack, sliced out, flattened to `[128]` and laid out again as a `[1, 128]` row, reads the
    stack at `(l, q)`. -/
theorem row_of_stack (l : Nat) (hl : l < 3) (v : (⟨2, ![3, 128]⟩ : Shape).Idx → α)
    (hs : (⟨2, ![3, 128]⟩ : Shape).Slices ![l, 0] ⟨2, ![1, 128]⟩)
    (h1 : (⟨2, ![1, 128]⟩ : Shape).ShapeCasts ⟨1, ![128]⟩) (h2 : (⟨1, ![128]⟩ : Shape).ShapeCasts ⟨2, ![1, 128]⟩) :
    shapeCast ⟨2, ![1, 128]⟩ (shapeCast ⟨1, ![128]⟩ (extractStridedSlice ⟨2, ![1, 128]⟩ ![l, 0] v hs) h1) h2
      = fun i => v (ix2 (⟨l, hl⟩ : Fin 3) (i 1)) := by
  rw [reshape_row, reshape_unrow, slice_row l hl]

/-- Face `l` of a `[3, 128, 128]` stack, sliced out and with its unit axis dropped, reads the stack at `(l, p, q)`. -/
theorem face_of_stack (l : Nat) (hl : l < 3) (v : (⟨3, ![3, 128, 128]⟩ : Shape).Idx → α)
    (hs : (⟨3, ![3, 128, 128]⟩ : Shape).Slices ![l, 0, 0] ⟨3, ![1, 128, 128]⟩)
    (h1 : (⟨3, ![1, 128, 128]⟩ : Shape).ShapeCasts ⟨2, ![128, 128]⟩) :
    shapeCast ⟨2, ![128, 128]⟩ (extractStridedSlice ⟨3, ![1, 128, 128]⟩ ![l, 0, 0] v hs) h1
      = fun i => v (ix3 (⟨l, hl⟩ : Fin 3) (i 0) (i 1)) := by
  funext i
  refine (shapeCast_dropUnit_apply ![128, 128] _ h1 i).trans ?_
  refine extractStridedSlice_apply ![l, 0, 0] v hs _ _ (fun a => match a with
    | ⟨0, _⟩ => ?_
    | ⟨1, _⟩ => ?_
    | ⟨2, _⟩ => ?_)
  · show l = l + 0; omega
  · show (i 0).val = 0 + (i 0).val; omega
  · show (i 1).val = 0 + (i 1).val; omega

/-- The zero constant broadcast to `[128]` is the zero vector. -/
theorem bcast_zero (h : (⟨0, ![]⟩ : Shape).BroadcastsInDim ⟨1, ![128]⟩ (![] : Fin 0 → Fin 1)) :
    broadcastInDim ⟨1, ![128]⟩ ![] h (constant (F := Ideal) ⟨0, ![]⟩ .f32 0x00000000#32) = zeros128 := by
  funext i
  refine (broadcastInDim_apply ![] h _ i ix0 (fun a => a.elim0)).trans ?_
  exact Ideal.ofBits_zero_f32

end Layout

/-- The input projection's bias row. -/
theorem s0_b : StableHlo.after hostOps0_2 (StableHlo.after hostOps0_1 (StableHlo.after hostOps0 W)) (Proc.devRef .tc main_v31) = Cert.Gcn.row (W (Proc.devRef .tc main_arg4)) := by
  open Idealize.ShloMosaic.StableHlo in after_results
  exact reshape_row (W (Proc.devRef .tc main_arg4)) shapeCasts_S128_S1x128

/-- Round 0's weight: face 0 of the stack. -/
theorem s1_w : StableHlo.after hostOps1 W (Proc.devRef .tc main_v35) = Cert.Gcn.weight3 0 (W (Proc.devRef .tc main_arg7)) := by
  open Idealize.ShloMosaic.StableHlo in after_results
  exact face_of_stack 0 (by decide) (W (Proc.devRef .tc main_arg7)) slices_S3x128x128_S1x128x128_0_0_0 shapeCasts_S1x128x128_S128x128
/-- The zero vector. -/
theorem s1_z33 : StableHlo.after hostOps1 W (Proc.devRef .tc main_v33) = zeros128 := by
  open Idealize.ShloMosaic.StableHlo in after_results
  exact bcast_zero bcast_S_S128
/-- Round 0's (zero) bias row. -/
theorem s1_z : StableHlo.after hostOps1 W (Proc.devRef .tc main_v36) = Cert.Gcn.zeroRow := by
  open Idealize.ShloMosaic.StableHlo in after_results
  refine (reshape_row _ shapeCasts_S128_S1x128).trans ?_
  rw [bcast_zero bcast_S_S128]; rfl

/-- Round 0's bias row. -/
theorem s2_row0 : StableHlo.after hostOps2_1 (StableHlo.after hostOps2 W) (Proc.devRef .tc main_v55) = Cert.Gcn.row3 0 (W (Proc.devRef .tc main_arg8)) := by
  open Idealize.ShloMosaic.StableHlo in after_results
  exact row_of_stack 0 (by decide) (W (Proc.devRef .tc main_arg8)) slices_S3x128_S1x128_0_0 shapeCasts_S1x128_S128 shapeCasts_S128_S1x128
/-- Round 0's running mean row. -/
theorem s2_row1 : StableHlo.after hostOps2_1 (StableHlo.after hostOps2 W) (Proc.devRef .tc main_v56) = Cert.Gcn.row3 0 (W (Proc.devRef .tc main_arg11)) := by
  open Idealize.ShloMosaic.StableHlo in after_results
  exact row_of_stack 0 (by decide) (W (Proc.devRef .tc main_arg11)) slices_S3x128_S1x128_0_0 shapeCasts_S1x128_S128 shapeCasts_S128_S1x128
/-- Round 0's running variance row. -/
theorem s2_row2 : StableHlo.after hostOps2_1 (StableHlo.after hostOps2 W) (Proc.devRef .tc main_v57) = Cert.Gcn.row3 0 (W (Proc.devRef .tc main_arg12)) := by
  open Idealize.ShloMosaic.StableHlo in after_results
  exact row_of_stack 0 (by decide) (W (Proc.devRef .tc main_arg12)) slices_S3x128_S1x128_0_0 shapeCasts_S1x128_S128 shapeCasts_S128_S1x128
/-- Round 0's scale row. -/
theorem s2_row3 : StableHlo.after hostOps2_1 (StableHlo.after hostOps2 W) (Proc.devRef .tc main_v58) = Cert.Gcn.row3 0 (W (Proc.devRef .tc main_arg9)) := by
  open Idealize.ShloMosaic.StableHlo in after_results
  exact row_of_stack 0 (by decide) (W (Proc.devRef .tc main_arg9)) slices_S3x128_S1x128_0_0 shapeCasts_S1x128_S128 shapeCasts_S128_S1x128
/-- Round 0's shift row. -/
theorem s2_row4 : StableHlo.after hostOps2_1 (StableHlo.after hostOps2 W) (Proc.devRef .tc main_v59) = Cert.Gcn.row3 0 (W (Proc.devRef .tc main_arg10)) := by
  open Idealize.ShloMosaic.StableHlo in after_results
  exact row_of_stack 0 (by decide) (W (Proc.devRef .tc main_arg10)) slices_S3x128_S1x128_0_0 shapeCasts_S1x128_S128 shapeCasts_S128_S1x128

/-- Round 1's weight: face 1 of the stack. -/
theorem s3_w : StableHlo.after hostOps3 W (Proc.devRef .tc main_v62) = Cert.Gcn.weight3 1 (W (Proc.devRef .tc main_arg7)) := by
  open Idealize.ShloMosaic.StableHlo in after_results
  exact face_of_stack 1 (by decide) (W (Proc.devRef .tc main_arg7)) slices_S3x128x128_S1x128x128_1_0_0 shapeCasts_S1x128x128_S128x128
/-- Round 1's (zero) bias row, reshaped from the zero vector. -/
theorem s3_z (hz : W (Proc.devRef .tc main_v33) = zeros128) : StableHlo.after hostOps3 W (Proc.devRef .tc main_v63) = Cert.Gcn.zeroRow := by
  open Idealize.ShloMosaic.StableHlo in after_results
  refine (reshape_row _ shapeCasts_S128_S1x128).trans ?_
  rw [hz]; rfl

/-- Round 1's bias row. -/
theorem s4_row0 : StableHlo.after hostOps4_1 (StableHlo.after hostOps4 W) (Proc.devRef .tc main_v82) = Cert.Gcn.row3 1 (W (Proc.devRef .tc main_arg8)) := by
  open Idealize.ShloMosaic.StableHlo in after_results
  exact row_of_stack 1 (by decide) (W (Proc.devRef .tc main_arg8)) slices_S3x128_S1x128_1_0 shapeCasts_S1x128_S128 shapeCasts_S128_S1x128
/-- Round 1's running mean row. -/
theorem s4_row1 : StableHlo.after hostOps4_1 (StableHlo.after hostOps4 W) (Proc.devRef .tc main_v83) = Cert.Gcn.row3 1 (W (Proc.devRef .tc main_arg11)) := by
  open Idealize.ShloMosaic.StableHlo in after_results
  exact row_of_stack 1 (by decide) (W (Proc.devRef .tc main_arg11)) slices_S3x128_S1x128_1_0 shapeCasts_S1x128_S128 shapeCasts_S128_S1x128
/-- Round 1's running variance row. -/
theorem s4_row2 : StableHlo.after hostOps4_1 (StableHlo.after hostOps4 W) (Proc.devRef .tc main_v84) = Cert.Gcn.row3 1 (W (Proc.devRef .tc main_arg12)) := by
  open Idealize.ShloMosaic.StableHlo in after_results
  exact row_of_stack 1 (by decide) (W (Proc.devRef .tc main_arg12)) slices_S3x128_S1x128_1_0 shapeCasts_S1x128_S128 shapeCasts_S128_S1x128
/-- Round 1's scale row. -/
theorem s4_row3 : StableHlo.after hostOps4_1 (StableHlo.after hostOps4 W) (Proc.devRef .tc main_v85) = Cert.Gcn.row3 1 (W (Proc.devRef .tc main_arg9)) := by
  open Idealize.ShloMosaic.StableHlo in after_results
  exact row_of_stack 1 (by decide) (W (Proc.devRef .tc main_arg9)) slices_S3x128_S1x128_1_0 shapeCasts_S1x128_S128 shapeCasts_S128_S1x128
/-- Round 1's shift row. -/
theorem s4_row4 : StableHlo.after hostOps4_1 (StableHlo.after hostOps4 W) (Proc.devRef .tc main_v86) = Cert.Gcn.row3 1 (W (Proc.devRef .tc main_arg10)) := by
  open Idealize.ShloMosaic.StableHlo in after_results
  exact row_of_stack 1 (by decide) (W (Proc.devRef .tc main_arg10)) slices_S3x128_S1x128_1_0 shapeCasts_S1x128_S128 shapeCasts_S128_S1x128

/-- Round 2's weight: face 2 of the stack. -/
theorem s5_w : StableHlo.after hostOps5 W (Proc.devRef .tc main_v89) = Cert.Gcn.weight3 2 (W (Proc.devRef .tc main_arg7)) := by
  open Idealize.ShloMosaic.StableHlo in after_results
  exact face_of_stack 2 (by decide) (W (Proc.devRef .tc main_arg7)) slices_S3x128x128_S1x128x128_2_0_0 shapeCasts_S1x128x128_S128x128
/-- Round 2's (zero) bias row, reshaped from the zero vector. -/
theorem s5_z (hz : W (Proc.devRef .tc main_v33) = zeros128) : StableHlo.after hostOps5 W (Proc.devRef .tc main_v90) = Cert.Gcn.zeroRow := by
  open Idealize.ShloMosaic.StableHlo in after_results
  refine (reshape_row _ shapeCasts_S128_S1x128).trans ?_
  rw [hz]; rfl

/-- Round 2's bias row. -/
theorem s6_row0 : StableHlo.after hostOps6_1 (StableHlo.after hostOps6 W) (Proc.devRef .tc main_v109) = Cert.Gcn.row3 2 (W (Proc.devRef .tc main_arg8)) := by
  open Idealize.ShloMosaic.StableHlo in after_results
  exact row_of_stack 2 (by decide) (W (Proc.devRef .tc main_arg8)) slices_S3x128_S1x128_2_0 shapeCasts_S1x128_S128 shapeCasts_S128_S1x128
/-- Round 2's running mean row. -/
theorem s6_row1 : StableHlo.after hostOps6_1 (StableHlo.after hostOps6 W) (Proc.devRef .tc main_v110) = Cert.Gcn.row3 2 (W (Proc.devRef .tc main_arg11)) := by
  open Idealize.ShloMosaic.StableHlo in after_results
  exact row_of_stack 2 (by decide) (W (Proc.devRef .tc main_arg11)) slices_S3x128_S1x128_2_0 shapeCasts_S1x128_S128 shapeCasts_S128_S1x128
/-- Round 2's running variance row. -/
theorem s6_row2 : StableHlo.after hostOps6_1 (StableHlo.after hostOps6 W) (Proc.devRef .tc main_v111) = Cert.Gcn.row3 2 (W (Proc.devRef .tc main_arg12)) := by
  open Idealize.ShloMosaic.StableHlo in after_results
  exact row_of_stack 2 (by decide) (W (Proc.devRef .tc main_arg12)) slices_S3x128_S1x128_2_0 shapeCasts_S1x128_S128 shapeCasts_S128_S1x128
/-- Round 2's scale row. -/
theorem s6_row3 : StableHlo.after hostOps6_1 (StableHlo.after hostOps6 W) (Proc.devRef .tc main_v112) = Cert.Gcn.row3 2 (W (Proc.devRef .tc main_arg9)) := by
  open Idealize.ShloMosaic.StableHlo in after_results
  exact row_of_stack 2 (by decide) (W (Proc.devRef .tc main_arg9)) slices_S3x128_S1x128_2_0 shapeCasts_S1x128_S128 shapeCasts_S128_S1x128
/-- Round 2's shift row. -/
theorem s6_row4 : StableHlo.after hostOps6_1 (StableHlo.after hostOps6 W) (Proc.devRef .tc main_v113) = Cert.Gcn.row3 2 (W (Proc.devRef .tc main_arg10)) := by
  open Idealize.ShloMosaic.StableHlo in after_results
  exact row_of_stack 2 (by decide) (W (Proc.devRef .tc main_arg10)) slices_S3x128_S1x128_2_0 shapeCasts_S1x128_S128 shapeCasts_S128_S1x128

/-- The output projection's bias row. -/
theorem s7_b : StableHlo.after hostOps7 W (Proc.devRef .tc main_v115) = Cert.Gcn.row (W (Proc.devRef .tc main_arg6)) := by
  open Idealize.ShloMosaic.StableHlo in after_results
  exact reshape_row (W (Proc.devRef .tc main_arg6)) shapeCasts_S128_S1x128

end Cert.KernelIdeal.HostParams

end
-- ==== Proof.KChain.lean ====
/-
  The kernel program's result buffer, read back through its eight regions to the arguments.

  The program's buffer contents at each boundary between a host stretch and a kernel region are a fold from the
  launch memory: a stretch applies its operations, a region replaces its output array by what its twenty row blocks
  leave and keeps every other buffer. Walking that fold from the launch forward, the hidden state after the input
  projection and after each of the three rounds is the specification's map of the state before it (a region's array
  by the region's own lemma, a stretch's buffers by reading its operations), while the argument arrays, the edge data
  and the zero vector are carried unchanged because nothing writes them. At the last boundary the result buffer holds
  the backbone of the arguments over the reference's aggregation.
-/
import proofs.«402512_j53197464928915_1_alg».proof.Proof.Gen.KernelIdeal.Frame
import proofs.«402512_j53197464928915_1_alg».proof.Proof.KReg0
import proofs.«402512_j53197464928915_1_alg».proof.Proof.KReg1
import proofs.«402512_j53197464928915_1_alg».proof.Proof.KReg2
import proofs.«402512_j53197464928915_1_alg».proof.Proof.KReg3
import proofs.«402512_j53197464928915_1_alg».proof.Proof.KReg4
import proofs.«402512_j53197464928915_1_alg».proof.Proof.KReg5
import proofs.«402512_j53197464928915_1_alg».proof.Proof.KReg6
import proofs.«402512_j53197464928915_1_alg».proof.Proof.KReg7
import proofs.«402512_j53197464928915_1_alg».proof.Proof.KHostEdge
import proofs.«402512_j53197464928915_1_alg».proof.Proof.KHostAgg
import proofs.«402512_j53197464928915_1_alg».proof.Proof.KHostParams

noncomputable section

namespace Cert.KernelIdeal.Chain

open Cert.KernelIdeal Cert.KernelIdeal.Gen Idealize.ShloMosaic Idealize.ShloMosaic.TcCoe Idealize.ShloMosaic.ValueIdx Idealize.SL.Sem

/-! ## What each host stretch writes

Every operation of a stretch writes one buffer, its result. Listing a stretch's result buffers once turns "this
stretch leaves buffer `r` alone" into a membership test on a literal list. -/

section Writes

variable {F : FTy → Type} [FloatOps F]

/-- A one-buffer write set sits inside the image of a list that holds the buffer. -/
theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The result buffers of the stretch that builds the index vectors and the node degrees. -/
abbrev wr0 : List (Ref sig .tc) :=
  [main_v0, main_v1, main_v2, main_v3, main_v4, main_v5, main_v6, main_cst, main_v7, main_cst_0, main_v8, main_v9,
   main_v10, main_cst_1, main_v11, main_v12, main_cst_2, main_v13, main_v14, main_cst_3]
/-- The result buffers of the guarded inverse square root of the degrees. -/
abbrev wr0_1 : List (Ref sig .tc) := [main_call0_v0, main_call0_v1, main_v15]
/-- The result buffers of the stretch that builds the edge weights and the input projection's bias row. -/
abbrev wr0_2 : List (Ref sig .tc) :=
  [main_c, main_v16, main_v17, main_c_4, main_v18, main_v19, main_v20, main_v21, main_v22, main_c_5, main_v23,
   main_v24, main_c_6, main_v25, main_v26, main_v27, main_v28, main_v29, main_v30, main_v31]
/-- The result buffers of the stretch before round 0's channel mixing. -/
abbrev wr1 : List (Ref sig .tc) := [main_cst_7, main_v33, main_v34, main_v35, main_v36]
/-- The result buffers of round 0's row gather. -/
abbrev wr2 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v38]
/-- The result buffers of round 0's scaling, scatter-add and parameter rows. -/
abbrev wr2_1 : List (Ref sig .tc) :=
  [main_v39, main_v40, main_v41, main_cst_8, main_v42, main_v43, main_v44, main_v45, main_v46, main_v47, main_v48,
   main_v49, main_v50, main_v51, main_v52, main_v53, main_v54, main_v55, main_v56, main_v57, main_v58, main_v59]
/-- The result buffers of the stretch before round 1's channel mixing. -/
abbrev wr3 : List (Ref sig .tc) := [main_v61, main_v62, main_v63]
/-- The result buffers of round 1's row gather. -/
abbrev wr4 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v65]
/-- The result buffers of round 1's scaling, scatter-add and parameter rows. -/
abbrev wr4_1 : List (Ref sig .tc) :=
  [main_v66, main_v67, main_v68, main_cst_9, main_v69, main_v70, main_v71, main_v72, main_v73, main_v74, main_v75,
   main_v76, main_v77, main_v78, main_v79, main_v80, main_v81, main_v82, main_v83, main_v84, main_v85, main_v86]
/-- The result buffers of the stretch before round 2's channel mixing. -/
abbrev wr5 : List (Ref sig .tc) := [main_v88, main_v89, main_v90]
/-- The result buffers of round 2's row gather. -/
abbrev wr6 : List (Ref sig .tc) :=
  [main_call3_c, main_call3_v0, main_call3_v1, main_call3_c_0, main_call3_v2, main_call3_v3, main_call3_v4,
   main_call3_v5, main_call3_c_1, main_call3_c_2, main_call3_v6, main_call3_v7, main_call3_v8, main_call3_v9,
   main_call3_v10, main_call3_v11, main_call3_c_3, main_call3_v12, main_call3_v13, main_call3_v14, main_call3_cst,
   main_call3_v15, main_v92]
/-- The result buffers of round 2's scaling, scatter-add and parameter rows. -/
abbrev wr6_1 : List (Ref sig .tc) :=
  [main_v93, main_v94, main_v95, main_cst_10, main_v96, main_v97, main_v98, main_v99, main_v100, main_v101,
   main_v102, main_v103, main_v104, main_v105, main_v106, main_v107, main_v108, main_v109, main_v110, main_v111,
   main_v112, main_v113]
/-- The result buffer of the stretch before the output projection. -/
abbrev wr7 : List (Ref sig .tc) := [main_v115]

/-- "Every operation of the stretch writes inside the list." -/
abbrev WritesIn (ops : List (HloOp τ sig (Elt F))) (L : List (Ref sig .tc)) : Prop :=
  ops.Forall fun op => op.writes ⊆ (L.map (Proc.devRef (τ := τ) .tc)).toFinset

theorem writes0 : WritesIn (F := F) hostOps0 wr0 := by
  simp only [WritesIn, hostOps0, List.Forall, StableHlo.nullary_writes, StableHlo.unary_writes, StableHlo.binary_writes, StableHlo.ternary_writes, StableHlo.reshape_writes]
  repeat' apply And.intro
  all_goals exact single_sub_of_mem (by decide)
theorem writes0_1 : WritesIn (F := F) hostOps0_1 wr0_1 := by
  simp only [WritesIn, hostOps0_1, List.Forall, StableHlo.nullary_writes, StableHlo.unary_writes, StableHlo.binary_writes, StableHlo.ternary_writes, StableHlo.reshape_writes]
  repeat' apply And.intro
  all_goals exact single_sub_of_mem (by decide)
theorem writes0_2 : WritesIn (F := F) hostOps0_2 wr0_2 := by
  simp only [WritesIn, hostOps0_2, List.Forall, StableHlo.nullary_writes, StableHlo.unary_writes, StableHlo.binary_writes, StableHlo.ternary_writes, StableHlo.reshape_writes]
  repeat' apply And.intro
  all_goals exact single_sub_of_mem (by decide)
theorem writes1 : WritesIn (F := F) hostOps1 wr1 := by
  simp only [WritesIn, hostOps1, List.Forall, StableHlo.nullary_writes, StableHlo.unary_writes, StableHlo.binary_writes, StableHlo.ternary_writes, StableHlo.reshape_writes]
  repeat' apply And.intro
  all_goals exact single_sub_of_mem (by decide)
theorem writes2 : WritesIn (F := F) hostOps2 wr2 := by
  simp only [WritesIn, hostOps2, List.Forall, StableHlo.nullary_writes, StableHlo.unary_writes, StableHlo.binary_writes, StableHlo.ternary_writes, StableHlo.reshape_writes]
  repeat' apply And.intro
  all_goals exact single_sub_of_mem (by decide)
theorem writes2_1 : WritesIn (F := F) hostOps2_1 wr2_1 := by
  simp only [WritesIn, hostOps2_1, List.Forall, StableHlo.nullary_writes, StableHlo.unary_writes, StableHlo.binary_writes, StableHlo.ternary_writes, StableHlo.reshape_writes]
  repeat' apply And.intro
  all_goals exact single_sub_of_mem (by decide)
theorem writes3 : WritesIn (F := F) hostOps3 wr3 := by
  simp only [WritesIn, hostOps3, List.Forall, StableHlo.nullary_writes, StableHlo.unary_writes, StableHlo.binary_writes, StableHlo.ternary_writes, StableHlo.reshape_writes]
  repeat' apply And.intro
  all_goals exact single_sub_of_mem (by decide)
theorem writes4 : WritesIn (F := F) hostOps4 wr4 := by
  simp only [WritesIn, hostOps4, List.Forall, StableHlo.nullary_writes, StableHlo.unary_writes, StableHlo.binary_writes, StableHlo.ternary_writes, StableHlo.reshape_writes]
  repeat' apply And.intro
  all_goals exact single_sub_of_mem (by decide)
theorem writes4_1 : WritesIn (F := F) hostOps4_1 wr4_1 := by
  simp only [WritesIn, hostOps4_1, List.Forall, StableHlo.nullary_writes, StableHlo.unary_writes, StableHlo.binary_writes, StableHlo.ternary_writes, StableHlo.reshape_writes]
  repeat' apply And.intro
  all_goals exact single_sub_of_mem (by decide)
theorem writes5 : WritesIn (F := F) hostOps5 wr5 := by
  simp only [WritesIn, hostOps5, List.Forall, StableHlo.nullary_writes, StableHlo.unary_writes, StableHlo.binary_writes, StableHlo.ternary_writes, StableHlo.reshape_writes]
  repeat' apply And.intro
  all_goals exact single_sub_of_mem (by decide)
theorem writes6 : WritesIn (F := F) hostOps6 wr6 := by
  simp only [WritesIn, hostOps6, List.Forall, StableHlo.nullary_writes, StableHlo.unary_writes, StableHlo.binary_writes, StableHlo.ternary_writes, StableHlo.reshape_writes]
  repeat' apply And.intro
  all_goals exact single_sub_of_mem (by decide)
theorem writes6_1 : WritesIn (F := F) hostOps6_1 wr6_1 := by
  simp only [WritesIn, hostOps6_1, List.Forall, StableHlo.nullary_writes, StableHlo.unary_writes, StableHlo.binary_writes, StableHlo.ternary_writes, StableHlo.reshape_writes]
  repeat' apply And.intro
  all_goals exact single_sub_of_mem (by decide)
theorem writes7 : WritesIn (F := F) hostOps7 wr7 := by
  simp only [WritesIn, hostOps7, List.Forall, StableHlo.nullary_writes, StableHlo.unary_writes, StableHlo.binary_writes, StableHlo.ternary_writes, StableHlo.reshape_writes]
  exact single_sub_of_mem (by decide)

end Writes

/-! ## The specification's intermediate states -/

variable (m : (ℓ : Loc nD τ sig) → Buf (Elt Ideal) ℓ) (ρ : Dev nD → PrngReg)

/-- The launch contents of core `c`'s argument buffer `b`. -/
abbrev arg (c : Dev nD) (b : Ref sig .tc) : Buf (Elt Ideal) ((c : Thread nD τ).loc b) := m ((c : Thread nD τ).loc b)

/-- The reference's aggregation over the launch edge list. -/
abbrev agg (c : Dev nD) : Cert.Gcn.NodeMat → Cert.Gcn.NodeMat := Cert.ReferenceIdeal.Edge.aggR (arg m c main_arg1)

/-- The hidden state after the input projection. -/
def hid0 (c : Dev nD) : Cert.Gcn.NodeMat :=
  Cert.Gcn.denseRelu (arg m c main_arg0) (arg m c main_arg3) (Cert.Gcn.row (arg m c main_arg4))

/-- Round `l`'s channel mixing of a hidden state. -/
def mix (c : Dev nD) (l : Fin 3) (h : Cert.Gcn.NodeMat) : Cert.Gcn.NodeMat :=
  Cert.Gcn.dense h (Cert.Gcn.weight3 l (arg m c main_arg7)) Cert.Gcn.zeroRow

/-- Round `l` applied to a hidden state. -/
def round (c : Dev nD) (l : Fin 3) (h : Cert.Gcn.NodeMat) : Cert.Gcn.NodeMat :=
  Cert.Gcn.bnRelu (agg m c (mix m c l h)) (Cert.Gcn.row3 l (arg m c main_arg8)) (Cert.Gcn.row3 l (arg m c main_arg11))
    (Cert.Gcn.row3 l (arg m c main_arg12)) (Cert.Gcn.row3 l (arg m c main_arg9)) (Cert.Gcn.row3 l (arg m c main_arg10))

/-- A round is the specification's layer at the launch parameters. -/
theorem round_eq_layer (c : Dev nD) (l : Fin 3) (h : Cert.Gcn.NodeMat) :
    round m c l h = Cert.Gcn.layer (agg m c) l (arg m c main_arg7) (arg m c main_arg8) (arg m c main_arg9)
      (arg m c main_arg10) (arg m c main_arg11) (arg m c main_arg12) h := rfl

/-! ## Congruences of the node-wise maps -/

theorem dense_congr {x x' : Cert.Gcn.NodeMat} {w w' : Cert.Gcn.Weight} {b b' : Cert.Gcn.RowVec}
    (hx : x = x') (hw : w = w') (hb : b = b') : Cert.Gcn.dense x w b = Cert.Gcn.dense x' w' b' := by
  rw [hx, hw, hb]

theorem denseRelu_congr {x x' : Cert.Gcn.NodeMat} {w w' : Cert.Gcn.Weight} {b b' : Cert.Gcn.RowVec}
    (hx : x = x') (hw : w = w') (hb : b = b') : Cert.Gcn.denseRelu x w b = Cert.Gcn.denseRelu x' w' b' := by
  rw [hx, hw, hb]

theorem bnRelu_congr {a a' : Cert.Gcn.NodeMat} {b b' mu mu' v v' g g' s s' : Cert.Gcn.RowVec}
    (ha : a = a') (hb : b = b') (hmu : mu = mu') (hv : v = v') (hg : g = g') (hs : s = s') :
    Cert.Gcn.bnRelu a b mu v g s = Cert.Gcn.bnRelu a' b' mu' v' g' s' := by
  rw [ha, hb, hmu, hv, hg, hs]

/-! ## What nothing writes after the launch: the parameter arrays -/

/-- The parameter arrays the later steps read. -/
abbrev paramRefs : List (Ref sig .tc) :=
  [main_arg5, main_arg6, main_arg7, main_arg8, main_arg9, main_arg10, main_arg11, main_arg12]

/-- Each parameter array still holds its launch contents. -/
structure Params (c : Dev nD) (W : Valuation τ sig (Elt Ideal)) : Prop where
  a5 : W (Proc.devRef .tc main_arg5) = arg m c main_arg5
  a6 : W (Proc.devRef .tc main_arg6) = arg m c main_arg6
  a7 : W (Proc.devRef .tc main_arg7) = arg m c main_arg7
  a8 : W (Proc.devRef .tc main_arg8) = arg m c main_arg8
  a9 : W (Proc.devRef .tc main_arg9) = arg m c main_arg9
  a10 : W (Proc.devRef .tc main_arg10) = arg m c main_arg10
  a11 : W (Proc.devRef .tc main_arg11) = arg m c main_arg11
  a12 : W (Proc.devRef .tc main_arg12) = arg m c main_arg12

/-- A valuation that agrees on them with one where they hold has them too. -/
theorem Params.of_eq {c : Dev nD} {W W' : Valuation τ sig (Elt Ideal)} (h : Params m c W)
    (he : ∀ r ∈ paramRefs, W' (Proc.devRef .tc r) = W (Proc.devRef .tc r)) : Params m c W' where
  a5 := (he main_arg5 (by decide)).trans h.a5
  a6 := (he main_arg6 (by decide)).trans h.a6
  a7 := (he main_arg7 (by decide)).trans h.a7
  a8 := (he main_arg8 (by decide)).trans h.a8
  a9 := (he main_arg9 (by decide)).trans h.a9
  a10 := (he main_arg10 (by decide)).trans h.a10
  a11 := (he main_arg11 (by decide)).trans h.a11
  a12 := (he main_arg12 (by decide)).trans h.a12

/-- A stretch that writes none of them keeps them. -/
theorem Params.after {c : Dev nD} {W : Valuation τ sig (Elt Ideal)} {ops : List (HloOp τ sig (Elt Ideal))}
    {L : List (Ref sig .tc)} (hW : WritesIn ops L) (hd : ∀ r ∈ paramRefs, r ∉ L) (h : Params m c W) :
    Params m c (StableHlo.after ops W) :=
  h.of_eq m fun r hr => StableHlo.after_of_writes_sub ops W hW (hd r hr)

/-! ## What nothing writes after region 0's entry: the edge data and (from round 0 on) the zero vector -/

/-- The three edge buffers. -/
abbrev edgeRefs : List (Ref sig .tc) := [main_v3, main_v6, main_v30]

/-- The three edge buffers hold the reference's stages of the launch edge list. -/
structure Edges (c : Dev nD) (W : Valuation τ sig (Elt Ideal)) : Prop where
  src : W (Proc.devRef .tc main_v3) = Cert.ReferenceIdeal.Read.val_main_v3 (F := Ideal) (arg m c main_arg1)
  dst : W (Proc.devRef .tc main_v6) = Cert.ReferenceIdeal.Read.val_main_v6 (F := Ideal) (arg m c main_arg1)
  norm : W (Proc.devRef .tc main_v30) = Cert.ReferenceIdeal.Read.val_main_v30 (F := Ideal) (arg m c main_arg1)

theorem Edges.of_eq {c : Dev nD} {W W' : Valuation τ sig (Elt Ideal)} (h : Edges m c W)
    (he : ∀ r ∈ edgeRefs, W' (Proc.devRef .tc r) = W (Proc.devRef .tc r)) : Edges m c W' where
  src := (he main_v3 (by decide)).trans h.src
  dst := (he main_v6 (by decide)).trans h.dst
  norm := (he main_v30 (by decide)).trans h.norm

theorem Edges.after {c : Dev nD} {W : Valuation τ sig (Elt Ideal)} {ops : List (HloOp τ sig (Elt Ideal))}
    {L : List (Ref sig .tc)} (hW : WritesIn ops L) (hd : ∀ r ∈ edgeRefs, r ∉ L) (h : Edges m c W) :
    Edges m c (StableHlo.after ops W) :=
  h.of_eq m fun r hr => StableHlo.after_of_writes_sub ops W hW (hd r hr)

/-- A buffer a stretch does not write keeps its contents. -/
theorem keep {ops : List (HloOp τ sig (Elt Ideal))} {L : List (Ref sig .tc)} (hW : WritesIn ops L)
    (W : Valuation τ sig (Elt Ideal)) (r : Ref sig .tc) (h : r ∉ L) :
    StableHlo.after ops W (Proc.devRef .tc r) = W (Proc.devRef .tc r) :=
  StableHlo.after_of_writes_sub ops W hW h

/-! ## The walk: the launch, then the stretch before region 0 -/

theorem params0 (c : Dev nD) : Params m c (W0 m ρ c) := ⟨rfl, rfl, rfl, rfl, rfl, rfl, rfl, rfl⟩

theorem params3 (c : Dev nD) : Params m c (W3 m ρ c) :=
  Params.after m writes0_2 (by decide) (Params.after m writes0_1 (by decide) (Params.after m writes0 (by decide) (params0 m ρ c)))

theorem edges3 (c : Dev nD) : Edges m c (W3 m ρ c) :=
  ⟨HostEdge.pre0_src (W0 m ρ c), HostEdge.pre0_dst (W0 m ρ c), HostEdge.pre0_norm (W0 m ρ c)⟩

theorem x3 (c : Dev nD) : W3 m ρ c (Proc.devRef .tc main_arg0) = arg m c main_arg0 :=
  (keep writes0_2 _ main_arg0 (by decide)).trans ((keep writes0_1 _ main_arg0 (by decide)).trans (keep writes0 _ main_arg0 (by decide)))

theorem w3 (c : Dev nD) : W3 m ρ c (Proc.devRef .tc main_arg3) = arg m c main_arg3 :=
  (keep writes0_2 _ main_arg3 (by decide)).trans ((keep writes0_1 _ main_arg3 (by decide)).trans (keep writes0 _ main_arg3 (by decide)))

theorem bias3 (c : Dev nD) : W3 m ρ c (Proc.devRef .tc main_v31) = Cert.Gcn.row (arg m c main_arg4) :=
  HostParams.s0_b (W0 m ρ c)

/-! ## Region 0: the input projection -/

theorem hid4 (c : Dev nD) : W4 m ρ c (Proc.devRef .tc main_v32) = hid0 m c :=
  (W4_arr m ρ c 3).trans ((Reg0.final (V3 m ρ) c).trans (denseRelu_congr (x3 m ρ c) (w3 m ρ c) (bias3 m ρ c)))

theorem params4 (c : Dev nD) : Params m c (W4 m ρ c) :=
  (params3 m ρ c).of_eq m fun r hr => W4_of_ne m ρ c r ((by decide : ∀ r ∈ paramRefs, ∀ w, Pipeline.arrRef spec0 w ≠ r) r hr)

theorem edges4 (c : Dev nD) : Edges m c (W4 m ρ c) :=
  (edges3 m ρ c).of_eq m fun r hr => W4_of_ne m ρ c r ((by decide : ∀ r ∈ edgeRefs, ∀ w, Pipeline.arrRef spec0 w ≠ r) r hr)

/-! ## Round 0: the weight face, the zero vector and the zero row; the channel mixing; the aggregation and the five
    rows; the normalisation -/

theorem params5 (c : Dev nD) : Params m c (W5 m ρ c) := Params.after m writes1 (by decide) (params4 m ρ c)
theorem edges5 (c : Dev nD) : Edges m c (W5 m ρ c) := Edges.after m writes1 (by decide) (edges4 m ρ c)
theorem hid5 (c : Dev nD) : W5 m ρ c (Proc.devRef .tc main_v32) = hid0 m c :=
  (keep writes1 _ main_v32 (by decide)).trans (hid4 m ρ c)
theorem weight5 (c : Dev nD) : W5 m ρ c (Proc.devRef .tc main_v35) = Cert.Gcn.weight3 0 (arg m c main_arg7) :=
  (HostParams.s1_w (W4 m ρ c)).trans (congrArg (Cert.Gcn.weight3 0) (params4 m ρ c).a7)
theorem zrow5 (c : Dev nD) : W5 m ρ c (Proc.devRef .tc main_v36) = Cert.Gcn.zeroRow := HostParams.s1_z (W4 m ρ c)
theorem zeros5 (c : Dev nD) : W5 m ρ c (Proc.devRef .tc main_v33) = HostParams.zeros128 := HostParams.s1_z33 (W4 m ρ c)

theorem mix6 (c : Dev nD) : W6 m ρ c (Proc.devRef .tc main_v37) = mix m c 0 (hid0 m c) :=
  (W6_arr m ρ c 3).trans ((Reg1.final (V5 m ρ) c).trans (dense_congr (hid5 m ρ c) (weight5 m ρ c) (zrow5 m ρ c)))
theorem params6 (c : Dev nD) : Params m c (W6 m ρ c) :=
  (params5 m ρ c).of_eq m fun r hr => W6_of_ne m ρ c r ((by decide : ∀ r ∈ paramRefs, ∀ w, Pipeline.arrRef spec1 w ≠ r) r hr)
theorem edges6 (c : Dev nD) : Edges m c (W6 m ρ c) :=
  (edges5 m ρ c).of_eq m fun r hr => W6_of_ne m ρ c r ((by decide : ∀ r ∈ edgeRefs, ∀ w, Pipeline.arrRef spec1 w ≠ r) r hr)
theorem zeros6 (c : Dev nD) : W6 m ρ c (Proc.devRef .tc main_v33) = HostParams.zeros128 :=
  (W6_of_ne m ρ c main_v33 (by decide)).trans (zeros5 m ρ c)

theorem params8 (c : Dev nD) : Params m c (W8 m ρ c) :=
  Params.after m writes2_1 (by decide) (Params.after m writes2 (by decide) (params6 m ρ c))
theorem edges8 (c : Dev nD) : Edges m c (W8 m ρ c) :=
  Edges.after m writes2_1 (by decide) (Edges.after m writes2 (by decide) (edges6 m ρ c))
theorem zeros8 (c : Dev nD) : W8 m ρ c (Proc.devRef .tc main_v33) = HostParams.zeros128 :=
  (keep writes2_1 _ main_v33 (by decide)).trans ((keep writes2 _ main_v33 (by decide)).trans (zeros6 m ρ c))
theorem agg8 (c : Dev nD) (hr : Cert.Gcn.SrcInRange (arg m c main_arg1)) :
    W8 m ρ c (Proc.devRef .tc main_v44) = agg m c (mix m c 0 (hid0 m c)) :=
  (HostAgg.agg_read0 (W6 m ρ c) (arg m c main_arg1) (edges6 m ρ c).src (edges6 m ρ c).dst (edges6 m ρ c).norm hr).trans
    (congrArg (agg m c) (mix6 m ρ c))
theorem bias8 (c : Dev nD) : W8 m ρ c (Proc.devRef .tc main_v55) = Cert.Gcn.row3 0 (arg m c main_arg8) :=
  (HostParams.s2_row0 (W6 m ρ c)).trans (congrArg (Cert.Gcn.row3 0) (params6 m ρ c).a8)
theorem mean8 (c : Dev nD) : W8 m ρ c (Proc.devRef .tc main_v56) = Cert.Gcn.row3 0 (arg m c main_arg11) :=
  (HostParams.s2_row1 (W6 m ρ c)).trans (congrArg (Cert.Gcn.row3 0) (params6 m ρ c).a11)
theorem var8 (c : Dev nD) : W8 m ρ c (Proc.devRef .tc main_v57) = Cert.Gcn.row3 0 (arg m c main_arg12) :=
  (HostParams.s2_row2 (W6 m ρ c)).trans (congrArg (Cert.Gcn.row3 0) (params6 m ρ c).a12)
theorem gamma8 (c : Dev nD) : W8 m ρ c (Proc.devRef .tc main_v58) = Cert.Gcn.row3 0 (arg m c main_arg9) :=
  (HostParams.s2_row3 (W6 m ρ c)).trans (congrArg (Cert.Gcn.row3 0) (params6 m ρ c).a9)
theorem beta8 (c : Dev nD) : W8 m ρ c (Proc.devRef .tc main_v59) = Cert.Gcn.row3 0 (arg m c main_arg10) :=
  (HostParams.s2_row4 (W6 m ρ c)).trans (congrArg (Cert.Gcn.row3 0) (params6 m ρ c).a10)

theorem hid9 (c : Dev nD) (hr : Cert.Gcn.SrcInRange (arg m c main_arg1)) :
    W9 m ρ c (Proc.devRef .tc main_v60) = round m c 0 (hid0 m c) :=
  (W9_arr m ρ c 6).trans ((Reg2.final (V8 m ρ) c).trans
    (bnRelu_congr (agg8 m ρ c hr) (bias8 m ρ c) (mean8 m ρ c) (var8 m ρ c) (gamma8 m ρ c) (beta8 m ρ c)))
theorem params9 (c : Dev nD) : Params m c (W9 m ρ c) :=
  (params8 m ρ c).of_eq m fun r hr => W9_of_ne m ρ c r ((by decide : ∀ r ∈ paramRefs, ∀ w, Pipeline.arrRef spec2 w ≠ r) r hr)
theorem edges9 (c : Dev nD) : Edges m c (W9 m ρ c) :=
  (edges8 m ρ c).of_eq m fun r hr => W9_of_ne m ρ c r ((by decide : ∀ r ∈ edgeRefs, ∀ w, Pipeline.arrRef spec2 w ≠ r) r hr)
theorem zeros9 (c : Dev nD) : W9 m ρ c (Proc.devRef .tc main_v33) = HostParams.zeros128 :=
  (W9_of_ne m ρ c main_v33 (by decide)).trans (zeros8 m ρ c)

/-! ## Round 1 -/

theorem params10 (c : Dev nD) : Params m c (W10 m ρ c) := Params.after m writes3 (by decide) (params9 m ρ c)
theorem edges10 (c : Dev nD) : Edges m c (W10 m ρ c) := Edges.after m writes3 (by decide) (edges9 m ρ c)
theorem zeros10 (c : Dev nD) : W10 m ρ c (Proc.devRef .tc main_v33) = HostParams.zeros128 :=
  (keep writes3 _ main_v33 (by decide)).trans (zeros9 m ρ c)
theorem hid10 (c : Dev nD) (hr : Cert.Gcn.SrcInRange (arg m c main_arg1)) :
    W10 m ρ c (Proc.devRef .tc main_v60) = round m c 0 (hid0 m c) :=
  (keep writes3 _ main_v60 (by decide)).trans (hid9 m ρ c hr)
theorem weight10 (c : Dev nD) : W10 m ρ c (Proc.devRef .tc main_v62) = Cert.Gcn.weight3 1 (arg m c main_arg7) :=
  (HostParams.s3_w (W9 m ρ c)).trans (congrArg (Cert.Gcn.weight3 1) (params9 m ρ c).a7)
theorem zrow10 (c : Dev nD) : W10 m ρ c (Proc.devRef .tc main_v63) = Cert.Gcn.zeroRow :=
  HostParams.s3_z (W9 m ρ c) (zeros9 m ρ c)

theorem mix11 (c : Dev nD) (hr : Cert.Gcn.SrcInRange (arg m c main_arg1)) :
    W11 m ρ c (Proc.devRef .tc main_v64) = mix m c 1 (round m c 0 (hid0 m c)) :=
  (W11_arr m ρ c 3).trans ((Reg3.final (V10 m ρ) c).trans (dense_congr (hid10 m ρ c hr) (weight10 m ρ c) (zrow10 m ρ c)))
theorem params11 (c : Dev nD) : Params m c (W11 m ρ c) :=
  (params10 m ρ c).of_eq m fun r hr => W11_of_ne m ρ c r ((by decide : ∀ r ∈ paramRefs, ∀ w, Pipeline.arrRef spec3 w ≠ r) r hr)
theorem edges11 (c : Dev nD) : Edges m c (W11 m ρ c) :=
  (edges10 m ρ c).of_eq m fun r hr => W11_of_ne m ρ c r ((by decide : ∀ r ∈ edgeRefs, ∀ w, Pipeline.arrRef spec3 w ≠ r) r hr)
theorem zeros11 (c : Dev nD) : W11 m ρ c (Proc.devRef .tc main_v33) = HostParams.zeros128 :=
  (W11_of_ne m ρ c main_v33 (by decide)).trans (zeros10 m ρ c)

theorem params13 (c : Dev nD) : Params m c (W13 m ρ c) :=
  Params.after m writes4_1 (by decide) (Params.after m writes4 (by decide) (params11 m ρ c))
theorem edges13 (c : Dev nD) : Edges m c (W13 m ρ c) :=
  Edges.after m writes4_1 (by decide) (Edges.after m writes4 (by decide) (edges11 m ρ c))
theorem zeros13 (c : Dev nD) : W13 m ρ c (Proc.devRef .tc main_v33) = HostParams.zeros128 :=
  (keep writes4_1 _ main_v33 (by decide)).trans ((keep writes4 _ main_v33 (by decide)).trans (zeros11 m ρ c))
theorem agg13 (c : Dev nD) (hr : Cert.Gcn.SrcInRange (arg m c main_arg1)) :
    W13 m ρ c (Proc.devRef .tc main_v71) = agg m c (mix m c 1 (round m c 0 (hid0 m c))) :=
  (HostAgg.agg_read1 (W11 m ρ c) (arg m c main_arg1) (edges11 m ρ c).src (edges11 m ρ c).dst (edges11 m ρ c).norm hr).trans
    (congrArg (agg m c) (mix11 m ρ c hr))
theorem bias13 (c : Dev nD) : W13 m ρ c (Proc.devRef .tc main_v82) = Cert.Gcn.row3 1 (arg m c main_arg8) :=
  (HostParams.s4_row0 (W11 m ρ c)).trans (congrArg (Cert.Gcn.row3 1) (params11 m ρ c).a8)
theorem mean13 (c : Dev nD) : W13 m ρ c (Proc.devRef .tc main_v83) = Cert.Gcn.row3 1 (arg m c main_arg11) :=
  (HostParams.s4_row1 (W11 m ρ c)).trans (congrArg (Cert.Gcn.row3 1) (params11 m ρ c).a11)
theorem var13 (c : Dev nD) : W13 m ρ c (Proc.devRef .tc main_v84) = Cert.Gcn.row3 1 (arg m c main_arg12) :=
  (HostParams.s4_row2 (W11 m ρ c)).trans (congrArg (Cert.Gcn.row3 1) (params11 m ρ c).a12)
theorem gamma13 (c : Dev nD) : W13 m ρ c (Proc.devRef .tc main_v85) = Cert.Gcn.row3 1 (arg m c main_arg9) :=
  (HostParams.s4_row3 (W11 m ρ c)).trans (congrArg (Cert.Gcn.row3 1) (params11 m ρ c).a9)
theorem beta13 (c : Dev nD) : W13 m ρ c (Proc.devRef .tc main_v86) = Cert.Gcn.row3 1 (arg m c main_arg10) :=
  (HostParams.s4_row4 (W11 m ρ c)).trans (congrArg (Cert.Gcn.row3 1) (params11 m ρ c).a10)

theorem hid14 (c : Dev nD) (hr : Cert.Gcn.SrcInRange (arg m c main_arg1)) :
    W14 m ρ c (Proc.devRef .tc main_v87) = round m c 1 (round m c 0 (hid0 m c)) :=
  (W14_arr m ρ c 6).trans ((Reg4.final (V13 m ρ) c).trans
    (bnRelu_congr (agg13 m ρ c hr) (bias13 m ρ c) (mean13 m ρ c) (var13 m ρ c) (gamma13 m ρ c) (beta13 m ρ c)))
theorem params14 (c : Dev nD) : Params m c (W14 m ρ c) :=
  (params13 m ρ c).of_eq m fun r hr => W14_of_ne m ρ c r ((by decide : ∀ r ∈ paramRefs, ∀ w, Pipeline.arrRef spec4 w ≠ r) r hr)
theorem edges14 (c : Dev nD) : Edges m c (W14 m ρ c) :=
  (edges13 m ρ c).of_eq m fun r hr => W14_of_ne m ρ c r ((by decide : ∀ r ∈ edgeRefs, ∀ w, Pipeline.arrRef spec4 w ≠ r) r hr)
theorem zeros14 (c : Dev nD) : W14 m ρ c (Proc.devRef .tc main_v33) = HostParams.zeros128 :=
  (W14_of_ne m ρ c main_v33 (by decide)).trans (zeros13 m ρ c)

/-! ## Round 2 -/

theorem params15 (c : Dev nD) : Params m c (W15 m ρ c) := Params.after m writes5 (by decide) (params14 m ρ c)
theorem edges15 (c : Dev nD) : Edges m c (W15 m ρ c) := Edges.after m writes5 (by decide) (edges14 m ρ c)
theorem hid15 (c : Dev nD) (hr : Cert.Gcn.SrcInRange (arg m c main_arg1)) :
    W15 m ρ c (Proc.devRef .tc main_v87) = round m c 1 (round m c 0 (hid0 m c)) :=
  (keep writes5 _ main_v87 (by decide)).trans (hid14 m ρ c hr)
theorem weight15 (c : Dev nD) : W15 m ρ c (Proc.devRef .tc main_v89) = Cert.Gcn.weight3 2 (arg m c main_arg7) :=
  (HostParams.s5_w (W14 m ρ c)).trans (congrArg (Cert.Gcn.weight3 2) (params14 m ρ c).a7)
theorem zrow15 (c : Dev nD) : W15 m ρ c (Proc.devRef .tc main_v90) = Cert.Gcn.zeroRow :=
  HostParams.s5_z (W14 m ρ c) (zeros14 m ρ c)

theorem mix16 (c : Dev nD) (hr : Cert.Gcn.SrcInRange (arg m c main_arg1)) :
    W16 m ρ c (Proc.devRef .tc main_v91) = mix m c 2 (round m c 1 (round m c 0 (hid0 m c))) :=
  (W16_arr m ρ c 3).trans ((Reg5.final (V15 m ρ) c).trans (dense_congr (hid15 m ρ c hr) (weight15 m ρ c) (zrow15 m ρ c)))
theorem params16 (c : Dev nD) : Params m c (W16 m ρ c) :=
  (params15 m ρ c).of_eq m fun r hr => W16_of_ne m ρ c r ((by decide : ∀ r ∈ paramRefs, ∀ w, Pipeline.arrRef spec5 w ≠ r) r hr)
theorem edges16 (c : Dev nD) : Edges m c (W16 m ρ c) :=
  (edges15 m ρ c).of_eq m fun r hr => W16_of_ne m ρ c r ((by decide : ∀ r ∈ edgeRefs, ∀ w, Pipeline.arrRef spec5 w ≠ r) r hr)

theorem params18 (c : Dev nD) : Params m c (W18 m ρ c) :=
  Params.after m writes6_1 (by decide) (Params.after m writes6 (by decide) (params16 m ρ c))
theorem agg18 (c : Dev nD) (hr : Cert.Gcn.SrcInRange (arg m c main_arg1)) :
    W18 m ρ c (Proc.devRef .tc main_v98) = agg m c (mix m c 2 (round m c 1 (round m c 0 (hid0 m c)))) :=
  (HostAgg.agg_read2 (W16 m ρ c) (arg m c main_arg1) (edges16 m ρ c).src (edges16 m ρ c).dst (edges16 m ρ c).norm hr).trans
    (congrArg (agg m c) (mix16 m ρ c hr))
theorem bias18 (c : Dev nD) : W18 m ρ c (Proc.devRef .tc main_v109) = Cert.Gcn.row3 2 (arg m c main_arg8) :=
  (HostParams.s6_row0 (W16 m ρ c)).trans (congrArg (Cert.Gcn.row3 2) (params16 m ρ c).a8)
theorem mean18 (c : Dev nD) : W18 m ρ c (Proc.devRef .tc main_v110) = Cert.Gcn.row3 2 (arg m c main_arg11) :=
  (HostParams.s6_row1 (W16 m ρ c)).trans (congrArg (Cert.Gcn.row3 2) (params16 m ρ c).a11)
theorem var18 (c : Dev nD) : W18 m ρ c (Proc.devRef .tc main_v111) = Cert.Gcn.row3 2 (arg m c main_arg12) :=
  (HostParams.s6_row2 (W16 m ρ c)).trans (congrArg (Cert.Gcn.row3 2) (params16 m ρ c).a12)
theorem gamma18 (c : Dev nD) : W18 m ρ c (Proc.devRef .tc main_v112) = Cert.Gcn.row3 2 (arg m c main_arg9) :=
  (HostParams.s6_row3 (W16 m ρ c)).trans (congrArg (Cert.Gcn.row3 2) (params16 m ρ c).a9)
theorem beta18 (c : Dev nD) : W18 m ρ c (Proc.devRef .tc main_v113) = Cert.Gcn.row3 2 (arg m c main_arg10) :=
  (HostParams.s6_row4 (W16 m ρ c)).trans (congrArg (Cert.Gcn.row3 2) (params16 m ρ c).a10)

theorem hid19 (c : Dev nD) (hr : Cert.Gcn.SrcInRange (arg m c main_arg1)) :
    W19 m ρ c (Proc.devRef .tc main_v114) = round m c 2 (round m c 1 (round m c 0 (hid0 m c))) :=
  (W19_arr m ρ c 6).trans ((Reg6.final (V18 m ρ) c).trans
    (bnRelu_congr (agg18 m ρ c hr) (bias18 m ρ c) (mean18 m ρ c) (var18 m ρ c) (gamma18 m ρ c) (beta18 m ρ c)))
theorem params19 (c : Dev nD) : Params m c (W19 m ρ c) :=
  (params18 m ρ c).of_eq m fun r hr => W19_of_ne m ρ c r ((by decide : ∀ r ∈ paramRefs, ∀ w, Pipeline.arrRef spec6 w ≠ r) r hr)

/-! ## The output projection -/

theorem params20 (c : Dev nD) : Params m c (W20 m ρ c) := Params.after m writes7 (by decide) (params19 m ρ c)
theorem hid20 (c : Dev nD) (hr : Cert.Gcn.SrcInRange (arg m c main_arg1)) :
    W20 m ρ c (Proc.devRef .tc main_v114) = round m c 2 (round m c 1 (round m c 0 (hid0 m c))) :=
  (keep writes7 _ main_v114 (by decide)).trans (hid19 m ρ c hr)
theorem bias20 (c : Dev nD) : W20 m ρ c (Proc.devRef .tc main_v115) = Cert.Gcn.row (arg m c main_arg6) :=
  (HostParams.s7_b (W19 m ρ c)).trans (congrArg Cert.Gcn.row (params19 m ρ c).a6)

theorem out21 (c : Dev nD) (hr : Cert.Gcn.SrcInRange (arg m c main_arg1)) :
    W21 m ρ c (Proc.devRef .tc main_v116)
      = Cert.Gcn.dense (round m c 2 (round m c 1 (round m c 0 (hid0 m c)))) (arg m c main_arg5) (Cert.Gcn.row (arg m c main_arg6)) :=
  (W21_arr m ρ c 3).trans ((Reg7.final (V20 m ρ) c).trans (dense_congr (hid20 m ρ c hr) (params20 m ρ c).a5 (bias20 m ρ c)))

/-- At the last boundary the result buffer holds the backbone of the launch arguments over `aggR`, provided every
    source index of the edge list is a valid row. -/
theorem kernel_backbone (c : Dev nD) (hr : Cert.Gcn.SrcInRange (m ((c : Thread nD τ).loc main_arg1))) :
    W21 m ρ c (Proc.devRef .tc main_v116)
      = Cert.Gcn.backbone (Cert.ReferenceIdeal.Edge.aggR (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (out21 m ρ c hr).trans rfl

end Cert.KernelIdeal.Chain

end
-- ==== Proof.RefDense.lean ====
/-
  The reference's five matrix products, each read as the dense map of the specification.

  A host `dot_general` contracting the 128 channels is, entry by entry, the sum over `k` of the left operand at
  `(p, k)` times the right at `(k, q)`. The input and output projections add a bias vector broadcast along the nodes
  (and the input projection cuts at zero); the three per-layer products add nothing, which is the dense map with the
  zero row. The per-layer weight is face `l` of the stacked weights, sliced out and reshaped.
-/
import proofs.«402512_j53197464928915_1_alg».proof.Proof.RefRead
import proofs.«402512_j53197464928915_1_alg».proof.Proof.Model
import Idealize.ShloMosaic.PureOps.Ideal.Laws
import Idealize.ShloMosaic.Lib.Pipeline.Value
import Idealize.ShloMosaic.Lib.ValueLayout

noncomputable section

namespace Cert.ReferenceIdeal.Dense

open Cert.ReferenceIdeal Cert.ReferenceIdeal.Read Idealize.ShloMosaic Idealize.ShloMosaic.ValueIdx

/-- Two rank-2 indices with the same coordinates are equal (likewise rank 1): both sides compute coordinate by coordinate. -/
local macro "coords1" : tactic =>
  `(tactic| exact funext fun a => Fin.ext (by match a with | ⟨0, _⟩ => rfl))
local macro "coords2" : tactic =>
  `(tactic| exact funext fun a => Fin.ext (by match a with | ⟨0, _⟩ => rfl | ⟨1, _⟩ => rfl))

/-- Row-major position `k · 128 + q` of a `[128, 128]` array splits back into `(k, q)`. -/
theorem unflatten (k q : Fin 128) :
    (k.val * 128 + q.val) / 128 % 128 = k.val ∧ (k.val * 128 + q.val) % 128 = q.val := by
  have hk := k.isLt; have hq := q.isLt; omega

/-- A node matrix whose entry `(p, q)` is the contraction of row `p` of `h` with column `q` of `w` is `h · w` plus the
    zero row. -/
theorem eq_dense_zeroRow (h v : Cert.Gcn.NodeMat) (w : Cert.Gcn.Weight)
    (hv : ∀ (p : Fin 100000) (q : Fin 128), v (ix2 p q) = ∑ k : Fin 128, h (ix2 p k) * w (ix2 k q)) :
    v = Cert.Gcn.dense h w Cert.Gcn.zeroRow := by
  funext i
  obtain ⟨p, q, rfl⟩ : ∃ (p : Fin 100000) (q : Fin 128), i = ix2 p q := ⟨i 0, i 1, eq_ix2 i⟩
  rw [hv, Cert.Gcn.dense_ix2, Cert.Gcn.denseAt_zeroRow]

/-- The same with a bias vector added along the nodes: `h · w + b`. -/
theorem eq_dense_row (h v : Cert.Gcn.NodeMat) (w : Cert.Gcn.Weight) (b : (⟨1, ![128]⟩ : Shape).Idx → EReal)
    (hv : ∀ (p : Fin 100000) (q : Fin 128), v (ix2 p q) = (∑ k : Fin 128, h (ix2 p k) * w (ix2 k q)) + b (ix1 q)) :
    v = Cert.Gcn.dense h w (Cert.Gcn.row b) := by
  funext i
  obtain ⟨p, q, rfl⟩ : ∃ (p : Fin 100000) (q : Fin 128), i = ix2 p q := ⟨i 0, i 1, eq_ix2 i⟩
  exact hv p q

/-- And cut at zero: `max (h · w + b) 0`. -/
theorem eq_denseRelu_row (h v : Cert.Gcn.NodeMat) (w : Cert.Gcn.Weight) (b : (⟨1, ![128]⟩ : Shape).Idx → EReal)
    (hv : ∀ (p : Fin 100000) (q : Fin 128),
      v (ix2 p q) = max ((∑ k : Fin 128, h (ix2 p k) * w (ix2 k q)) + b (ix1 q)) 0) :
    v = Cert.Gcn.denseRelu h w (Cert.Gcn.row b) := by
  funext i
  obtain ⟨p, q, rfl⟩ : ∃ (p : Fin 100000) (q : Fin 128), i = ix2 p q := ⟨i 0, i 1, eq_ix2 i⟩
  exact hv p q

/-- Face 0 of the stack, sliced out and reshaped, reads the stack at `(0, k, q)`. -/
theorem face0_idx (k q : Fin 128) : idx_main_v36 (idx_main_v37 (ix2 k q)) = ix3 (0 : Fin 3) k q :=
  funext fun a => Fin.ext (by
    match a with
    | ⟨0, _⟩ => rfl
    | ⟨1, _⟩ => exact (unflatten k q).1
    | ⟨2, _⟩ => exact (unflatten k q).2)

/-- Face 1 likewise. -/
theorem face1_idx (k q : Fin 128) : idx_main_v81 (idx_main_v82 (ix2 k q)) = ix3 (1 : Fin 3) k q :=
  funext fun a => Fin.ext (by
    match a with
    | ⟨0, _⟩ => rfl
    | ⟨1, _⟩ => exact (unflatten k q).1
    | ⟨2, _⟩ => exact (unflatten k q).2)

/-- Face 2 likewise. -/
theorem face2_idx (k q : Fin 128) : idx_main_v126 (idx_main_v127 (ix2 k q)) = ix3 (2 : Fin 3) k q :=
  funext fun a => Fin.ext (by
    match a with
    | ⟨0, _⟩ => rfl
    | ⟨1, _⟩ => exact (unflatten k q).1
    | ⟨2, _⟩ => exact (unflatten k q).2)

/-- The input projection: `max (x · w₀ + b₀) 0`. -/
theorem ref_h0 (x0 : (⟨S100000x128, .f32⟩ : BufTy).Contents (Elt Ideal)) (x3 : (⟨S128x128, .f32⟩ : BufTy).Contents (Elt Ideal)) (x4 : (⟨S128, .f32⟩ : BufTy).Contents (Elt Ideal)) :
    val_main_v35 (F := Ideal) x0 x3 x4
      = Cert.Gcn.denseRelu x0 x3 (Cert.Gcn.row x4) := by
  refine eq_denseRelu_row _ _ _ _ fun p q => ?_
  rw [val_main_v35_apply, val_main_v34_apply, val_main_v31_apply, val_main_v33_apply, val_main_v32_apply,
    val_main_call1_v0_apply, val_main_call1_cst_apply]
  have eb : idx_main_v32 (idx_main_v33 (ix2 p q)) = ix1 q := by coords1
  rw [eb]
  simp only [Ideal.maximumf_def, Ideal.addf_def, Ideal.ofBits_def, Ideal.ofBits_zero_f32]
  refine congrArg (max · 0) (congrArg (· + x4 (ix1 q)) (Finset.sum_congr rfl fun k _ => ?_))
  have el : lidx_main_v31 (ix2 p q) k = ix2 p k := by coords2
  have er : ridx_main_v31 (ix2 p q) k = ix2 k q := by coords2
  rw [el, er]

/-- Round 0's channel mixing by face 0. -/
theorem ref_hw0 (x0 : (⟨S100000x128, .f32⟩ : BufTy).Contents (Elt Ideal)) (x3 : (⟨S128x128, .f32⟩ : BufTy).Contents (Elt Ideal)) (x4 : (⟨S128, .f32⟩ : BufTy).Contents (Elt Ideal)) (x7 : (⟨S3x128x128, .f32⟩ : BufTy).Contents (Elt Ideal)) :
    val_main_v38 (F := Ideal) x0 x3 x4 x7
      = Cert.Gcn.dense (val_main_v35 (F := Ideal) x0 x3 x4) (Cert.Gcn.weight3 0 x7) Cert.Gcn.zeroRow := by
  refine eq_dense_zeroRow _ _ _ fun p q => ?_
  rw [val_main_v38_apply]
  refine Finset.sum_congr rfl fun k _ => ?_
  have el : lidx_main_v38 (ix2 p q) k = ix2 p k := by coords2
  have er : ridx_main_v38 (ix2 p q) k = ix2 k q := by coords2
  rw [el, er, val_main_v37_apply, val_main_v36_apply, face0_idx]
  rfl

/-- Round 1's channel mixing by face 1. -/
theorem ref_hw1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S3x128, .f32⟩ : BufTy).Contents (Elt Ideal)) :
    val_main_v83 (F := Ideal) x0 x1 x3 x4 x7 x8 x9 x10 x11 x12
      = Cert.Gcn.dense (val_main_v80 (F := Ideal) x0 x1 x3 x4 x7 x8 x9 x10 x11 x12) (Cert.Gcn.weight3 1 x7) Cert.Gcn.zeroRow := by
  refine eq_dense_zeroRow _ _ _ fun p q => ?_
  rw [val_main_v83_apply]
  refine Finset.sum_congr rfl fun k _ => ?_
  have el : lidx_main_v83 (ix2 p q) k = ix2 p k := by coords2
  have er : ridx_main_v83 (ix2 p q) k = ix2 k q := by coords2
  rw [el, er, val_main_v82_apply, val_main_v81_apply, face1_idx]
  rfl

/-- Round 2's channel mixing by face 2. -/
theorem ref_hw2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S3x128, .f32⟩ : BufTy).Contents (Elt Ideal)) :
    val_main_v128 (F := Ideal) x0 x1 x3 x4 x7 x8 x9 x10 x11 x12
      = Cert.Gcn.dense (val_main_v125 (F := Ideal) x0 x1 x3 x4 x7 x8 x9 x10 x11 x12) (Cert.Gcn.weight3 2 x7) Cert.Gcn.zeroRow := by
  refine eq_dense_zeroRow _ _ _ fun p q => ?_
  rw [val_main_v128_apply]
  refine Finset.sum_congr rfl fun k _ => ?_
  have el : lidx_main_v128 (ix2 p q) k = ix2 p k := by coords2
  have er : ridx_main_v128 (ix2 p q) k = ix2 k q := by coords2
  rw [el, er, val_main_v127_apply, val_main_v126_apply, face2_idx]
  rfl

/-- The output projection: `h · w₁ + b₁`. -/
theorem ref_out (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S3x128, .f32⟩ : BufTy).Contents (Elt Ideal)) :
    val_main_v174 (F := Ideal) x0 x1 x3 x4 x5 x6 x7 x8 x9 x10 x11 x12
      = Cert.Gcn.dense (val_main_v170 (F := Ideal) x0 x1 x3 x4 x7 x8 x9 x10 x11 x12) x5 (Cert.Gcn.row x6) := by
  refine eq_dense_row _ _ _ _ fun p q => ?_
  rw [val_main_v174_apply, val_main_v171_apply, val_main_v173_apply, val_main_v172_apply]
  have eb : idx_main_v172 (idx_main_v173 (ix2 p q)) = ix1 q := by coords1
  rw [eb]
  simp only [Ideal.addf_def]
  refine congrArg (· + x6 (ix1 q)) (Finset.sum_congr rfl fun k _ => ?_)
  have el : lidx_main_v171 (ix2 p q) k = ix2 p k := by coords2
  have er : ridx_main_v171 (ix2 p q) k = ix2 k q := by coords2
  rw [el, er]

end Cert.ReferenceIdeal.Dense

end
-- ==== Proof.RefBn.lean ====
/-
  The reference's three normalise-and-cut stages, each read as the specification's map.

  After a round's aggregation the reference adds the layer's bias, subtracts the running mean, multiplies by
  `rsqrt (var + ε)` and by the scale, adds the shift and cuts at zero, every per-channel vector being row `l` of its
  `[3, 128]` stack broadcast along the nodes: entry by entry that is `bnRelu` of the aggregate and the five rows.
-/
import proofs.«402512_j53197464928915_1_alg».proof.Proof.RefRead
import proofs.«402512_j53197464928915_1_alg».proof.Proof.Model
import Idealize.ShloMosaic.Lib.Pipeline.Value
import Idealize.ShloMosaic.Lib.ValueLayout

noncomputable section

namespace Cert.ReferenceIdeal.Bn

open Cert.ReferenceIdeal Cert.ReferenceIdeal.Read Idealize.ShloMosaic Idealize.ShloMosaic.ValueIdx

/-- An index of a `[3, 128]` stack whose two coordinates are `l` and `q` is the index `(l, q)`. -/
theorem rowIdx_eq (l : Fin 3) (q : Fin 128) (j : S3x128.Idx) (h0 : (j 0).val = l.val) (h1 : (j 1).val = q.val) :
    j = ix2 l q :=
  funext fun a => match a with
    | ⟨0, _⟩ => Fin.ext h0
    | ⟨1, _⟩ => Fin.ext h1

/-! ## Round 0: the five per-channel rows and the cut level, read at node `p`, channel `q` -/

/-- Round 0's bias, broadcast along the nodes, is entry `(0, q)` of its stack at every node. -/
theorem bias0 (x : (⟨S3x128, .f32⟩ : BufTy).Contents (Elt Ideal)) (p : Fin 100000) (q : Fin 128) :
    val_main_v55 (F := Ideal) x (ix2 p q) = x (ix2 (0 : Fin 3) q) := by
  rw [val_main_v55_apply, val_main_v54_apply, val_main_v53_apply, val_main_v52_apply]
  exact congrArg x (rowIdx_eq 0 q _ rfl (Nat.mod_eq_of_lt q.isLt))

/-- Round 0's running mean, broadcast along the nodes, is entry `(0, q)` of its stack at every node. -/
theorem mean0 (x : (⟨S3x128, .f32⟩ : BufTy).Contents (Elt Ideal)) (p : Fin 100000) (q : Fin 128) :
    val_main_v60 (F := Ideal) x (ix2 p q) = x (ix2 (0 : Fin 3) q) := by
  rw [val_main_v60_apply, val_main_v59_apply, val_main_v58_apply, val_main_v57_apply]
  exact congrArg x (rowIdx_eq 0 q _ rfl (Nat.mod_eq_of_lt q.isLt))

/-- Round 0's scale factor: `rsqrt (var + ε)` is taken channel by channel before the broadcast, so at every node it is
    `rsqrt` of entry `(0, q)` of the variance stack plus `ε`. -/
theorem invStd0 (x : (⟨S3x128, .f32⟩ : BufTy).Contents (Elt Ideal)) (p : Fin 100000) (q : Fin 128) :
    val_main_v68 (F := Ideal) x (ix2 p q) = Ideal.rsqrt (x (ix2 (0 : Fin 3) q) + Cert.Gcn.epsBn) := by
  rw [val_main_v68_apply, val_main_v67_apply, val_main_v66_apply, val_main_v65_apply, val_main_v64_apply, val_main_v63_apply, val_main_v62_apply, val_main_cst_10_apply]
  rw [Ideal.hostUnary_rsqrt_def, Ideal.addf_def, Ideal.ofBits_def]
  exact congrArg (fun j => Ideal.rsqrt (x j + Cert.Gcn.epsBn)) (rowIdx_eq 0 q _ rfl (Nat.mod_eq_of_lt q.isLt))

/-- Round 0's scale `γ`, broadcast along the nodes, is entry `(0, q)` of its stack at every node. -/
theorem gamma0 (x : (⟨S3x128, .f32⟩ : BufTy).Contents (Elt Ideal)) (p : Fin 100000) (q : Fin 128) :
    val_main_v73 (F := Ideal) x (ix2 p q) = x (ix2 (0 : Fin 3) q) := by
  rw [val_main_v73_apply, val_main_v72_apply, val_main_v71_apply, val_main_v70_apply]
  exact congrArg x (rowIdx_eq 0 q _ rfl (Nat.mod_eq_of_lt q.isLt))

/-- Round 0's shift `β`, broadcast along the nodes, is entry `(0, q)` of its stack at every node. -/
theorem beta0 (x : (⟨S3x128, .f32⟩ : BufTy).Contents (Elt Ideal)) (p : Fin 100000) (q : Fin 128) :
    val_main_v78 (F := Ideal) x (ix2 p q) = x (ix2 (0 : Fin 3) q) := by
  rw [val_main_v78_apply, val_main_v77_apply, val_main_v76_apply, val_main_v75_apply]
  exact congrArg x (rowIdx_eq 0 q _ rfl (Nat.mod_eq_of_lt q.isLt))

/-- The cut level of round 0: the zero word broadcast to every entry is `0`. -/
theorem cut0 (i : S100000x128.Idx) : val_main_call2_v0 (F := Ideal) i = 0 := by
  rw [val_main_call2_v0_apply, val_main_call2_cst_apply, Ideal.ofBits_def]
  exact Ideal.ofBits_zero_f32

/-- Round 0: normalise the aggregate with row 0 of each stack, cut at zero. -/
theorem ref_bn0 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S3x128, .f32⟩ : BufTy).Contents (Elt Ideal)) :
    val_main_v80 (F := Ideal) x0 x1 x3 x4 x7 x8 x9 x10 x11 x12
      = Cert.Gcn.bnRelu (val_main_v51 (F := Ideal) x0 x1 x3 x4 x7) (Cert.Gcn.row3 0 x8) (Cert.Gcn.row3 0 x11) (Cert.Gcn.row3 0 x12) (Cert.Gcn.row3 0 x9) (Cert.Gcn.row3 0 x10) := by
  funext i
  obtain ⟨p, q, rfl⟩ : ∃ (p : Fin 100000) (q : Fin 128), i = ix2 p q := ⟨i 0, i 1, eq_ix2 i⟩
  rw [val_main_v80_apply, val_main_v79_apply, val_main_v74_apply, val_main_v69_apply, val_main_v61_apply, val_main_v56_apply,
    bias0, mean0, invStd0, gamma0, beta0, cut0]
  rfl

/-! ## Round 1: the five per-channel rows and the cut level, read at node `p`, channel `q` -/

/-- Round 1's bias, broadcast along the nodes, is entry `(1, q)` of its stack at every node. -/
theorem bias1 (x : (⟨S3x128, .f32⟩ : BufTy).Contents (Elt Ideal)) (p : Fin 100000) (q : Fin 128) :
    val_main_v100 (F := Ideal) x (ix2 p q) = x (ix2 (1 : Fin 3) q) := by
  rw [val_main_v100_apply, val_main_v99_apply, val_main_v98_apply, val_main_v97_apply]
  exact congrArg x (rowIdx_eq 1 q _ rfl (Nat.mod_eq_of_lt q.isLt))

/-- Round 1's running mean, broadcast along the nodes, is entry `(1, q)` of its stack at every node. -/
theorem mean1 (x : (⟨S3x128, .f32⟩ : BufTy).Contents (Elt Ideal)) (p : Fin 100000) (q : Fin 128) :
    val_main_v105 (F := Ideal) x (ix2 p q) = x (ix2 (1 : Fin 3) q) := by
  rw [val_main_v105_apply, val_main_v104_apply, val_main_v103_apply, val_main_v102_apply]
  exact congrArg x (rowIdx_eq 1 q _ rfl (Nat.mod_eq_of_lt q.isLt))

/-- Round 1's scale factor: `rsqrt (var + ε)` is taken channel by channel before the broadcast, so at every node it is
    `rsqrt` of entry `(1, q)` of the variance stack plus `ε`. -/
theorem invStd1 (x : (⟨S3x128, .f32⟩ : BufTy).Contents (Elt Ideal)) (p : Fin 100000) (q : Fin 128) :
    val_main_v113 (F := Ideal) x (ix2 p q) = Ideal.rsqrt (x (ix2 (1 : Fin 3) q) + Cert.Gcn.epsBn) := by
  rw [val_main_v113_apply, val_main_v112_apply, val_main_v111_apply, val_main_v110_apply, val_main_v109_apply, val_main_v108_apply, val_main_v107_apply, val_main_cst_14_apply]
  rw [Ideal.hostUnary_rsqrt_def, Ideal.addf_def, Ideal.ofBits_def]
  exact congrArg (fun j => Ideal.rsqrt (x j + Cert.Gcn.epsBn)) (rowIdx_eq 1 q _ rfl (Nat.mod_eq_of_lt q.isLt))

/-- Round 1's scale `γ`, broadcast along the nodes, is entry `(1, q)` of its stack at every node. -/
theorem gamma1 (x : (⟨S3x128, .f32⟩ : BufTy).Contents (Elt Ideal)) (p : Fin 100000) (q : Fin 128) :
    val_main_v118 (F := Ideal) x (ix2 p q) = x (ix2 (1 : Fin 3) q) := by
  rw [val_main_v118_apply, val_main_v117_apply, val_main_v116_apply, val_main_v115_apply]
  exact congrArg x (rowIdx_eq 1 q _ rfl (Nat.mod_eq_of_lt q.isLt))

/-- Round 1's shift `β`, broadcast along the nodes, is entry `(1, q)` of its stack at every node. -/
theorem beta1 (x : (⟨S3x128, .f32⟩ : BufTy).Contents (Elt Ideal)) (p : Fin 100000) (q : Fin 128) :
    val_main_v123 (F := Ideal) x (ix2 p q) = x (ix2 (1 : Fin 3) q) := by
  rw [val_main_v123_apply, val_main_v122_apply, val_main_v121_apply, val_main_v120_apply]
  exact congrArg x (rowIdx_eq 1 q _ rfl (Nat.mod_eq_of_lt q.isLt))

/-- The cut level of round 1: the zero word broadcast to every entry is `0`. -/
theorem cut1 (i : S100000x128.Idx) : val_main_call3_v0 (F := Ideal) i = 0 := by
  rw [val_main_call3_v0_apply, val_main_call3_cst_apply, Ideal.ofBits_def]
  exact Ideal.ofBits_zero_f32

/-- Round 1: normalise the aggregate with row 1 of each stack, cut at zero. -/
theorem ref_bn1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S3x128, .f32⟩ : BufTy).Contents (Elt Ideal)) :
    val_main_v125 (F := Ideal) x0 x1 x3 x4 x7 x8 x9 x10 x11 x12
      = Cert.Gcn.bnRelu (val_main_v96 (F := Ideal) x0 x1 x3 x4 x7 x8 x9 x10 x11 x12) (Cert.Gcn.row3 1 x8) (Cert.Gcn.row3 1 x11) (Cert.Gcn.row3 1 x12) (Cert.Gcn.row3 1 x9) (Cert.Gcn.row3 1 x10) := by
  funext i
  obtain ⟨p, q, rfl⟩ : ∃ (p : Fin 100000) (q : Fin 128), i = ix2 p q := ⟨i 0, i 1, eq_ix2 i⟩
  rw [val_main_v125_apply, val_main_v124_apply, val_main_v119_apply, val_main_v114_apply, val_main_v106_apply, val_main_v101_apply,
    bias1, mean1, invStd1, gamma1, beta1, cut1]
  rfl

/-! ## Round 2: the five per-channel rows and the cut level, read at node `p`, channel `q` -/

/-- Round 2's bias, broadcast along the nodes, is entry `(2, q)` of its stack at every node. -/
theorem bias2 (x : (⟨S3x128, .f32⟩ : BufTy).Contents (Elt Ideal)) (p : Fin 100000) (q : Fin 128) :
    val_main_v145 (F := Ideal) x (ix2 p q) = x (ix2 (2 : Fin 3) q) := by
  rw [val_main_v145_apply, val_main_v144_apply, val_main_v143_apply, val_main_v142_apply]
  exact congrArg x (rowIdx_eq 2 q _ rfl (Nat.mod_eq_of_lt q.isLt))

/-- Round 2's running mean, broadcast along the nodes, is entry `(2, q)` of its stack at every node. -/
theorem mean2 (x : (⟨S3x128, .f32⟩ : BufTy).Contents (Elt Ideal)) (p : Fin 100000) (q : Fin 128) :
    val_main_v150 (F := Ideal) x (ix2 p q) = x (ix2 (2 : Fin 3) q) := by
  rw [val_main_v150_apply, val_main_v149_apply, val_main_v148_apply, val_main_v147_apply]
  exact congrArg x (rowIdx_eq 2 q _ rfl (Nat.mod_eq_of_lt q.isLt))

/-- Round 2's scale factor: `rsqrt (var + ε)` is taken channel by channel before the broadcast, so at every node it is
    `rsqrt` of entry `(2, q)` of the variance stack plus `ε`. -/
theorem invStd2 (x : (⟨S3x128, .f32⟩ : BufTy).Contents (Elt Ideal)) (p : Fin 100000) (q : Fin 128) :
    val_main_v158 (F := Ideal) x (ix2 p q) = Ideal.rsqrt (x (ix2 (2 : Fin 3) q) + Cert.Gcn.epsBn) := by
  rw [val_main_v158_apply, val_main_v157_apply, val_main_v156_apply, val_main_v155_apply, val_main_v154_apply, val_main_v153_apply, val_main_v152_apply, val_main_cst_18_apply]
  rw [Ideal.hostUnary_rsqrt_def, Ideal.addf_def, Ideal.ofBits_def]
  exact congrArg (fun j => Ideal.rsqrt (x j + Cert.Gcn.epsBn)) (rowIdx_eq 2 q _ rfl (Nat.mod_eq_of_lt q.isLt))

/-- Round 2's scale `γ`, broadcast along the nodes, is entry `(2, q)` of its stack at every node. -/
theorem gamma2 (x : (⟨S3x128, .f32⟩ : BufTy).Contents (Elt Ideal)) (p : Fin 100000) (q : Fin 128) :
    val_main_v163 (F := Ideal) x (ix2 p q) = x (ix2 (2 : Fin 3) q) := by
  rw [val_main_v163_apply, val_main_v162_apply, val_main_v161_apply, val_main_v160_apply]
  exact congrArg x (rowIdx_eq 2 q _ rfl (Nat.mod_eq_of_lt q.isLt))

/-- Round 2's shift `β`, broadcast along the nodes, is entry `(2, q)` of its stack at every node. -/
theorem beta2 (x : (⟨S3x128, .f32⟩ : BufTy).Contents (Elt Ideal)) (p : Fin 100000) (q : Fin 128) :
    val_main_v168 (F := Ideal) x (ix2 p q) = x (ix2 (2 : Fin 3) q) := by
  rw [val_main_v168_apply, val_main_v167_apply, val_main_v166_apply, val_main_v165_apply]
  exact congrArg x (rowIdx_eq 2 q _ rfl (Nat.mod_eq_of_lt q.isLt))

/-- The cut level of round 2: the zero word broadcast to every entry is `0`. -/
theorem cut2 (i : S100000x128.Idx) : val_main_call4_v0 (F := Ideal) i = 0 := by
  rw [val_main_call4_v0_apply, val_main_call4_cst_apply, Ideal.ofBits_def]
  exact Ideal.ofBits_zero_f32

/-- Round 2: normalise the aggregate with row 2 of each stack, cut at zero. -/
theorem ref_bn2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S3x128, .f32⟩ : BufTy).Contents (Elt Ideal)) :
    val_main_v170 (F := Ideal) x0 x1 x3 x4 x7 x8 x9 x10 x11 x12
      = Cert.Gcn.bnRelu (val_main_v141 (F := Ideal) x0 x1 x3 x4 x7 x8 x9 x10 x11 x12) (Cert.Gcn.row3 2 x8) (Cert.Gcn.row3 2 x11) (Cert.Gcn.row3 2 x12) (Cert.Gcn.row3 2 x9) (Cert.Gcn.row3 2 x10) := by
  funext i
  obtain ⟨p, q, rfl⟩ : ∃ (p : Fin 100000) (q : Fin 128), i = ix2 p q := ⟨i 0, i 1, eq_ix2 i⟩
  rw [val_main_v170_apply, val_main_v169_apply, val_main_v164_apply, val_main_v159_apply, val_main_v151_apply, val_main_v146_apply,
    bias2, mean2, invStd2, gamma2, beta2, cut2]
  rfl

end Cert.ReferenceIdeal.Bn

end
-- ==== Proof.RefBackbone.lean ====
/-
  The reference's result is the backbone over its own edge aggregation.

  Reading the reference's stages from the result back to the arguments — output projection, then three times
  (normalise, aggregate, mix), then the input projection — each stage is one map of the specification applied to the
  stage before it, which is the definition of `backbone` unfolded.
-/
import proofs.«402512_j53197464928915_1_alg».proof.Proof.RefDense
import proofs.«402512_j53197464928915_1_alg».proof.Proof.RefBn
import proofs.«402512_j53197464928915_1_alg».proof.Proof.RefEdge

noncomputable section

namespace Cert.ReferenceIdeal.Backbone

open Cert.ReferenceIdeal Cert.ReferenceIdeal.Read Idealize.ShloMosaic

/-- The reference's result stage is `backbone` over `aggR` of the edge list. -/
theorem ref_backbone (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S3x128, .f32⟩ : BufTy).Contents (Elt Ideal)) :
    val_main_v174 (F := Ideal) x0 x1 x3 x4 x5 x6 x7 x8 x9 x10 x11 x12
      = Cert.Gcn.backbone (Cert.ReferenceIdeal.Edge.aggR x1) x0 x3 x4 x5 x6 x7 x8 x9 x10 x11 x12 := by
  unfold Cert.Gcn.backbone Cert.Gcn.layer
  rw [Cert.ReferenceIdeal.Dense.ref_out, Cert.ReferenceIdeal.Bn.ref_bn2, Cert.ReferenceIdeal.Edge.ref_agg2,
    Cert.ReferenceIdeal.Dense.ref_hw2, Cert.ReferenceIdeal.Bn.ref_bn1, Cert.ReferenceIdeal.Edge.ref_agg1,
    Cert.ReferenceIdeal.Dense.ref_hw1, Cert.ReferenceIdeal.Bn.ref_bn0, Cert.ReferenceIdeal.Edge.ref_agg0,
    Cert.ReferenceIdeal.Dense.ref_hw0, Cert.ReferenceIdeal.Dense.ref_h0]

end Cert.ReferenceIdeal.Backbone

end
-- ==== Proof.PreRange.lean ====
/-
  The precondition bounds every source index of the edge list.

  The printed precondition is a conjunction, one bit, of thirteen tests: twelve "every entry is finite" tests of the
  float arguments and one test of the edge list — its first row, entry by entry, is at least `-100000` and below
  `100000` as a signed word, the two comparison bits and-ed and the result and-reduced over the 1600000 entries. If
  the whole conjunction is `1` then so is its last conjunct, and an and-reduction that is `1` has every entry `1`:
  each entry passes both comparisons.
-/
import proofs.«402512_j53197464928915_1_alg».proof.Pre_finite_inputs
import proofs.«402512_j53197464928915_1_alg».proof.Proof.EdgeRange
import Idealize.ShloMosaic.Lib.ReduceAll
import Idealize.ShloMosaic.Lib.Pipeline.Value

noncomputable section

namespace Cert.Pre_finite_inputs.Range

open Cert.Pre_finite_inputs Idealize.ShloMosaic Idealize.ShloMosaic.ValueIdx

/-- If the printed precondition holds of the arguments, every entry of the edge list's first row is in
    `[-100000, 100000)`. -/
theorem src_in_range [hP : Cert.Pre_finite_inputs.Facts] (main_arg0 : FVec Ideal S100000x128 .f32) (main_arg1 : IVec S2x1600000 32) (main_arg2 : FVec Ideal S1600000x1 .f32) (main_arg3 : FVec Ideal S128x128 .f32) (main_arg4 : FVec Ideal S128 .f32) (main_arg5 : FVec Ideal S128x128 .f32) (main_arg6 : FVec Ideal S128 .f32) (main_arg7 : FVec Ideal S3x128x128 .f32) (main_arg8 : FVec Ideal S3x128 .f32) (main_arg9 : FVec Ideal S3x128 .f32) (main_arg10 : FVec Ideal S3x128 .f32) (main_arg11 : FVec Ideal S3x128 .f32) (main_arg12 : FVec Ideal S3x128 .f32)
    (h : Cert.Pre_finite_inputs.fn (F := Ideal) main_arg0 main_arg1 main_arg2 main_arg3 main_arg4 main_arg5 main_arg6 main_arg7 main_arg8 main_arg9 main_arg10 main_arg11 main_arg12 = fun _ => 1#1) :
    Cert.Gcn.SrcInRange main_arg1 := by
  -- the precondition at its one index: a conjunction of bits whose last conjunct is the edge test
  have h0 := congrFun h ValueIdx.ix0
  dsimp only [fn, fn_part1, fn_part2, fn_part3, fn_part4] at h0
  have h1 := (IntOp.andi_eq_one.1 h0).2
  clear h0 h
  intro e
  -- an and-reduction over every axis that came out `1` met a `1` at every entry, entry `e` among them
  haveI : Subsingleton S_.Idx := ⟨fun a b => funext fun d => d.elim0⟩
  have h2 := Host.reduce_andi_all _ _ _ _ _ h1 (ix1 e)
  clear h1
  -- that entry is the conjunction of the two comparison bits
  obtain ⟨hge, hlt⟩ := IntOp.andi_eq_one.1 h2
  clear h2
  -- entry `e` of the reshaped first row is entry `(0, e)` of the edge list: both sit at row-major position `e`
  -- of the one-row slice, whose offsets are `(0, 0)`
  have hread : shapeCast S1600000 (extractStridedSlice S1x1600000 ![0, 0] main_arg1 Facts.slices_S2x1600000_S1x1600000_0_0)
      Facts.shapeCasts_S1x1600000_S1600000 (ix1 e) = main_arg1 (ix2 (0 : Fin 2) e) := by
    refine (shapeCast_apply _ _ (ix1 e) (ix2 (0 : Fin 1) e) ?_).trans ?_
    · rw [Shape.rowMajor_val_two, Shape.rowMajor_val_one]
      show 0 * 1600000 + e.val = e.val
      omega
    · exact extractStridedSlice_apply _ _ _ _ _
        (fun a => match a with | ⟨0, _⟩ => rfl | ⟨1, _⟩ => by show e.val = 0 + e.val; omega)
  -- a comparison at an entry compares the entries, and the broadcast bound reads its constant everywhere
  rw [← hread]
  exact ⟨hge, hlt⟩

end Cert.Pre_finite_inputs.Range

end
-- ==== Proof.lean ====
/-
  Equivalence, over the extended reals, of a Pallas graph-convolution backbone and its jnp reference.

  The network: 100000 nodes with 128 channels, 1600000 edges. An input projection `max (x · w₀ + b₀) 0`; three
  rounds of "mix the channels by the layer's weight, aggregate over the edges and self loops with the symmetric
  degree weights, add the layer's bias, normalise with the running statistics, cut at zero"; an output projection.
  The kernel program computes the five matrix products and the three normalisations in eight kernel regions, each
  tiling the nodes into twenty blocks of 5000 rows, and leaves the edge aggregation to host operations; the reference
  is host operations throughout.

  Why the two agree. Read at exact arithmetic, a change of float format is the identity and a product accumulated
  into zeros is the plain sum, so each kernel region leaves, row block by row block, exactly the specification's map
  of the arrays it reads (Spec.lean, KReg0–KReg7), and each reference stage is the same map (RefDense.lean,
  RefBn.lean); the channel-mixing regions add a zero row, and `y + 0 = y` for every extended real. Both results are
  therefore ONE composition (`backbone`, Model.lean) over an edge aggregation, and the aggregations differ in one
  place: the kernel program gathers rows through a "take" that fills a row with a marker when its wrapped source
  index falls outside `[0, 99999]`, where the reference's gather clamps the index. Under the precondition's bound
  `-100000 ≤ edge_index[0] < 100000` (PreRange.lean) every wrapped index is in range, the fill never happens
  (KHostAgg.lean), and the two aggregations are the same function. No other law of the extended reals is used, and
  finiteness of the float inputs is never opened.

  The frames of the two kernel programs are the generated ones; the reference's is its generated run with the result
  dropped. The kernel program's value is read off a run that names its result buffer at the last boundary
  (RunValue.lean) and walked back to the arguments (KChain.lean). `preserves` is `True`: the idealisation rewrote
  nothing.
-/
import proofs.«402512_j53197464928915_1_alg».proof.Defs
import proofs.«402512_j53197464928915_1_alg».proof.Proof.Gen.Kernel
import proofs.«402512_j53197464928915_1_alg».proof.Proof.Gen.Kernel.Frame
import proofs.«402512_j53197464928915_1_alg».proof.Proof.Gen.KernelIdeal
import proofs.«402512_j53197464928915_1_alg».proof.Proof.Gen.KernelIdeal.Frame
import proofs.«402512_j53197464928915_1_alg».proof.Proof.Gen.ReferenceIdeal
import proofs.«402512_j53197464928915_1_alg».proof.Proof.RefRun
import proofs.«402512_j53197464928915_1_alg».proof.Proof.RefRead
import proofs.«402512_j53197464928915_1_alg».proof.Proof.RefReadEq
import proofs.«402512_j53197464928915_1_alg».proof.Proof.Gen.Pre_finite_inputs
import proofs.«402512_j53197464928915_1_alg».proof.Proof.RunValue
import proofs.«402512_j53197464928915_1_alg».proof.Proof.KChain
import proofs.«402512_j53197464928915_1_alg».proof.Proof.RefBackbone
import proofs.«402512_j53197464928915_1_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The precondition's last conjunct, decoded: every source index of the kernel program's edge list is a valid row. -/
theorem src_in_range (m : (ℓ : Loc Cert.KernelIdeal.nD Cert.KernelIdeal.τ Cert.KernelIdeal.sig) → Buf (Elt Ideal) ℓ) (h : Cert.Pre_KernelIdeal m)
    (c : Dev Cert.KernelIdeal.nD) : Cert.Gcn.SrcInRange (m ((c.tc : Thread Cert.KernelIdeal.nD Cert.KernelIdeal.τ).loc Cert.KernelIdeal.main_arg1)) :=
  Cert.Pre_finite_inputs.Range.src_in_range _ _ _ _ _ _ _ _ _ _ _ _ _ (h c)

/-- Both programs end with the backbone of the arguments over the reference's edge aggregation: the kernel program by
    its run read back through the regions, the reference by its stages, from memories that agree on the arguments. -/
theorem algebraic : Cert.algebraic_KernelIdeal_ReferenceIdeal := by
  intro m ρ m' ρ' hpre hagree
  refine ⟨fun c => Cert.Gcn.backbone (Cert.ReferenceIdeal.Edge.aggR (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.kernel_backbone m ρ c (src_in_range m hpre c)), (h c).2⟩)
      (Cert.KernelIdeal.RunValue.run_value (F := Ideal) m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8, e9, e10, e11, e12⟩ := hagree c
    rw [Cert.ReferenceIdeal.Read.val_main_v174_eq, Cert.ReferenceIdeal.Backbone.ref_backbone, e0, e1, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
